-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S256x128 .f32) (main_arg8 : FVec F S128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S512 .f32) (main_arg5 : FVec F S512x256 .f32) (main_arg6 : FVec F S256 .f32) (main_arg7 : FVec F S256x128 .f32) (main_arg8 : FVec F S128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S4096x128 .f32) (main_arg1 : FVec F S4096x4096 .f32) (main_arg2 : FVec F S4096x4096 .f32) (main_arg3 : FVec F S128x512 .f32) (main_arg4 : FVec F S512 .f32) (main_arg5 : FVec F S512x256 .f32) (main_arg6 : FVec F S256 .f32) (main_arg7 : FVec F S256x128 .f32) (main_arg8 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_arg7 main_arg8 main_v13 main_v16
-- ==== Kernel.lean ====
abbrev S4096x128 : Shape := ⟨2, ![4096, 128]⟩
abbrev S4096x4096 : Shape := ⟨2, ![4096, 4096]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x512 : Shape := ⟨2, ![1, 512]⟩
abbrev S1x256 : Shape := ⟨2, ![1, 256]⟩
abbrev S1x128 : Shape := ⟨2, ![1, 128]⟩
abbrev S256x4096 : Shape := ⟨2, ![256, 4096]⟩
abbrev S4096x256 : Shape := ⟨2, ![4096, 256]⟩
abbrev S256x512 : Shape := ⟨2, ![256, 512]⟩
abbrev S256x256 : Shape := ⟨2, ![256, 256]⟩

abbrev nBuf : Space → Nat
  | .hbm => 13
  | .vmem => 23
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4096, .f32⟩
  | .hbm, ⟨3, _⟩ => ⟨S128x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1x512, .f32⟩
  | .hbm, ⟨10, _⟩ => ⟨S1x256, .f32⟩
  | .hbm, ⟨11, _⟩ => ⟨S1x128, .f32⟩
  | .hbm, ⟨12, _⟩ => ⟨S4096x128, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x128, .f32⟩
  | .local _ .vmem, ⟨5, _⟩ => ⟨S128x512, .f32⟩
  | .local _ .vmem, ⟨6, _⟩ => ⟨S1x512, .f32⟩
  | .local _ .vmem, ⟨7, _⟩ => ⟨S512x256, .f32⟩
  | .local _ .vmem, ⟨8, _⟩ => ⟨S1x256, .f32⟩
  | .local _ .vmem, ⟨9, _⟩ => ⟨S256x128, .f32⟩
  | .local _ .vmem, ⟨10, _⟩ => ⟨S1x128, .f32⟩
  | .local _ .vmem, ⟨11, _⟩ => ⟨S256x128, .f32⟩
  | .local _ .vmem, ⟨12, _⟩ => ⟨S256x128, .f32⟩
  | .local _ .vmem, ⟨13, _⟩ => ⟨S4096x4096, .bf16⟩
  | .local _ .vmem, ⟨14, _⟩ => ⟨S4096x128, .bf16⟩
  | .local _ .vmem, ⟨15, _⟩ => ⟨S128x512, .bf16⟩
  | .local _ .vmem, ⟨16, _⟩ => ⟨S512x256, .bf16⟩
  | .local _ .vmem, ⟨17, _⟩ => ⟨S256x128, .bf16⟩
  | .local _ .vmem, ⟨18, _⟩ => ⟨S4096x256, .bf16⟩
  | .local _ .vmem, ⟨19, _⟩ => ⟨S4096x128, .bf16⟩
  | .local _ .vmem, ⟨20, _⟩ => ⟨S256x512, .f32⟩
  | .local _ .vmem, ⟨21, _⟩ => ⟨S256x256, .f32⟩
  | .local _ .vmem, ⟨22, _⟩ => ⟨S256x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c16_i32 : BitVec 32 := 16#32
  let v4 : BitVec 1 := Scalar.cmpi .sle arg0 c16_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c1_i32_17 : BitVec 32 := 1#32
  let v40 : BitVec 32 := Scalar.subi arg0 c1_i32_17
  let c256_i32 : BitVec 32 := 256#32
  let v41 : BitVec 32 := Scalar.muli v40 c256_i32
  let v42 : Index := Scalar.indexCast v41
  let c0_18 : Index := 0#32
  ![v42.toNat, 0]
def k0_cond3 (i : grid0.Coords) : BitVec 1 :=
  let arg0 : BitVec 32 := BitVec.ofNat 32 (i 0).val
  let c17_i32 : BitVec 32 := 17#32
  let v8 : BitVec 1 := Scalar.cmpi .sge arg0 c17_i32
  let c32_i32 : BitVec 32 := 32#32
  let v9 : BitVec 1 := Scalar.cmpi .sle arg0 c32_i32
  let v10 : BitVec 1 := Scalar.andi v8 v9
  let v11 : BitVec 32 := Scalar.extui v10
  let c0_i32_2 : BitVec 32 := 0#32
  let v12 : BitVec 1 := Scalar.cmpi .ne v11 c0_i32_2
  v12

def k0_off2 (i : grid0.Coords) : Fin 2 → Nat :=
  let arg0 : BitVec 32 := BitVec.ofNat 32 (i 0).val
  let c16_i32_17 : BitVec 32 := 16#32
  let v40 : BitVec 32 := Scalar.subi arg0 c16_i32_17
  let c1_i32_18 : BitVec 32 := 1#32
  let v41 : BitVec 32 := Scalar.subi v40 c1_i32_18
  let c256_i32 : BitVec 32 := 256#32
  let v42 : BitVec 32 := Scalar.muli v41 c256_i32
  let v43 : Index := Scalar.indexCast v42
  let c0_19 : Index := 0#32
  ![v43.toNat, 0]
def k0_cond6 (i : grid0.Coords) : BitVec 1 :=
  let arg0 : BitVec 32 := BitVec.ofNat 32 (i 0).val
  let c16_i32_6 : BitVec 32 := 16#32
  let v19 : BitVec 1 := Scalar.cmpi .sge arg0 c16_i32_6
  let c32_i32_7 : BitVec 32 := 32#32
  let v20 : BitVec 1 := Scalar.cmpi .slt arg0 c32_i32_7
  let v21 : BitVec 1 := Scalar.andi v19 v20
  let v22 : BitVec 32 := Scalar.extui v21
  let c0_i32_8 : BitVec 32 := 0#32
  let v23 : BitVec 1 := Scalar.cmpi .ne v22 c0_i32_8
  v23

def k0_off3 (i : grid0.Coords) : Fin 2 → Nat :=
  let arg0 : BitVec 32 := BitVec.ofNat 32 (i 0).val
  let c16_i32_11 : BitVec 32 := 16#32
  let v29 : BitVec 32 := Scalar.subi arg0 c16_i32_11
  let c256_i32 : BitVec 32 := 256#32
  let v32 : BitVec 32 := Scalar.muli v29 c256_i32
  let v33 : Index := Scalar.indexCast v32
  let c0_13 : Index := 0#32
  ![v33.toNat, 0]
def k0_cond7 (i : grid0.Coords) : BitVec 1 :=
  let arg0 : BitVec 32 := BitVec.ofNat 32 (i 0).val
  let c32_i32_9 : BitVec 32 := 32#32
  let v24 : BitVec 1 := Scalar.cmpi .sge arg0 c32_i32_9
  let c48_i32 : BitVec 32 := 48#32
  let v25 : BitVec 1 := Scalar.cmpi .slt arg0 c48_i32
  let v26 : BitVec 1 := Scalar.andi v24 v25
  let v27 : BitVec 32 := Scalar.extui v26
  let c0_i32_10 : BitVec 32 := 0#32
  let v28 : BitVec 1 := Scalar.cmpi .ne v27 c0_i32_10
  v28

def k0_off4 (i : grid0.Coords) : Fin 2 → Nat :=
  let arg0 : BitVec 32 := BitVec.ofNat 32 (i 0).val
  let c32_i32_11 : BitVec 32 := 32#32
  let v29 : BitVec 32 := Scalar.subi arg0 c32_i32_11
  let c256_i32 : BitVec 32 := 256#32
  let v30 : BitVec 32 := Scalar.muli v29 c256_i32
  let v31 : Index := Scalar.indexCast v30
  let c0 : Index := 0#32
  ![v31.toNat, 0]
def k0_cond4 (i : grid0.Coords) : BitVec 1 :=
  let arg0 : BitVec 32 := BitVec.ofNat 32 (i 0).val
  let c33_i32 : BitVec 32 := 33#32
  let v13 : BitVec 1 := Scalar.cmpi .sge arg0 c33_i32
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c32_i32 : BitVec 32 := 32#32
  let v0 : BitVec 32 := Scalar.subi arg0 c32_i32
  let c1_i32 : BitVec 32 := 1#32
  let v1 : BitVec 32 := Scalar.subi v0 c1_i32
  let c0_i32 : BitVec 32 := 0#32
  let c15_i32 : BitVec 32 := 15#32
  let v2 : BitVec 32 := Scalar.maxsi c0_i32 v1
  let v3 : BitVec 32 := Scalar.minsi c15_i32 v2
  let c0_i32_0 : BitVec 32 := 0#32
  let c0_i32_1 : BitVec 32 := 0#32
  ![v3.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S512_S1x512 : S512.ShapeCasts S1x512
  shapeCasts_S256_S1x256 : S256.ShapeCasts S1x256
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S128x512_S128x512_0_0 : ∀ a, (![0, 0] : Fin 2 → Nat) a + S128x512.size a ≤ S128x512.size a
  h_S128x512 : 0 < S128x512.numel
  shapeCasts_S128x512_S128x512 : S128x512.ShapeCasts S128x512
  packedbf16_S128x512_S128x512_0_0 : (Rect.unit (s := S128x512) ![0, 0] S128x512.size inb_S128x512_S128x512_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S512x256_S512x256_0_0 : (Rect.unit (s := S512x256) ![0, 0] S512x256.size inb_S512x256_S512x256_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S256x128_S256x128_0_0 : (Rect.unit (s := S256x128) ![0, 0] S256x128.size inb_S256x128_S256x128_0_0).PackedRows (EltTy.packing .bf16)
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  h_S256x256 : 0 < S256x256.numel
  shapeCasts_S256x256_S256x256 : S256x256.ShapeCasts S256x256
  inb_S256x256_S256x256_0_0 : ∀ a, (![0, 0] : Fin 2 → Nat) a + S256x256.size a ≤ S256x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x4096_S256x4096_0_0 : ∀ a, (![0, 0] : Fin 2 → Nat) a + S256x4096.size a ≤ S256x4096.size a
  h_S256x4096 : 0 < S256x4096.numel
  shapeCasts_S256x512_S256x512 : S256x512.ShapeCasts S256x512
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  dot_S256x512_S512x256_S256x256_1_0_0_1_n_n_wf : DotDims.WF S256x512 S512x256 S256x256 [1] [0] [0] [1] [] []
  dot_S256x256_S256x128_S256x128_1_0_0_1_n_n_wf : DotDims.WF S256x256 S256x128 S256x128 [1] [0] [0] [1] [] []
  dot_S256x4096_S4096x128_S256x128_1_0_0_1_n_n_wf : DotDims.WF S256x4096 S4096x128 S256x128 [1] [0] [0] [1] [] []
  dot_S256x128_S128x512_S256x512_1_0_0_1_n_n_wf : DotDims.WF S256x128 S128x512 S256x512 [1] [0] [0] [1] [] []
  dot_S256x4096_S4096x256_S256x256_1_0_0_1_n_n_wf : DotDims.WF S256x4096 S4096x256 S256x256 [1] [0] [0] [1] [] []
  hrank0 : 0 < grid0.rank
  k0_off1_inb : ∀ i : grid0.Coords, ∀ (k0_h2 : k0_cond2 i = 1#1), ∀ a, (k0_off1 i) a + S256x256.size a ≤ S4096x256.size a
  k0_off1_packedbf16 : ∀ i : grid0.Coords, ∀ (k0_h2 : k0_cond2 i = 1#1), (Rect.unit (s := S4096x256) (k0_off1 i) S256x256.size (k0_off1_inb i k0_h2)).PackedRows (EltTy.packing .bf16)
  k0_off2_inb : ∀ i : grid0.Coords, ∀ (k0_h3 : k0_cond3 i = 1#1), ∀ a, (k0_off2 i) a + S256x128.size a ≤ S4096x128.size a
  k0_off2_packedbf16 : ∀ i : grid0.Coords, ∀ (k0_h3 : k0_cond3 i = 1#1), (Rect.unit (s := S4096x128) (k0_off2 i) S256x128.size (k0_off2_inb i k0_h3)).PackedRows (EltTy.packing .bf16)
  k0_off3_inb : ∀ i : grid0.Coords, ∀ (k0_h6 : k0_cond6 i = 1#1), ∀ a, (k0_off3 i) a + S256x4096.size a ≤ S4096x4096.size a
  k0_off3_packedbf16 : ∀ i : grid0.Coords, ∀ (k0_h6 : k0_cond6 i = 1#1), (Rect.unit (s := S4096x4096) (k0_off3 i) S256x4096.size (k0_off3_inb i k0_h6)).PackedRows (EltTy.packing .bf16)
  k0_off4_inb : ∀ i : grid0.Coords, ∀ (k0_h7 : k0_cond7 i = 1#1), ∀ a, (k0_off4 i) a + S256x4096.size a ≤ S4096x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S4096x128.size a
  hwx0_9 : ∀ i : grid0.Coords, EltTy.bits .f32 = 32 ∨ (Rect.block (s := S4096x128) S256x128.size (cc0_transform_9 i) (hinb0_9 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v2) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S256x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond4 i == 1#1) | ⟨_ + 10, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S4096x512 : Shape := ⟨2, ![4096, 512]⟩
abbrev S1x512 : Shape := ⟨2, ![1, 512]⟩
abbrev S_ : Shape := ⟨0, ![]⟩
abbrev S4096x256 : Shape := ⟨2, ![4096, 256]⟩
abbrev S1x256 : Shape := ⟨2, ![1, 256]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4096, .f32⟩
  | .hbm, ⟨3, _⟩ => ⟨S128x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S4096x512, .f32⟩
  | .hbm, ⟨10, _⟩ => ⟨S4096x512, .f32⟩
  | .hbm, ⟨11, _⟩ => ⟨S1x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x256, .f32⟩
  | .hbm, ⟨18, _⟩ => ⟨S4096x256, .f32⟩
  | .hbm, ⟨19, _⟩ => ⟨S1x256, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x128, .f32⟩
  | .hbm, ⟨26, _⟩ => ⟨S4096x128, .f32⟩
  | .hbm, ⟨27, _⟩ => ⟨S1x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S4096x128, .f32⟩
  | .hbm, ⟨32, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  dot_S4096x128_S128x512_S4096x512_1_0_0_1_n_n_wf : DotDims.WF S4096x128 S128x512 S4096x512 [1] [0] [0] [1] [] []
  dot_S4096x4096_S4096x512_S4096x512_1_0_0_1_n_n_wf : DotDims.WF S4096x4096 S4096x512 S4096x512 [1] [0] [0] [1] [] []
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.LibOverlay.lean ====
/-
  Writing one rectangle of a buffer: the contents a single store leaves are the old contents with the
  rectangle's part replaced by the payload (`Rect.overlay`), and what that reads at an index of a
  unit-stride rectangle: inside the rectangle the payload at the index less the offsets, outside the
  old contents.
-/
import Idealize.ShloMosaic.Lib.Pipeline.FrameBody
import Idealize.ShloMosaic.Lib.Pipeline.Value

noncomputable section

namespace Idealize.ShloMosaic

open Idealize.SL.Sem

namespace View

variable {sig : RefSig} {κ : Kind} {sp : Space} {s : Shape} {e : EltTy} {Val : EltTy → Type}

/-- One store through `r` over contents `f` reads back as `f`'s reading with `r`'s part replaced by the payload. -/
theorem read_writes_single (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [read_writes_cons_emb, Rect.overlay_emb]
  · have hy' : y ∉ Finset.univ.map r.emb := by rwa [Rect.map_emb_univ]
    rw [writes_cons, read_slice_write_of_not_mem r _ _ _ hy', writes_nil, Rect.overlay_of_not_mem _ _ _ hy]

end View

namespace Rect

variable {s : Shape} {α : Type}

/-- Inside a unit-stride rectangle the overlay is the payload, at the index less the offsets. -/
theorem overlay_unit_of_mem {off size : Fin s.rank → Nat} {inb : ∀ a, off a + size a ≤ s.size a}
    (X : s.Idx → α) (G : (Rect.unit off size inb).shape.Idx → α) (y : s.Idx)
    (x : (Rect.unit off size inb).shape.Idx) (hx : ∀ a, (y a : Nat) = off a + (x a : Nat)) :
    (Rect.unit off size inb).overlay X G y = G x := by
  have : (Rect.unit off size inb).emb x = y := by
    funext a; apply Fin.ext; rw [Rect.emb_apply]; simp only [off_unit, stride_unit, Nat.one_mul]; exact (hx a).symm
  rw [← this, Rect.overlay_emb]

/-- Off a unit-stride rectangle (some coordinate outside its range) the overlay is the old contents. -/
theorem overlay_unit_of_not_mem {off size : Fin s.rank → Nat} {inb : ∀ a, off a + size a ≤ s.size a}
    (X : s.Idx → α) (G : (Rect.unit off size inb).shape.Idx → α) (y : s.Idx)
    (a : Fin s.rank) (ha : (y a : Nat) < off a ∨ off a + size a ≤ (y a : Nat)) :
    (Rect.unit off size inb).overlay X G y = X y := by
  apply Rect.overlay_of_not_mem
  intro hm
  have := (Rect.mem_set_unit.mp hm) a
  omega

/-- A store through the whole shape (zero offsets, however the zeros are spelt) replaces everything. -/
theorem overlay_unit_zero {off : Fin s.rank → Nat} (h : off = fun _ => 0) (inb : ∀ a, off a + s.size a ≤ s.size a)
    (X : s.Idx → α) (w : s.Idx → α) : (Rect.unit off s.size inb).overlay X w = w := by
  subst h; funext y
  have e := Rect.overlay_emb (Rect.whole s) X w y
  rw [Rect.emb_whole_apply] at e
  exact e

/-- The two-axis zero offsets as the constant zero function. -/
theorem zero2 : (![0, 0] : Fin 2 → Nat) = fun _ => 0 := by
  funext a; fin_cases a <;> rfl

end Rect

end Idealize.ShloMosaic

end
-- ==== Proof.BodyK.Defs.lean ====
/-
  What the fused three-layer kernel keeps in its scratch buffers from grid point to grid point, stated as
  functions of the input blocks (generic in the float instance):
  the casts of x, W3, W1, W2 made at point 0; per row block b of 256 rows, layer 1's staged accumulator
  U1 b = (adj_b · x) · W3, its finished rows S2 b = relu(U1 b + b3) · W1, layer 2's accumulator
  U2 b = A2_b · S2 (over ALL rows of S2), S3 b = relu(U2 b + b1) · W2, the cached casts of A2's row blocks,
  layer 3's accumulator U3 b = A2_b · S3, and the output block OUT b = relu(U3 b + b2).
  `Inv n st` says which of these the scratch state `st` holds before grid point n.
-/
import proofs.«128992_g77695958385291_cont_9to1c4b_463_14_alg».proof.Proof.Gen.Kernel.Frame
import proofs.«128992_g77695958385291_cont_9to1c4b_463_14_alg».proof.Proof.Gen.Kernel.Skeleton
import proofs.«128992_g77695958385291_cont_9to1c4b_463_14_alg».proof.Proof.LibOverlay
import Idealize.ShloMosaic.Lib.ValueIdx

set_option maxRecDepth 16384

noncomputable section

namespace Cert.Kernel.Body

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Grid point number `n`. -/
abbrev pt (n : ℕ) (h : n < 49) : Fin cfg0.N := ⟨n, lt_of_lt_of_eq h N_0.symm⟩

theorem lt49 (t : Fin cfg0.N) : t.val < 49 := lt_of_lt_of_eq t.isLt N_0

/-! ## The input blocks at a point, at their literal types -/

abbrev adjB (c : Dev nD) (t : Fin cfg0.N) : Vec F S256x4096 .f32 := iblk m c 0 t
abbrev a2B (c : Dev nD) (t : Fin cfg0.N) : Vec F S256x4096 .f32 := iblk m c 1 t
abbrev xB (c : Dev nD) (t : Fin cfg0.N) : Vec F S4096x128 .f32 := iblk m c 2 t
abbrev w3B (c : Dev nD) (t : Fin cfg0.N) : Vec F S128x512 .f32 := iblk m c 3 t
abbrev b3B (c : Dev nD) (t : Fin cfg0.N) : Vec F S1x512 .f32 := iblk m c 4 t
abbrev w1B (c : Dev nD) (t : Fin cfg0.N) : Vec F S512x256 .f32 := iblk m c 5 t
abbrev b1B (c : Dev nD) (t : Fin cfg0.N) : Vec F S1x256 .f32 := iblk m c 6 t
abbrev w2B (c : Dev nD) (t : Fin cfg0.N) : Vec F S256x128 .f32 := iblk m c 7 t
abbrev b2B (c : Dev nD) (t : Fin cfg0.N) : Vec F S1x128 .f32 := iblk m c 8 t

/-! ## The scratch state -/

/-- What the ten scratch buffers read. -/
structure St (F : FTy → Type) [FloatOps F] where
  a2c : Vec F S4096x4096 .bf16
  xc : Vec F S4096x128 .bf16
  w3c : Vec F S128x512 .bf16
  w1c : Vec F S512x256 .bf16
  w2c : Vec F S256x128 .bf16
  s2 : Vec F S4096x256 .bf16
  s3 : Vec F S4096x128 .bf16
  u1 : Vec F S256x512 .f32
  u2 : Vec F S256x256 .f32
  u3 : Vec F S256x128 .f32

/-! ## What the kernel computes, block by block -/

/-- The casts made at the first point. -/
def XC (c : Dev nD) : Vec F S4096x128 .bf16 := k0_pay1 (xB m c (pt 0 (by omega)))
def W3C (c : Dev nD) : Vec F S128x512 .bf16 := k0_pay2 (w3B m c (pt 0 (by omega)))
def W1C (c : Dev nD) : Vec F S512x256 .bf16 := k0_pay3 (w1B m c (pt 0 (by omega)))
def W2C (c : Dev nD) : Vec F S256x128 .bf16 := k0_pay4 (w2B m c (pt 0 (by omega)))

/-- Layer 1's accumulator for row block `b`: (adj_b · x) · W3, computed at point `b`. -/
def U1 (c : Dev nD) (b : Fin 16) : Vec F S256x512 .f32 :=
  k0_pay8 (adjB m c (pt b.val (by omega))) (XC m c) (W3C m c)

/-- Layer 2's support rows of block `b`: relu(U1 b + b3) · W1, computed at point `b + 1`. -/
def S2blk (c : Dev nD) (b : Fin 16) : Vec F S256x256 .bf16 :=
  k0_pay5 (U1 m c b) (b3B m c (pt (b.val + 1) (by omega))) (W1C m c)

/-- A row index of a 4096-row array as (block of 256 rows, row in the block). -/
abbrev rowBlk (r : Fin 4096) : Fin 16 := ⟨r.val / 256, by omega⟩
abbrev rowIn (r : Fin 4096) : Fin 256 := ⟨r.val % 256, by omega⟩

/-- Layer 2's whole support matrix, the sixteen blocks stacked. -/
def S2 (c : Dev nD) : Vec F S4096x256 .bf16 := fun idx => S2blk m c (rowBlk (idx 0)) (ix2 (rowIn (idx 0)) (idx 1))

/-- Layer 2's accumulator for row block `b`: A2_b · S2, computed at point `16 + b`. -/
def U2 (c : Dev nD) (b : Fin 16) : Vec F S256x256 .f32 :=
  k0_pay11 (a2B m c (pt (16 + b.val) (by omega))) (S2 m c)

/-- Layer 3's support rows of block `b`: relu(U2 b + b1) · W2, computed at point `17 + b`. -/
def S3blk (c : Dev nD) (b : Fin 16) : Vec F S256x128 .bf16 :=
  k0_pay6 (U2 m c b) (b1B m c (pt (17 + b.val) (by omega))) (W2C m c)

def S3 (c : Dev nD) : Vec F S4096x128 .bf16 := fun idx => S3blk m c (rowBlk (idx 0)) (ix2 (rowIn (idx 0)) (idx 1))

/-- The cached cast of A2's row block `b`, stored at point `16 + b`. -/
def A2Cblk (c : Dev nD) (b : Fin 16) : Vec F S256x4096 .bf16 := k0_pay10 (a2B m c (pt (16 + b.val) (by omega)))

def A2C (c : Dev nD) : Vec F S4096x4096 .bf16 := fun idx => A2Cblk m c (rowBlk (idx 0)) (ix2 (rowIn (idx 0)) (idx 1))

/-- Layer 3's accumulator for row block `b`: A2_b · S3 from the cache, computed at point `32 + b`. -/
def U3 (c : Dev nD) (b : Fin 16) : Vec F S256x128 .f32 := k0_pay12 (A2Cblk m c b) (S3 m c)

/-- The output block `b`: relu(U3 b + b2), stored at point `33 + b`. -/
def OUT (c : Dev nD) (b : Fin 16) : Vec F S256x128 .f32 := k0_pay7 (U3 m c b) (b2B m c (pt (33 + b.val) (by omega)))

/-! ## The invariant -/

/-- What the scratch state holds before grid point `n` (after point `n - 1`). -/
structure Inv (c : Dev nD) (n : ℕ) (st : St F) : Prop where
  consts : 1 ≤ n → st.xc = XC m c ∧ st.w3c = W3C m c ∧ st.w1c = W1C m c ∧ st.w2c = W2C m c
  u1 : ∀ (h1 : 1 ≤ n) (h2 : n ≤ 16), st.u1 = U1 m c ⟨n - 1, by omega⟩
  s2 : ∀ idx : S4096x256.Idx, (idx 0).val < 256 * (n - 1) → st.s2 idx = S2 m c idx
  u2 : ∀ (h1 : 17 ≤ n) (h2 : n ≤ 32), st.u2 = U2 m c ⟨n - 17, by omega⟩
  a2c : ∀ idx : S4096x4096.Idx, (idx 0).val < 256 * (n - 16) → st.a2c idx = A2C m c idx
  s3 : ∀ idx : S4096x128.Idx, (idx 0).val < 256 * (n - 17) → st.s3 idx = S3 m c idx
  u3 : ∀ (h1 : 33 ≤ n) (h2 : n ≤ 48), st.u3 = U3 m c ⟨n - 33, by omega⟩

/-- Before the first point nothing is known, and nothing is asked. -/
theorem Inv.zero (c : Dev nD) (st : St F) : Inv m c 0 st :=
  ⟨fun h => absurd h (by omega), fun h => absurd h (by omega), fun _ h => absurd h (by omega),
   fun h => absurd h (by omega), fun _ h => absurd h (by omega), fun _ h => absurd h (by omega),
   fun h => absurd h (by omega)⟩

/-! ## The scratch buffers as memrefs, and the region invariant -/

abbrev scA2c : Memref sig .tc .vmem S4096x4096 .bf16 := Memref.whole cc0_scratch0
abbrev scXc : Memref sig .tc .vmem S4096x128 .bf16 := Memref.whole cc0_scratch1
abbrev scW3c : Memref sig .tc .vmem S128x512 .bf16 := Memref.whole cc0_scratch2
abbrev scW1c : Memref sig .tc .vmem S512x256 .bf16 := Memref.whole cc0_scratch3
abbrev scW2c : Memref sig .tc .vmem S256x128 .bf16 := Memref.whole cc0_scratch4
abbrev scS2 : Memref sig .tc .vmem S4096x256 .bf16 := Memref.whole cc0_scratch5
abbrev scS3 : Memref sig .tc .vmem S4096x128 .bf16 := Memref.whole cc0_scratch6
abbrev scU1 : Memref sig .tc .vmem S256x512 .f32 := Memref.whole cc0_scratch7
abbrev scU2 : Memref sig .tc .vmem S256x256 .f32 := Memref.whole cc0_scratch8
abbrev scU3 : Memref sig .tc .vmem S256x128 .f32 := Memref.whole cc0_scratch9

/-- The ten scratch buffers at the state `st`. -/
def ownsSt (c : Dev nD) (st : St F) : sProp 𝕄 :=
  iprop(owns (c : Thread nD τ) scA2c fullShare st.a2c ∗ owns (c : Thread nD τ) scXc fullShare st.xc
    ∗ owns (c : Thread nD τ) scW3c fullShare st.w3c ∗ owns (c : Thread nD τ) scW1c fullShare st.w1c
    ∗ owns (c : Thread nD τ) scW2c fullShare st.w2c ∗ owns (c : Thread nD τ) scS2 fullShare st.s2
    ∗ owns (c : Thread nD τ) scS3 fullShare st.s3 ∗ owns (c : Thread nD τ) scU1 fullShare st.u1
    ∗ owns (c : Thread nD τ) scU2 fullShare st.u2 ∗ owns (c : Thread nD τ) scU3 fullShare st.u3)

/-- The region invariant before point `n`: the scratch buffers at SOME state satisfying `Inv n`, and the
    generator register at some state. -/
def PhiS (c : Dev nD) (n : ℕ) : sProp 𝕄 :=
  iprop((∃ st : St F, ⌜Inv m c n st⌝ ∗ ownsSt c st) ∗ (∃ r, prngReg c r))

/-- The output block the body leaves at point `t` (meaningful from point 33 on; before that the window is idle). -/
def outAt (c : Dev nD) (t : Fin cfg0.N) : Vec F S256x128 .f32 := OUT m c ⟨t.val - 33, by have := lt49 t; omega⟩

end Cert.Kernel.Body

end
-- ==== Proof.BodyK.RunA.lean ====
import proofs.«128992_g77695958385291_cont_9to1c4b_463_14_alg».proof.Proof.BodyK.Defs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in
/-- The body in the control case of the first point: the four casts, then layer 1's accumulator for row block 0: on whole memrefs at the contents named, it runs to the
    continuation with each buffer it stores into at the contents the stores leave (a row-block store: the old contents
    with that block replaced), the others as they were. -/
theorem runA (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S4096x4096 .bf16) (harg11 : arg11.IsWhole) (arg12 : Memref sig .tc .vmem S4096x128 .bf16) (harg12 : arg12.IsWhole) (arg13 : Memref sig .tc .vmem S128x512 .bf16) (harg13 : arg13.IsWhole) (arg14 : Memref sig .tc .vmem S512x256 .bf16) (harg14 : arg14.IsWhole) (arg15 : Memref sig .tc .vmem S256x128 .bf16) (harg15 : arg15.IsWhole) (arg16 : Memref sig .tc .vmem S4096x256 .bf16) (harg16 : arg16.IsWhole) (arg17 : Memref sig .tc .vmem S4096x128 .bf16) (harg17 : arg17.IsWhole) (arg18 : Memref sig .tc .vmem S256x512 .f32) (harg18 : arg18.IsWhole) (arg19 : Memref sig .tc .vmem S256x256 .f32) (harg19 : arg19.IsWhole) (arg20 : Memref sig .tc .vmem S256x128 .f32) (harg20 : arg20.IsWhole)
    (hc1 : (Scalar.cmpi .ne (Scalar.extui (Scalar.cmpi .eq (BitVec.ofNat 32 (i 0).val) 0#32)) 0#32) = 1#1) (hc2 : ¬ k0_cond2 i = 1#1) (hc3 : ¬ k0_cond3 i = 1#1) (hc4 : ¬ k0_cond4 i = 1#1) (hc5 : (Scalar.cmpi .ne (Scalar.extui (Scalar.cmpi .slt (BitVec.ofNat 32 (i 0).val) 16#32)) 0#32) = 1#1) (hc6 : ¬ k0_cond6 i = 1#1) (hc7 : ¬ k0_cond7 i = 1#1)
    (x3 : Vec F S4096x128 .f32) (x4 : Vec F S128x512 .f32) (x6 : Vec F S512x256 .f32) (x8 : Vec F S256x128 .f32) (x1 : Vec F S256x4096 .f32) (x12 : Vec F S4096x128 .bf16) (x13 : Vec F S128x512 .bf16) (x14 : Vec F S512x256 .bf16) (x15 : Vec F S256x128 .bf16) (x18 : Vec F S256x512 .f32)
    (E : Set ℕ) (K : PUnit → sProp 𝕄) :
    iprop(owns (c : Thread nD τ) arg3 fullShare x3 ∗ owns (c : Thread nD τ) arg4 fullShare x4 ∗ owns (c : Thread nD τ) arg6 fullShare x6 ∗ owns (c : Thread nD τ) arg8 fullShare x8 ∗ owns (c : Thread nD τ) arg1 fullShare x1 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg18 fullShare x18
      ∗ (iprop(owns (c : Thread nD τ) arg3 fullShare x3 ∗ owns (c : Thread nD τ) arg4 fullShare x4 ∗ owns (c : Thread nD τ) arg6 fullShare x6 ∗ owns (c : Thread nD τ) arg8 fullShare x8 ∗ owns (c : Thread nD τ) arg1 fullShare x1 ∗ owns (c : Thread nD τ) arg12 fullShare (k0_pay1 x3) ∗ owns (c : Thread nD τ) arg13 fullShare (k0_pay2 x4) ∗ owns (c : Thread nD τ) arg14 fullShare (k0_pay3 x6) ∗ owns (c : Thread nD τ) arg15 fullShare (k0_pay4 x8) ∗ owns (c : Thread nD τ) arg18 fullShare (k0_pay8 x1 (k0_pay1 x3) (k0_pay2 x4))) -∗ K ⟨⟩))
    ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_kernel_eq_skeleton]; unfold cc0__gcn_kernel_skel
  unfold owns
  iintro ⟨⟨%f3, %hf3, H3⟩, ⟨%f4, %hf4, H4⟩, ⟨%f6, %hf6, H6⟩, ⟨%f8, %hf8, H8⟩, ⟨%f1, %hf1, H1⟩, ⟨%f12, %hf12, H12⟩, ⟨%f13, %hf13, H13⟩, ⟨%f14, %hf14, H14⟩, ⟨%f15, %hf15, H15⟩, ⟨%f18, %hf18, H18⟩, Hk⟩
  obtain rfl := harg3.eq_unread hf3; obtain rfl := harg4.eq_unread hf4; obtain rfl := harg6.eq_unread hf6; obtain rfl := harg8.eq_unread hf8; obtain rfl := harg1.eq_unread hf1; obtain rfl := harg12.eq_unread hf12; obtain rfl := harg13.eq_unread hf13; obtain rfl := harg14.eq_unread hf14; obtain rfl := harg15.eq_unread hf15; obtain rfl := harg18.eq_unread hf18
  sl_exec (disch := first | exact hc1 | exact hc2 | exact hc3 | exact hc4 | exact hc5 | exact hc6 | exact hc7)
  sl_step
  iapply Hk
  isplitl [H3]
  · iexists _; isplitr
    swap; · iexact H3
    ipureintro; exact harg3.read_unread _
  isplitl [H4]
  · iexists _; isplitr
    swap; · iexact H4
    ipureintro; exact harg4.read_unread _
  isplitl [H6]
  · iexists _; isplitr
    swap; · iexact H6
    ipureintro; exact harg6.read_unread _
  isplitl [H8]
  · iexists _; isplitr
    swap; · iexact H8
    ipureintro; exact harg8.read_unread _
  isplitl [H1]
  · iexists _; isplitr
    swap; · iexact H1
    ipureintro; exact harg1.read_unread _
  isplitl [H12]
  · iexists _; isplitr
    swap; · iexact H12
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  isplitl [H13]
  · iexists _; isplitr
    swap; · iexact H13
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  isplitl [H14]
  · iexists _; isplitr
    swap; · iexact H14
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  isplitl [H15]
  · iexists _; isplitr
    swap; · iexact H15
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  iexists _; isplitr
  swap; · iexact H18
  ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]

end Cert.Kernel.Body

end
-- ==== Proof.BodyK.Dats.lean ====
/-
  The pipeline's proof data for the fused kernel and what the seven control cases share: the grid points at which
  each branch of the body is taken (decided over the 49 points), the row offsets of the block stores in closed form,
  where the output window is idle, the region invariant opened as ten scratch buffers, and the body obligation's
  pre- and postcondition at a point.
-/
import proofs.«128992_g77695958385291_cont_9to1c4b_463_14_alg».proof.Proof.BodyK.Defs

set_option maxRecDepth 16384

noncomputable section

namespace Cert.Kernel.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; after the body each input's buffer at its block, the output's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## Which branches a point takes -/

theorem hcond1 : ∀ t : Fin cfg0.N, ((Scalar.cmpi .ne (Scalar.extui (Scalar.cmpi .eq (BitVec.ofNat 32 ((grid0.coords t) 0).val) 0#32)) 0#32) = 1#1) ↔ t.val = 0 :=
  (by decide +kernel : ∀ t : Fin grid0.N, ((Scalar.cmpi .ne (Scalar.extui (Scalar.cmpi .eq (BitVec.ofNat 32 ((grid0.coords t) 0).val) 0#32)) 0#32) = 1#1) ↔ t.val = 0)
theorem hcond2 : ∀ t : Fin cfg0.N, k0_cond2 (grid0.coords t) = 1#1 ↔ (1 ≤ t.val ∧ t.val ≤ 16) :=
  (by decide +kernel : ∀ t : Fin grid0.N, k0_cond2 (grid0.coords t) = 1#1 ↔ (1 ≤ t.val ∧ t.val ≤ 16))
theorem hcond3 : ∀ t : Fin cfg0.N, k0_cond3 (grid0.coords t) = 1#1 ↔ (17 ≤ t.val ∧ t.val ≤ 32) :=
  (by decide +kernel : ∀ t : Fin grid0.N, k0_cond3 (grid0.coords t) = 1#1 ↔ (17 ≤ t.val ∧ t.val ≤ 32))
theorem hcond4 : ∀ t : Fin cfg0.N, k0_cond4 (grid0.coords t) = 1#1 ↔ 33 ≤ t.val :=
  (by decide +kernel : ∀ t : Fin grid0.N, k0_cond4 (grid0.coords t) = 1#1 ↔ 33 ≤ t.val)
theorem hcond5 : ∀ t : Fin cfg0.N, ((Scalar.cmpi .ne (Scalar.extui (Scalar.cmpi .slt (BitVec.ofNat 32 ((grid0.coords t) 0).val) 16#32)) 0#32) = 1#1) ↔ t.val < 16 :=
  (by decide +kernel : ∀ t : Fin grid0.N, ((Scalar.cmpi .ne (Scalar.extui (Scalar.cmpi .slt (BitVec.ofNat 32 ((grid0.coords t) 0).val) 16#32)) 0#32) = 1#1) ↔ t.val < 16)
theorem hcond6 : ∀ t : Fin cfg0.N, k0_cond6 (grid0.coords t) = 1#1 ↔ (16 ≤ t.val ∧ t.val < 32) :=
  (by decide +kernel : ∀ t : Fin grid0.N, k0_cond6 (grid0.coords t) = 1#1 ↔ (16 ≤ t.val ∧ t.val < 32))
theorem hcond7 : ∀ t : Fin cfg0.N, k0_cond7 (grid0.coords t) = 1#1 ↔ (32 ≤ t.val ∧ t.val < 48) :=
  (by decide +kernel : ∀ t : Fin grid0.N, k0_cond7 (grid0.coords t) = 1#1 ↔ (32 ≤ t.val ∧ t.val < 48))

/-! ## The row offsets of the block stores, in closed form -/

theorem off1_eq : ∀ t : Fin cfg0.N, 1 ≤ t.val → t.val ≤ 16 → k0_off1 (grid0.coords t) = ![256 * (t.val - 1), 0] :=
  (by decide +kernel : ∀ t : Fin grid0.N, 1 ≤ t.val → t.val ≤ 16 → k0_off1 (grid0.coords t) = ![256 * (t.val - 1), 0])
theorem off2_eq : ∀ t : Fin cfg0.N, 17 ≤ t.val → t.val ≤ 32 → k0_off2 (grid0.coords t) = ![256 * (t.val - 17), 0] :=
  (by decide +kernel : ∀ t : Fin grid0.N, 17 ≤ t.val → t.val ≤ 32 → k0_off2 (grid0.coords t) = ![256 * (t.val - 17), 0])
theorem off3_eq : ∀ t : Fin cfg0.N, 16 ≤ t.val → t.val < 32 → k0_off3 (grid0.coords t) = ![256 * (t.val - 16), 0] :=
  (by decide +kernel : ∀ t : Fin grid0.N, 16 ≤ t.val → t.val < 32 → k0_off3 (grid0.coords t) = ![256 * (t.val - 16), 0])
theorem off4_eq : ∀ t : Fin cfg0.N, 32 ≤ t.val → t.val < 48 → k0_off4 (grid0.coords t) = ![256 * (t.val - 32), 0] :=
  (by decide +kernel : ∀ t : Fin grid0.N, 32 ≤ t.val → t.val < 48 → k0_off4 (grid0.coords t) = ![256 * (t.val - 32), 0])

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
/-- Before point 33 the body stores nothing into the output window, and the pipeline does not write it back. -/
theorem idleAt0_9 : ∀ t : Fin cfg0.N, t.val < 33 → cfg0.idle 9 (grid0.coords t) = true :=
  (by decide +kernel : ∀ t : Fin grid0.N, t.val < 33 → cfg0.idle 9 (grid0.coords t) = true)
theorem noFlush0_9 : ∀ t : Fin cfg0.N, t.val < 33 → (cfg0.win 9).flush t = false :=
  (by decide +kernel : ∀ t : Fin grid0.N, t.val < 33 → win0_9.flush t = false)
theorem liveAt0_9 : ∀ t : Fin cfg0.N, 33 ≤ t.val → cfg0.idle 9 (grid0.coords t) = false :=
  (by decide +kernel : ∀ t : Fin grid0.N, 33 ≤ t.val → cfg0.idle 9 (grid0.coords t) = false)
/-- From point 33 on every point writes its output block back. -/
theorem flush0_9 : ∀ t : Fin cfg0.N, 33 ≤ t.val → (cfg0.win 9).flush t = true :=
  (by decide +kernel : ∀ t : Fin grid0.N, 33 ≤ t.val → win0_9.flush t = true)
/-- The output block index at a point from 33 on. -/
theorem index0_9 : ∀ t : Fin cfg0.N, 33 ≤ t.val → cc0_transform_9 (grid0.coords t) = ![t.val - 33, 0] :=
  (by decide +kernel : ∀ t : Fin grid0.N, 33 ≤ t.val → cc0_transform_9 (grid0.coords t) = ![t.val - 33, 0])

/-- What the body leaves in each input's buffer: its block. -/
theorem leaves0_0 (c : Dev nD) (t : Fin cfg0.N) : (dats m 0 c).leavesExact 0 t = owns (c : Thread nD τ) (st0_0 t) fullShare (iblk m c 0 t) := by
  unfold Dat.leavesExact; rw [liveAt0_0 t, after0_0]
theorem leaves0_1 (c : Dev nD) (t : Fin cfg0.N) : (dats m 0 c).leavesExact 1 t = owns (c : Thread nD τ) (st0_1 t) fullShare (iblk m c 1 t) := by
  unfold Dat.leavesExact; rw [liveAt0_1 t, after0_1]
theorem leaves0_2 (c : Dev nD) (t : Fin cfg0.N) : (dats m 0 c).leavesExact 2 t = owns (c : Thread nD τ) (st0_2 t) fullShare (iblk m c 2 t) := by
  unfold Dat.leavesExact; rw [liveAt0_2 t, after0_2]
theorem leaves0_3 (c : Dev nD) (t : Fin cfg0.N) : (dats m 0 c).leavesExact 3 t = owns (c : Thread nD τ) (st0_3 t) fullShare (iblk m c 3 t) := by
  unfold Dat.leavesExact; rw [liveAt0_3 t, after0_3]
theorem leaves0_4 (c : Dev nD) (t : Fin cfg0.N) : (dats m 0 c).leavesExact 4 t = owns (c : Thread nD τ) (st0_4 t) fullShare (iblk m c 4 t) := by
  unfold Dat.leavesExact; rw [liveAt0_4 t, after0_4]
theorem leaves0_5 (c : Dev nD) (t : Fin cfg0.N) : (dats m 0 c).leavesExact 5 t = owns (c : Thread nD τ) (st0_5 t) fullShare (iblk m c 5 t) := by
  unfold Dat.leavesExact; rw [liveAt0_5 t, after0_5]
theorem leaves0_6 (c : Dev nD) (t : Fin cfg0.N) : (dats m 0 c).leavesExact 6 t = owns (c : Thread nD τ) (st0_6 t) fullShare (iblk m c 6 t) := by
  unfold Dat.leavesExact; rw [liveAt0_6 t, after0_6]
theorem leaves0_7 (c : Dev nD) (t : Fin cfg0.N) : (dats m 0 c).leavesExact 7 t = owns (c : Thread nD τ) (st0_7 t) fullShare (iblk m c 7 t) := by
  unfold Dat.leavesExact; rw [liveAt0_7 t, after0_7]
theorem leaves0_8 (c : Dev nD) (t : Fin cfg0.N) : (dats m 0 c).leavesExact 8 t = owns (c : Thread nD τ) (st0_8 t) fullShare (iblk m c 8 t) := by
  unfold Dat.leavesExact; rw [liveAt0_8 t, after0_8]
/-- In the output's buffer: before point 33 what it found; from point 33 on the output block. -/
theorem leaves0_9_idle (c : Dev nD) (t : Fin cfg0.N) (h : t.val < 33) :
    (dats m 0 c).leavesExact 9 t = iprop(∃ d, owns (c : Thread nD τ) (st0_9 t) fullShare ((dats m 0 c).before 9 t d)) :=
  Dat.leavesExact_idle (dats m 0 c) 9 t (idleAt0_9 t h) (noFlush0_9 t h)
theorem leaves0_9_live (c : Dev nD) (t : Fin cfg0.N) (h : 33 ≤ t.val) :
    (dats m 0 c).leavesExact 9 t = owns (c : Thread nD τ) (st0_9 t) fullShare (outAt m c t) := by
  unfold Dat.leavesExact; rw [liveAt0_9 t h, after0_9]

/-! ## The region invariant, opened -/

/-- The class invariant with the ten scratch buffers as memrefs owned at some contents. -/
theorem PhiA0_eq (c : Dev nD) :
    (Pipeline.ΦA spec0 c : sProp 𝕄)
      = iprop(iprop((∃ d, owns (c : Thread nD τ) scA2c fullShare d) ∗ (∃ d, owns (c : Thread nD τ) scXc fullShare d) ∗ (∃ d, owns (c : Thread nD τ) scW3c fullShare d) ∗ (∃ d, owns (c : Thread nD τ) scW1c fullShare d) ∗ (∃ d, owns (c : Thread nD τ) scW2c fullShare d) ∗ (∃ d, owns (c : Thread nD τ) scS2 fullShare d) ∗ (∃ d, owns (c : Thread nD τ) scS3 fullShare d) ∗ (∃ d, owns (c : Thread nD τ) scU1 fullShare d) ∗ (∃ d, owns (c : Thread nD τ) scU2 fullShare d) ∗ (∃ d, owns (c : Thread nD τ) scU3 fullShare d)) ∗ (∃ r, prngReg c r)) := by
  unfold Pipeline.ΦA; rw [scopedRest0_eq]; simp only [scA2c, scXc, scW3c, scW1c, scW2c, scS2, scS3, scU1, scU2, scU3, owns_whole]; try rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS ownsSt
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩, Hg⟩
  isplitr [Hg]
  · iexists (⟨d0, d1, d2, d3, d4, d5, d6, d7, d8, d9⟩ : St F)
    isplitr
    · ipureintro; exact Inv.zero m c _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hg

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS ownsSt
  iintro ⟨⟨%st, %hI, H0, H1, H2, H3, H4, H5, H6, H7, H8, H9⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9
  iexact Hg

/-! ## The body obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl
theorem owes_succ (c : Dev nD) (t : Fin cfg0.N) : (dats m 0 c).owesAt () t.succ = (dats m 0 c).owesAt () t.castSucc := rfl

end Cert.Kernel.Body

end
-- ==== Proof.BodyK.StepsABC.lean ====
/-
  The invariant through the first seventeen grid points: the casts and layer 1's first accumulator at point 0; at points 1 to 15 the previous accumulator folded into rows of the support S2 and the next accumulator; at point 16 the last rows of S2, the first cached row block of A2 and layer 2's first accumulator over the complete S2.
-/
import proofs.«128992_g77695958385291_cont_9to1c4b_463_14_alg».proof.Proof.BodyK.Dats

set_option maxRecDepth 16384

noncomputable section

namespace Cert.Kernel.Body

open Idealize.ShloMosaic Idealize.ShloMosaic.TcCoe Idealize.ShloMosaic.ValueIdx
open Idealize.SL.Sem
open Cert.Kernel Cert.Kernel.Gen

variable {F : FTy → Type} [FloatOps F]

variable (m : (ℓ : Loc nD τ sig) → Buf (Elt F) ℓ)

/-- A grid point is the point numbered by its value. -/
private theorem pt_eq (t : Fin cfg0.N) (n : ℕ) (hn : n < 49) (e : n = t.val) : pt n hn = t := Fin.ext e

/-- The store of point `t` (1 ≤ t ≤ 16) into S2's rows: with the invariant before `t`, every row below
    256 · t of the new contents is S2's — rows below 256 · (t - 1) are untouched and were S2's already, the
    rows of block t - 1 are the payload relu(U1 (t-1) + b3) · W1 = S2blk (t - 1). -/
private theorem s2_store (c : Dev nD) (t : Fin cfg0.N) (h1 : 1 ≤ t.val) (h2 : t.val ≤ 16)
    (hc2 : k0_cond2 (grid0.coords t) = 1#1) (st : St F) (hI : Inv m c t.val st)
    (idx : S4096x256.Idx) (hidx : (idx 0).val < 256 * t.val) :
    ((Rect.unit (s := S4096x256) (k0_off1 (grid0.coords t)) S256x256.size (k0_off1_inb (grid0.coords t) hc2)).overlay st.s2
      (k0_pay5 st.u1 (b3B m c t) st.w1c)) idx = S2 m c idx := by
  have hoff := off1_eq t h1 h2
  have hoff0 : k0_off1 (grid0.coords t) 0 = 256 * (t.val - 1) := by rw [hoff]; rfl
  have hoff1 : k0_off1 (grid0.coords t) 1 = 0 := by rw [hoff]; rfl
  have hlt0 := idx2_lt0 idx
  have hlt1 := idx2_lt1 idx
  by_cases hlow : (idx 0).val < 256 * (t.val - 1)
  · rw [Rect.overlay_unit_of_not_mem _ _ idx 0 (Or.inl (by rw [hoff0]; exact hlow))]
    exact hI.s2 idx hlow
  · have hx0 : (idx 0).val - 256 * (t.val - 1) < 256 := by omega
    have hx1 : (idx 1).val < 256 := hlt1
    rw [Rect.overlay_unit_of_mem (s := S4096x256) (off := k0_off1 (grid0.coords t)) (size := S256x256.size)
      (inb := k0_off1_inb (grid0.coords t) hc2) st.s2 (k0_pay5 st.u1 (b3B m c t) st.w1c) idx
      (ix2 (n0 := 256) (n1 := 256) ⟨(idx 0).val - 256 * (t.val - 1), hx0⟩ ⟨(idx 1).val, hx1⟩ : S256x256.Idx) (by
      intro a
      match a with
      | ⟨0, _⟩ => show (idx 0).val = k0_off1 (grid0.coords t) 0 + ((idx 0).val - 256 * (t.val - 1)); rw [hoff0]; omega
      | ⟨1, _⟩ => show (idx 1).val = k0_off1 (grid0.coords t) 1 + (idx 1).val; rw [hoff1]; omega)]
    have hblk : rowBlk (idx 0) = ⟨t.val - 1, by omega⟩ := Fin.ext (by show (idx 0).val / 256 = t.val - 1; omega)
    have hin : rowIn (idx 0) = ⟨(idx 0).val - 256 * (t.val - 1), hx0⟩ := Fin.ext (by show (idx 0).val % 256 = (idx 0).val - 256 * (t.val - 1); omega)
    have hu1 := hI.u1 h1 h2
    obtain ⟨_, _, hw1, _⟩ := hI.consts h1
    show _ = S2blk m c (rowBlk (idx 0)) (ix2 (rowIn (idx 0)) (idx 1))
    rw [hblk, hin, hu1, hw1]
    unfold S2blk
    rw [pt_eq t (t.val - 1 + 1) (by omega) (by omega)]
    rfl

theorem step_A (c : Dev nD) (t : Fin cfg0.N) (h : t.val = 0) (st : St F) (hI : Inv m c t.val st) :
    Inv m c (t.val + 1) { st with
      xc := k0_pay1 (xB m c t), w3c := k0_pay2 (w3B m c t), w1c := k0_pay3 (w1B m c t), w2c := k0_pay4 (w2B m c t),
      u1 := k0_pay8 (adjB m c t) (k0_pay1 (xB m c t)) (k0_pay2 (w3B m c t)) } := by
  have e0 : pt 0 (by omega) = t := pt_eq t 0 (by omega) h.symm
  refine ⟨?_, ?_, ?_, ?_, ?_, ?_, ?_⟩
  · intro _
    unfold XC W3C W1C W2C
    rw [e0]
    exact ⟨rfl, rfl, rfl, rfl⟩
  · intro _ _
    unfold U1 XC W3C
    rw [e0, pt_eq t (t.val + 1 - 1) (by omega) (by omega)]
  · intro idx hidx; exact absurd hidx (by omega)
  · intro h1 h2; exact absurd h1 (by omega)
  · intro idx hidx; exact absurd hidx (by omega)
  · intro idx hidx; exact absurd hidx (by omega)
  · intro h1 h2; exact absurd h1 (by omega)

theorem step_B (c : Dev nD) (t : Fin cfg0.N) (h1 : 1 ≤ t.val) (h2 : t.val ≤ 15) (hc2 : k0_cond2 (grid0.coords t) = 1#1) (st : St F) (hI : Inv m c t.val st) :
    Inv m c (t.val + 1) { st with
      s2 := ((Rect.unit (s := S4096x256) (k0_off1 (grid0.coords t)) S256x256.size (k0_off1_inb (grid0.coords t) hc2)).overlay st.s2 (k0_pay5 st.u1 (b3B m c t) st.w1c)),
      u1 := k0_pay8 (adjB m c t) st.xc st.w3c } := by
  refine ⟨?_, ?_, ?_, ?_, ?_, ?_, ?_⟩
  · intro _; exact hI.consts h1
  · intro _ _
    obtain ⟨hx, hw3, _, _⟩ := hI.consts h1
    show k0_pay8 (adjB m c t) st.xc st.w3c = _
    rw [hx, hw3]
    unfold U1
    rw [pt_eq t (t.val + 1 - 1) (by omega) (by omega)]
  · intro idx hidx
    have hrow : (idx 0).val < 256 * t.val := by omega
    dsimp only
    exact s2_store m c t h1 (by omega) hc2 st hI idx hrow
  · intro h1' h2'; exact absurd h1' (by omega)
  · intro idx hidx; exact absurd hidx (by omega)
  · intro idx hidx; exact absurd hidx (by omega)
  · intro h1' h2'; exact absurd h1' (by omega)

/-- The store of point 16 into the cache of A2: its first 256 rows are the cast of A2's row block 0. -/
private theorem a2c_store (c : Dev nD) (t : Fin cfg0.N) (h : t.val = 16)
    (hc6 : k0_cond6 (grid0.coords t) = 1#1) (X : Vec F S4096x4096 .bf16)
    (idx : S4096x4096.Idx) (hidx : (idx 0).val < 256) :
    ((Rect.unit (s := S4096x4096) (k0_off3 (grid0.coords t)) S256x4096.size (k0_off3_inb (grid0.coords t) hc6)).overlay X
      (k0_pay10 (a2B m c t))) idx = A2C m c idx := by
  have hoff := off3_eq t (by omega) (by omega)
  have hoff0 : k0_off3 (grid0.coords t) 0 = 256 * (t.val - 16) := by rw [hoff]; rfl
  have hoff1 : k0_off3 (grid0.coords t) 1 = 0 := by rw [hoff]; rfl
  have hx1 : (idx 1).val < 4096 := idx2_lt1 idx
  rw [Rect.overlay_unit_of_mem (s := S4096x4096) (off := k0_off3 (grid0.coords t)) (size := S256x4096.size)
    (inb := k0_off3_inb (grid0.coords t) hc6) X (k0_pay10 (a2B m c t)) idx
    (ix2 (n0 := 256) (n1 := 4096) ⟨(idx 0).val, hidx⟩ ⟨(idx 1).val, hx1⟩ : S256x4096.Idx) (by
    intro a
    match a with
    | ⟨0, _⟩ => show (idx 0).val = k0_off3 (grid0.coords t) 0 + (idx 0).val; rw [hoff0]; omega
    | ⟨1, _⟩ => show (idx 1).val = k0_off3 (grid0.coords t) 1 + (idx 1).val; rw [hoff1]; omega)]
  have hblk : rowBlk (idx 0) = ⟨0, by omega⟩ := Fin.ext (by show (idx 0).val / 256 = 0; omega)
  have hin : rowIn (idx 0) = ⟨(idx 0).val, hidx⟩ := Fin.ext (by show (idx 0).val % 256 = (idx 0).val; omega)
  show _ = A2Cblk m c (rowBlk (idx 0)) (ix2 (rowIn (idx 0)) (idx 1))
  rw [hblk, hin]
  unfold A2Cblk
  rw [pt_eq t (16 + 0) (by omega) (by omega)]
  rfl

theorem step_C (c : Dev nD) (t : Fin cfg0.N) (h : t.val = 16) (hc2 : k0_cond2 (grid0.coords t) = 1#1) (hc6 : k0_cond6 (grid0.coords t) = 1#1) (st : St F) (hI : Inv m c t.val st) :
    Inv m c (t.val + 1) { st with
      s2 := ((Rect.unit (s := S4096x256) (k0_off1 (grid0.coords t)) S256x256.size (k0_off1_inb (grid0.coords t) hc2)).overlay st.s2 (k0_pay5 st.u1 (b3B m c t) st.w1c)),
      a2c := ((Rect.unit (s := S4096x4096) (k0_off3 (grid0.coords t)) S256x4096.size (k0_off3_inb (grid0.coords t) hc6)).overlay st.a2c (k0_pay10 (a2B m c t))),
      u2 := k0_pay11 (a2B m c t) ((Rect.unit (s := S4096x256) (k0_off1 (grid0.coords t)) S256x256.size (k0_off1_inb (grid0.coords t) hc2)).overlay st.s2 (k0_pay5 st.u1 (b3B m c t) st.w1c)) } := by
  have h1 : 1 ≤ t.val := by omega
  -- after this store all sixteen row blocks of S2 are in place
  have hs2 : ((Rect.unit (s := S4096x256) (k0_off1 (grid0.coords t)) S256x256.size (k0_off1_inb (grid0.coords t) hc2)).overlay st.s2
      (k0_pay5 st.u1 (b3B m c t) st.w1c)) = S2 m c :=
    funext fun idx => s2_store m c t h1 (by omega) hc2 st hI idx (by have := idx2_lt0 idx; omega)
  refine ⟨?_, ?_, ?_, ?_, ?_, ?_, ?_⟩
  · intro _; exact hI.consts h1
  · intro h1' h2'; exact absurd h2' (by omega)
  · intro idx _
    dsimp only
    exact congrFun hs2 idx
  · intro _ _
    dsimp only
    rw [hs2]
    unfold U2
    rw [pt_eq t (16 + (t.val + 1 - 17)) (by omega) (by omega)]
  · intro idx hidx
    have hrow : (idx 0).val < 256 := by omega
    dsimp only
    exact a2c_store m c t h hc6 st.a2c idx hrow
  · intro idx hidx; exact absurd hidx (by omega)
  · intro h1' h2'; exact absurd h1' (by omega)

end Cert.Kernel.Body

end
-- ==== Proof.BodyK.SoundA.lean ====
import proofs.«128992_g77695958385291_cont_9to1c4b_463_14_alg».proof.Proof.BodyK.RunA
import proofs.«128992_g77695958385291_cont_9to1c4b_463_14_alg».proof.Proof.BodyK.StepsABC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 3200000 in
/-- The body obligation at the first grid point (0): the four casts and layer 1's accumulator for row block 0: the invariant before the point hands the run the scratch
    buffers at a state satisfying it, the run leaves them at the case's next state, and that state satisfies the invariant
    before the next point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8,
    leaves0_9_idle m c t (by omega), owes_succ, Phi_castSucc, Phi_succ]
  unfold PhiS ownsSt
  iintro ⟨⟨⟨%st, %hI, Ha2c, Hxc, Hw3c, Hw1c, Hw2c, Hs2, Hs3, Hu1, Hu2, Hu3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := (hcond1 t).mpr (by first | omega | exact ⟨by omega, by omega⟩)
  have hc2 := fun hh => (show False by have := (hcond2 t).mp hh; omega)
  have hc3 := fun hh => (show False by have := (hcond3 t).mp hh; omega)
  have hc4 := fun hh => (show False by have := (hcond4 t).mp hh; omega)
  have hc5 := (hcond5 t).mpr (by first | omega | exact ⟨by omega, by omega⟩)
  have hc6 := fun hh => (show False by have := (hcond6 t).mp hh; omega)
  have hc7 := fun hh => (show False by have := (hcond7 t).mp hh; omega)
  iapply (runA c (grid0.coords t) _ _ _ _ _ _ _ _ _ _ _ _ _ _ _ _ _ _ _ _ _ _ _ _ _ _ _ _ _ _ _ _ _ _ _ _ _ _ _ _
    hc1 hc2 hc3 hc4 hc5 hc6 hc7
    (xB m c t) (w3B m c t) (w1B m c t) (w2B m c t) (adjB m c t) st.xc st.w3c st.w1c st.w2c st.u1 Set.univ _)
  isplitl [H2]; · iexact H2
  isplitl [H3]; · iexact H3
  isplitl [H5]; · iexact H5
  isplitl [H7]; · iexact H7
  isplitl [H0]; · iexact H0
  isplitl [Hxc]; · iexact Hxc
  isplitl [Hw3c]; · iexact Hw3c
  isplitl [Hw1c]; · iexact Hw1c
  isplitl [Hw2c]; · iexact Hw2c
  isplitl [Hu1]; · iexact Hu1
  iintro ⟨H2, H3, H5, H7, H0, Hxc, Hw3c, Hw1c, Hw2c, Hu1⟩
  isplitl [Ha2c Hxc Hw3c Hw1c Hw2c Hs2 Hs3 Hu1 Hu2 Hu3 Hg]
  · isplitr [Hg]
    · iexists ({ st with
      xc := k0_pay1 (xB m c t), w3c := k0_pay2 (w3B m c t), w1c := k0_pay3 (w1B m c t), w2c := k0_pay4 (w2B m c t),
      u1 := k0_pay8 (adjB m c t) (k0_pay1 (xB m c t)) (k0_pay2 (w3B m c t)) } : St F)
      isplitr
      · ipureintro; exact step_A m c t h st hI
      isplitl [Ha2c]; · iexact Ha2c
      isplitl [Hxc]; · iexact Hxc
      isplitl [Hw3c]; · iexact Hw3c
      isplitl [Hw1c]; · iexact Hw1c
      isplitl [Hw2c]; · iexact Hw2c
      isplitl [Hs2]; · iexact Hs2
      isplitl [Hs3]; · iexact Hs3
      isplitl [Hu1]; · iexact Hu1
      isplitl [Hu2]; · iexact Hu2
      iexact Hu3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.Kernel.Body

end
-- ==== Proof.BodyK.RunB.lean ====
import proofs.«128992_g77695958385291_cont_9to1c4b_463_14_alg».proof.Proof.BodyK.Defs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in
/-- The body in the control case of points 1 to 15: finish layer 1's previous row block into the support S2, then layer 1's accumulator for this block: on whole memrefs at the contents named, it runs to the
    continuation with each buffer it stores into at the contents the stores leave (a row-block store: the old contents
    with that block replaced), the others as they were. -/
theorem runB (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S4096x4096 .bf16) (harg11 : arg11.IsWhole) (arg12 : Memref sig .tc .vmem S4096x128 .bf16) (harg12 : arg12.IsWhole) (arg13 : Memref sig .tc .vmem S128x512 .bf16) (harg13 : arg13.IsWhole) (arg14 : Memref sig .tc .vmem S512x256 .bf16) (harg14 : arg14.IsWhole) (arg15 : Memref sig .tc .vmem S256x128 .bf16) (harg15 : arg15.IsWhole) (arg16 : Memref sig .tc .vmem S4096x256 .bf16) (harg16 : arg16.IsWhole) (arg17 : Memref sig .tc .vmem S4096x128 .bf16) (harg17 : arg17.IsWhole) (arg18 : Memref sig .tc .vmem S256x512 .f32) (harg18 : arg18.IsWhole) (arg19 : Memref sig .tc .vmem S256x256 .f32) (harg19 : arg19.IsWhole) (arg20 : Memref sig .tc .vmem S256x128 .f32) (harg20 : arg20.IsWhole)
    (hc1 : ¬ (Scalar.cmpi .ne (Scalar.extui (Scalar.cmpi .eq (BitVec.ofNat 32 (i 0).val) 0#32)) 0#32) = 1#1) (hc2 : k0_cond2 i = 1#1) (hc3 : ¬ k0_cond3 i = 1#1) (hc4 : ¬ k0_cond4 i = 1#1) (hc5 : (Scalar.cmpi .ne (Scalar.extui (Scalar.cmpi .slt (BitVec.ofNat 32 (i 0).val) 16#32)) 0#32) = 1#1) (hc6 : ¬ k0_cond6 i = 1#1) (hc7 : ¬ k0_cond7 i = 1#1)
    (x5 : Vec F S1x512 .f32) (x1 : Vec F S256x4096 .f32) (x12 : Vec F S4096x128 .bf16) (x13 : Vec F S128x512 .bf16) (x14 : Vec F S512x256 .bf16) (x16 : Vec F S4096x256 .bf16) (x18 : Vec F S256x512 .f32)
    (E : Set ℕ) (K : PUnit → sProp 𝕄) :
    iprop(owns (c : Thread nD τ) arg5 fullShare x5 ∗ owns (c : Thread nD τ) arg1 fullShare x1 ∗ owns (c : Thread nD τ) arg12 fullShare x12 ∗ owns (c : Thread nD τ) arg13 fullShare x13 ∗ owns (c : Thread nD τ) arg14 fullShare x14 ∗ owns (c : Thread nD τ) arg16 fullShare x16 ∗ owns (c : Thread nD τ) arg18 fullShare x18
      ∗ (iprop(owns (c : Thread nD τ) arg5 fullShare x5 ∗ owns (c : Thread nD τ) arg1 fullShare x1 ∗ owns (c : Thread nD τ) arg12 fullShare x12 ∗ owns (c : Thread nD τ) arg13 fullShare x13 ∗ owns (c : Thread nD τ) arg14 fullShare x14 ∗ owns (c : Thread nD τ) arg16 fullShare ((Rect.unit (s := S4096x256) (k0_off1 i) S256x256.size (k0_off1_inb i hc2)).overlay x16 (k0_pay5 x18 x5 x14)) ∗ owns (c : Thread nD τ) arg18 fullShare (k0_pay8 x1 x12 x13)) -∗ K ⟨⟩))
    ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_kernel_eq_skeleton]; unfold cc0__gcn_kernel_skel
  unfold owns
  iintro ⟨⟨%f5, %hf5, H5⟩, ⟨%f1, %hf1, H1⟩, ⟨%f12, %hf12, H12⟩, ⟨%f13, %hf13, H13⟩, ⟨%f14, %hf14, H14⟩, ⟨%f16, %hf16, H16⟩, ⟨%f18, %hf18, H18⟩, Hk⟩
  obtain rfl := harg5.eq_unread hf5; obtain rfl := harg1.eq_unread hf1; obtain rfl := harg12.eq_unread hf12; obtain rfl := harg13.eq_unread hf13; obtain rfl := harg14.eq_unread hf14; obtain rfl := harg16.eq_unread hf16; obtain rfl := harg18.eq_unread hf18
  sl_exec (disch := first | exact hc1 | exact hc2 | exact hc3 | exact hc4 | exact hc5 | exact hc6 | exact hc7)
  sl_step
  iapply Hk
  isplitl [H5]
  · iexists _; isplitr
    swap; · iexact H5
    ipureintro; exact harg5.read_unread _
  isplitl [H1]
  · iexists _; isplitr
    swap; · iexact H1
    ipureintro; exact harg1.read_unread _
  isplitl [H12]
  · iexists _; isplitr
    swap; · iexact H12
    ipureintro; exact harg12.read_unread _
  isplitl [H13]
  · iexists _; isplitr
    swap; · iexact H13
    ipureintro; exact harg13.read_unread _
  isplitl [H14]
  · iexists _; isplitr
    swap; · iexact H14
    ipureintro; exact harg14.read_unread _
  isplitl [H16]
  · iexists _; isplitr
    swap; · iexact H16
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  iexists _; isplitr
  swap; · iexact H18
  ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]

end Cert.Kernel.Body

end
-- ==== Proof.BodyK.SoundB.lean ====
import proofs.«128992_g77695958385291_cont_9to1c4b_463_14_alg».proof.Proof.BodyK.RunB
import proofs.«128992_g77695958385291_cont_9to1c4b_463_14_alg».proof.Proof.BodyK.StepsABC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 3200000 in
/-- The body obligation at grid points 1 to 15: layer 1's previous row block folded into the support S2, then the accumulator for this block: the invariant before the point hands the run the scratch
    buffers at a state satisfying it, the run leaves them at the case's next state, and that state satisfies the invariant
    before the next point. -/
theorem sound_B (c : Dev nD) (t : Fin cfg0.N) (h1 : 1 ≤ t.val) (h2 : t.val ≤ 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8,
    leaves0_9_idle m c t (by omega), owes_succ, Phi_castSucc, Phi_succ]
  unfold PhiS ownsSt
  iintro ⟨⟨⟨%st, %hI, Ha2c, Hxc, Hw3c, Hw1c, Hw2c, Hs2, Hs3, Hu1, Hu2, Hu3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := fun hh => (show False by have := (hcond1 t).mp hh; omega)
  have hc2 := (hcond2 t).mpr (by first | omega | exact ⟨by omega, by omega⟩)
  have hc3 := fun hh => (show False by have := (hcond3 t).mp hh; omega)
  have hc4 := fun hh => (show False by have := (hcond4 t).mp hh; omega)
  have hc5 := (hcond5 t).mpr (by first | omega | exact ⟨by omega, by omega⟩)
  have hc6 := fun hh => (show False by have := (hcond6 t).mp hh; omega)
  have hc7 := fun hh => (show False by have := (hcond7 t).mp hh; omega)
  iapply (runB c (grid0.coords t) _ _ _ _ _ _ _ _ _ _ _ _ _ _ _ _ _ _ _ _ _ _ _ _ _ _ _ _ _ _ _ _ _ _ _ _ _ _ _ _
    hc1 hc2 hc3 hc4 hc5 hc6 hc7
    (b3B m c t) (adjB m c t) st.xc st.w3c st.w1c st.s2 st.u1 Set.univ _)
  isplitl [H4]; · iexact H4
  isplitl [H0]; · iexact H0
  isplitl [Hxc]; · iexact Hxc
  isplitl [Hw3c]; · iexact Hw3c
  isplitl [Hw1c]; · iexact Hw1c
  isplitl [Hs2]; · iexact Hs2
  isplitl [Hu1]; · iexact Hu1
  iintro ⟨H4, H0, Hxc, Hw3c, Hw1c, Hs2, Hu1⟩
  isplitl [Ha2c Hxc Hw3c Hw1c Hw2c Hs2 Hs3 Hu1 Hu2 Hu3 Hg]
  · isplitr [Hg]
    · iexists ({ st with
      s2 := ((Rect.unit (s := S4096x256) (k0_off1 (grid0.coords t)) S256x256.size (k0_off1_inb (grid0.coords t) hc2)).overlay st.s2 (k0_pay5 st.u1 (b3B m c t) st.w1c)),
      u1 := k0_pay8 (adjB m c t) st.xc st.w3c } : St F)
      isplitr
      · ipureintro; exact step_B m c t h1 h2 hc2 st hI
      isplitl [Ha2c]; · iexact Ha2c
      isplitl [Hxc]; · iexact Hxc
      isplitl [Hw3c]; · iexact Hw3c
      isplitl [Hw1c]; · iexact Hw1c
      isplitl [Hw2c]; · iexact Hw2c
      isplitl [Hs2]; · iexact Hs2
      isplitl [Hs3]; · iexact Hs3
      isplitl [Hu1]; · iexact Hu1
      isplitl [Hu2]; · iexact Hu2
      iexact Hu3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.Kernel.Body

end
-- ==== Proof.BodyK.RunC.lean ====
import proofs.«128992_g77695958385291_cont_9to1c4b_463_14_alg».proof.Proof.BodyK.Defs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

instance : ClosedOff (k0_off1 (grid0.coords (pt 16 (by omega)))) := ⟨![3840, 0], by decide +kernel⟩
instance : ClosedOff (k0_off3 (grid0.coords (pt 16 (by omega)))) := ⟨![0, 0], by decide +kernel⟩
set_option maxHeartbeats 1600000 in
/-- The body in the control case of point 16: finish layer 1's last row block into S2, cache A2's first row block, layer 2's accumulator for it over the now complete S2: on whole memrefs at the contents named, it runs to the
    continuation with each buffer it stores into at the contents the stores leave (a row-block store: the old contents
    with that block replaced), the others as they were. -/
theorem runC (c : Dev nD) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S4096x4096 .bf16) (harg11 : arg11.IsWhole) (arg12 : Memref sig .tc .vmem S4096x128 .bf16) (harg12 : arg12.IsWhole) (arg13 : Memref sig .tc .vmem S128x512 .bf16) (harg13 : arg13.IsWhole) (arg14 : Memref sig .tc .vmem S512x256 .bf16) (harg14 : arg14.IsWhole) (arg15 : Memref sig .tc .vmem S256x128 .bf16) (harg15 : arg15.IsWhole) (arg16 : Memref sig .tc .vmem S4096x256 .bf16) (harg16 : arg16.IsWhole) (arg17 : Memref sig .tc .vmem S4096x128 .bf16) (harg17 : arg17.IsWhole) (arg18 : Memref sig .tc .vmem S256x512 .f32) (harg18 : arg18.IsWhole) (arg19 : Memref sig .tc .vmem S256x256 .f32) (harg19 : arg19.IsWhole) (arg20 : Memref sig .tc .vmem S256x128 .f32) (harg20 : arg20.IsWhole)
    (hc1 : ¬ (Scalar.cmpi .ne (Scalar.extui (Scalar.cmpi .eq (BitVec.ofNat 32 ((grid0.coords (pt 16 (by omega))) 0).val) 0#32)) 0#32) = 1#1) (hc2 : k0_cond2 (grid0.coords (pt 16 (by omega))) = 1#1) (hc3 : ¬ k0_cond3 (grid0.coords (pt 16 (by omega))) = 1#1) (hc4 : ¬ k0_cond4 (grid0.coords (pt 16 (by omega))) = 1#1) (hc5 : ¬ (Scalar.cmpi .ne (Scalar.extui (Scalar.cmpi .slt (BitVec.ofNat 32 ((grid0.coords (pt 16 (by omega))) 0).val) 16#32)) 0#32) = 1#1) (hc6 : k0_cond6 (grid0.coords (pt 16 (by omega))) = 1#1) (hc7 : ¬ k0_cond7 (grid0.coords (pt 16 (by omega))) = 1#1)
    (x5 : Vec F S1x512 .f32) (x2 : Vec F S256x4096 .f32) (x14 : Vec F S512x256 .bf16) (x18 : Vec F S256x512 .f32) (x16 : Vec F S4096x256 .bf16) (x11 : Vec F S4096x4096 .bf16) (x19 : Vec F S256x256 .f32)
    (E : Set ℕ) (K : PUnit → sProp 𝕄) :
    iprop(owns (c : Thread nD τ) arg5 fullShare x5 ∗ owns (c : Thread nD τ) arg2 fullShare x2 ∗ owns (c : Thread nD τ) arg14 fullShare x14 ∗ owns (c : Thread nD τ) arg18 fullShare x18 ∗ owns (c : Thread nD τ) arg16 fullShare x16 ∗ owns (c : Thread nD τ) arg11 fullShare x11 ∗ owns (c : Thread nD τ) arg19 fullShare x19
      ∗ (iprop(owns (c : Thread nD τ) arg5 fullShare x5 ∗ owns (c : Thread nD τ) arg2 fullShare x2 ∗ owns (c : Thread nD τ) arg14 fullShare x14 ∗ owns (c : Thread nD τ) arg18 fullShare x18 ∗ owns (c : Thread nD τ) arg16 fullShare ((Rect.unit (s := S4096x256) (k0_off1 (grid0.coords (pt 16 (by omega)))) S256x256.size (k0_off1_inb (grid0.coords (pt 16 (by omega))) hc2)).overlay x16 (k0_pay5 x18 x5 x14)) ∗ owns (c : Thread nD τ) arg11 fullShare ((Rect.unit (s := S4096x4096) (k0_off3 (grid0.coords (pt 16 (by omega)))) S256x4096.size (k0_off3_inb (grid0.coords (pt 16 (by omega))) hc6)).overlay x11 (k0_pay10 x2)) ∗ owns (c : Thread nD τ) arg19 fullShare (k0_pay11 x2 ((Rect.unit (s := S4096x256) (k0_off1 (grid0.coords (pt 16 (by omega)))) S256x256.size (k0_off1_inb (grid0.coords (pt 16 (by omega))) hc2)).overlay x16 (k0_pay5 x18 x5 x14)))) -∗ K ⟨⟩))
    ⊢ wp frame (wpE (defs₀ (F := F)) Variants.none c none) E (cc0__gcn_kernel (grid0.coords (pt 16 (by omega))) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_kernel_eq_skeleton]; unfold cc0__gcn_kernel_skel
  unfold owns
  iintro ⟨⟨%f5, %hf5, H5⟩, ⟨%f2, %hf2, H2⟩, ⟨%f14, %hf14, H14⟩, ⟨%f18, %hf18, H18⟩, ⟨%f16, %hf16, H16⟩, ⟨%f11, %hf11, H11⟩, ⟨%f19, %hf19, H19⟩, Hk⟩
  obtain rfl := harg5.eq_unread hf5; obtain rfl := harg2.eq_unread hf2; obtain rfl := harg14.eq_unread hf14; obtain rfl := harg18.eq_unread hf18; obtain rfl := harg16.eq_unread hf16; obtain rfl := harg11.eq_unread hf11; obtain rfl := harg19.eq_unread hf19
  sl_exec (disch := first | exact hc1 | exact hc2 | exact hc3 | exact hc4 | exact hc5 | exact hc6 | exact hc7)
  sl_step
  iapply Hk
  isplitl [H5]
  · iexists _; isplitr
    swap; · iexact H5
    ipureintro; exact harg5.read_unread _
  isplitl [H2]
  · iexists _; isplitr
    swap; · iexact H2
    ipureintro; exact harg2.read_unread _
  isplitl [H14]
  · iexists _; isplitr
    swap; · iexact H14
    ipureintro; exact harg14.read_unread _
  isplitl [H18]
  · iexists _; isplitr
    swap; · iexact H18
    ipureintro; exact harg18.read_unread _
  isplitl [H16]
  · iexists _; isplitr
    swap; · iexact H16
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  isplitl [H11]
  · iexists _; isplitr
    swap; · iexact H11
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  iexists _; isplitr
  swap; · iexact H19
  ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]

end Cert.Kernel.Body

end
-- ==== Proof.BodyK.SoundC.lean ====
import proofs.«128992_g77695958385291_cont_9to1c4b_463_14_alg».proof.Proof.BodyK.RunC
import proofs.«128992_g77695958385291_cont_9to1c4b_463_14_alg».proof.Proof.BodyK.StepsABC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 3200000 in
/-- The body obligation at grid point 16: layer 1's last row block folded into S2, A2's first row block cached, layer 2's accumulator for it: the invariant before the point hands the run the scratch
    buffers at a state satisfying it, the run leaves them at the case's next state, and that state satisfies the invariant
    before the next point. -/
theorem sound_C (c : Dev nD) (t : Fin cfg0.N) (h : t.val = 16) :
    bodyPre m c t ⊢ wp frame (wpE (defs₀ (F := F)) Variants.none c none) Set.univ (bodyAt0 t) (fun _ => bodyPost m c t) := by
  obtain rfl : t = pt 16 (by decide) := Fin.ext h
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8,
    leaves0_9_idle m c (pt 16 (by decide)) (by decide), owes_succ, Phi_castSucc, Phi_succ]
  unfold PhiS ownsSt
  iintro ⟨⟨⟨%st, %hI, Ha2c, Hxc, Hw3c, Hw1c, Hw2c, Hs2, Hs3, Hu1, Hu2, Hu3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := fun hh => (show False from absurd ((hcond1 (pt 16 (by decide))).mp hh) (by decide))
  have hc2 := (hcond2 (pt 16 (by decide))).mpr (by decide)
  have hc3 := fun hh => (show False from absurd ((hcond3 (pt 16 (by decide))).mp hh) (by decide))
  have hc4 := fun hh => (show False from absurd ((hcond4 (pt 16 (by decide))).mp hh) (by decide))
  have hc5 := fun hh => (show False from absurd ((hcond5 (pt 16 (by decide))).mp hh) (by decide))
  have hc6 := (hcond6 (pt 16 (by decide))).mpr (by decide)
  have hc7 := fun hh => (show False from absurd ((hcond7 (pt 16 (by decide))).mp hh) (by decide))
  iapply (runC c _ _ _ _ _ _ _ _ _ _ _ _ _ _ _ _ _ _ _ _ _ _ _ _ _ _ _ _ _ _ _ _ _ _ _ _ _ _ _ _
    hc1 hc2 hc3 hc4 hc5 hc6 hc7
    (b3B m c (pt 16 (by decide))) (a2B m c (pt 16 (by decide))) st.w1c st.u1 st.s2 st.a2c st.u2 Set.univ _)
  isplitl [H4]; · iexact H4
  isplitl [H1]; · iexact H1
  isplitl [Hw1c]; · iexact Hw1c
  isplitl [Hu1]; · iexact Hu1
  isplitl [Hs2]; · iexact Hs2
  isplitl [Ha2c]; · iexact Ha2c
  isplitl [Hu2]; · iexact Hu2
  iintro ⟨H4, H1, Hw1c, Hu1, Hs2, Ha2c, Hu2⟩
  isplitl [Ha2c Hxc Hw3c Hw1c Hw2c Hs2 Hs3 Hu1 Hu2 Hu3 Hg]
  · isplitr [Hg]
    · iexists ({ st with
      s2 := ((Rect.unit (s := S4096x256) (k0_off1 (grid0.coords (pt 16 (by decide)))) S256x256.size (k0_off1_inb (grid0.coords (pt 16 (by decide))) hc2)).overlay st.s2 (k0_pay5 st.u1 (b3B m c (pt 16 (by decide))) st.w1c)),
      a2c := ((Rect.unit (s := S4096x4096) (k0_off3 (grid0.coords (pt 16 (by decide)))) S256x4096.size (k0_off3_inb (grid0.coords (pt 16 (by decide))) hc6)).overlay st.a2c (k0_pay10 (a2B m c (pt 16 (by decide))))),
      u2 := k0_pay11 (a2B m c (pt 16 (by decide))) ((Rect.unit (s := S4096x256) (k0_off1 (grid0.coords (pt 16 (by decide)))) S256x256.size (k0_off1_inb (grid0.coords (pt 16 (by decide))) hc2)).overlay st.s2 (k0_pay5 st.u1 (b3B m c (pt 16 (by decide))) st.w1c)) } : St F)
      isplitr
      · ipureintro; exact step_C m c (pt 16 (by decide)) rfl hc2 hc6 st hI
      isplitl [Ha2c]; · iexact Ha2c
      isplitl [Hxc]; · iexact Hxc
      isplitl [Hw3c]; · iexact Hw3c
      isplitl [Hw1c]; · iexact Hw1c
      isplitl [Hw2c]; · iexact Hw2c
      isplitl [Hs2]; · iexact Hs2
      isplitl [Hs3]; · iexact Hs3
      isplitl [Hu1]; · iexact Hu1
      isplitl [Hu2]; · iexact Hu2
      iexact Hu3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.Kernel.Body

end
-- ==== Proof.BodyK.RunD.lean ====
import proofs.«128992_g77695958385291_cont_9to1c4b_463_14_alg».proof.Proof.BodyK.Defs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in
/-- The body in the control case of points 17 to 31: finish layer 2's previous row block into S3, cache A2's row block, layer 2's accumulator for it: on whole memrefs at the contents named, it runs to the
    continuation with each buffer it stores into at the contents the stores leave (a row-block store: the old contents
    with that block replaced), the others as they were. -/
theorem runD (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S4096x4096 .bf16) (harg11 : arg11.IsWhole) (arg12 : Memref sig .tc .vmem S4096x128 .bf16) (harg12 : arg12.IsWhole) (arg13 : Memref sig .tc .vmem S128x512 .bf16) (harg13 : arg13.IsWhole) (arg14 : Memref sig .tc .vmem S512x256 .bf16) (harg14 : arg14.IsWhole) (arg15 : Memref sig .tc .vmem S256x128 .bf16) (harg15 : arg15.IsWhole) (arg16 : Memref sig .tc .vmem S4096x256 .bf16) (harg16 : arg16.IsWhole) (arg17 : Memref sig .tc .vmem S4096x128 .bf16) (harg17 : arg17.IsWhole) (arg18 : Memref sig .tc .vmem S256x512 .f32) (harg18 : arg18.IsWhole) (arg19 : Memref sig .tc .vmem S256x256 .f32) (harg19 : arg19.IsWhole) (arg20 : Memref sig .tc .vmem S256x128 .f32) (harg20 : arg20.IsWhole)
    (hc1 : ¬ (Scalar.cmpi .ne (Scalar.extui (Scalar.cmpi .eq (BitVec.ofNat 32 (i 0).val) 0#32)) 0#32) = 1#1) (hc2 : ¬ k0_cond2 i = 1#1) (hc3 : k0_cond3 i = 1#1) (hc4 : ¬ k0_cond4 i = 1#1) (hc5 : ¬ (Scalar.cmpi .ne (Scalar.extui (Scalar.cmpi .slt (BitVec.ofNat 32 (i 0).val) 16#32)) 0#32) = 1#1) (hc6 : k0_cond6 i = 1#1) (hc7 : ¬ k0_cond7 i = 1#1)
    (x7 : Vec F S1x256 .f32) (x2 : Vec F S256x4096 .f32) (x15 : Vec F S256x128 .bf16) (x16 : Vec F S4096x256 .bf16) (x17 : Vec F S4096x128 .bf16) (x11 : Vec F S4096x4096 .bf16) (x19 : Vec F S256x256 .f32)
    (E : Set ℕ) (K : PUnit → sProp 𝕄) :
    iprop(owns (c : Thread nD τ) arg7 fullShare x7 ∗ owns (c : Thread nD τ) arg2 fullShare x2 ∗ owns (c : Thread nD τ) arg15 fullShare x15 ∗ owns (c : Thread nD τ) arg16 fullShare x16 ∗ owns (c : Thread nD τ) arg17 fullShare x17 ∗ owns (c : Thread nD τ) arg11 fullShare x11 ∗ owns (c : Thread nD τ) arg19 fullShare x19
      ∗ (iprop(owns (c : Thread nD τ) arg7 fullShare x7 ∗ owns (c : Thread nD τ) arg2 fullShare x2 ∗ owns (c : Thread nD τ) arg15 fullShare x15 ∗ owns (c : Thread nD τ) arg16 fullShare x16 ∗ owns (c : Thread nD τ) arg17 fullShare ((Rect.unit (s := S4096x128) (k0_off2 i) S256x128.size (k0_off2_inb i hc3)).overlay x17 (k0_pay6 x19 x7 x15)) ∗ owns (c : Thread nD τ) arg11 fullShare ((Rect.unit (s := S4096x4096) (k0_off3 i) S256x4096.size (k0_off3_inb i hc6)).overlay x11 (k0_pay10 x2)) ∗ owns (c : Thread nD τ) arg19 fullShare (k0_pay11 x2 x16)) -∗ K ⟨⟩))
    ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_kernel_eq_skeleton]; unfold cc0__gcn_kernel_skel
  unfold owns
  iintro ⟨⟨%f7, %hf7, H7⟩, ⟨%f2, %hf2, H2⟩, ⟨%f15, %hf15, H15⟩, ⟨%f16, %hf16, H16⟩, ⟨%f17, %hf17, H17⟩, ⟨%f11, %hf11, H11⟩, ⟨%f19, %hf19, H19⟩, Hk⟩
  obtain rfl := harg7.eq_unread hf7; obtain rfl := harg2.eq_unread hf2; obtain rfl := harg15.eq_unread hf15; obtain rfl := harg16.eq_unread hf16; obtain rfl := harg17.eq_unread hf17; obtain rfl := harg11.eq_unread hf11; obtain rfl := harg19.eq_unread hf19
  sl_exec (disch := first | exact hc1 | exact hc2 | exact hc3 | exact hc4 | exact hc5 | exact hc6 | exact hc7)
  sl_step
  iapply Hk
  isplitl [H7]
  · iexists _; isplitr
    swap; · iexact H7
    ipureintro; exact harg7.read_unread _
  isplitl [H2]
  · iexists _; isplitr
    swap; · iexact H2
    ipureintro; exact harg2.read_unread _
  isplitl [H15]
  · iexists _; isplitr
    swap; · iexact H15
    ipureintro; exact harg15.read_unread _
  isplitl [H16]
  · iexists _; isplitr
    swap; · iexact H16
    ipureintro; exact harg16.read_unread _
  isplitl [H17]
  · iexists _; isplitr
    swap; · iexact H17
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  isplitl [H11]
  · iexists _; isplitr
    swap; · iexact H11
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  iexists _; isplitr
  swap; · iexact H19
  ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]

end Cert.Kernel.Body

end
-- ==== Proof.BodyK.StepsDEFG.lean ====
/-
  The invariant through grid points 17 to 48: layer 2's accumulators folded into rows of the support S3 while A2's row blocks are cached; at point 32 the last rows of S3 and layer 3's first accumulator from the cache; from point 33 on the accumulator written out and the next one computed.
-/
import proofs.«128992_g77695958385291_cont_9to1c4b_463_14_alg».proof.Proof.BodyK.Dats

set_option maxRecDepth 16384

noncomputable section

namespace Cert.Kernel.Body

open Idealize.ShloMosaic Idealize.ShloMosaic.TcCoe Idealize.ShloMosaic.ValueIdx
open Idealize.SL.Sem
open Cert.Kernel Cert.Kernel.Gen

variable {F : FTy → Type} [FloatOps F]

variable (m : (ℓ : Loc nD τ sig) → Buf (Elt F) ℓ)

/-! ## Rows of a stored block -/

/-- A row between `256 * b` and `256 * (b + 1)` lies in block `b`. -/
theorem rowBlk_eq (r : Fin 4096) (b : ℕ) (hb : b < 16) (h1 : 256 * b ≤ r.val) (h2 : r.val < 256 * (b + 1)) :
    rowBlk r = ⟨b, hb⟩ := Fin.ext (by show r.val / 256 = b; omega)

/-- … and is row `r - 256 * b` of it. -/
theorem rowIn_eq (r : Fin 4096) (b : ℕ) (h1 : 256 * b ≤ r.val) (h2 : r.val < 256 * (b + 1)) :
    rowIn r = ⟨r.val - 256 * b, by omega⟩ := Fin.ext (by show r.val % 256 = r.val - 256 * b; omega)

/-- The rows of layer 3's support after the store of point `t` (points 17 to 32): all rows up to block `t - 17`. -/
theorem s3_step (c : Dev nD) (t : Fin cfg0.N) (h1 : 17 ≤ t.val) (h2 : t.val ≤ 32) (hc3 : k0_cond3 (grid0.coords t) = 1#1)
    (st : St F) (hI : Inv m c t.val st) (idx : S4096x128.Idx) (hidx : (idx 0).val < 256 * (t.val + 1 - 17)) :
    (Rect.unit (s := S4096x128) (k0_off2 (grid0.coords t)) S256x128.size (k0_off2_inb (grid0.coords t) hc3)).overlay st.s3
      (k0_pay6 st.u2 (b1B m c t) st.w2c) idx = S3 m c idx := by
  have hoff := off2_eq t h1 h2
  have hoff0 : k0_off2 (grid0.coords t) 0 = 256 * (t.val - 17) := by rw [hoff]; rfl
  have hoff1 : k0_off2 (grid0.coords t) 1 = 0 := by rw [hoff]; rfl
  have hl0 : (idx 0).val < 4096 := idx2_lt0 idx
  by_cases hlt : (idx 0).val < 256 * (t.val - 17)
  · rw [Rect.overlay_unit_of_not_mem _ _ idx 0 (Or.inl (by rw [hoff0]; exact hlt))]
    exact hI.s3 idx hlt
  · have hge : 256 * (t.val - 17) ≤ (idx 0).val := by omega
    have hlt' : (idx 0).val < 256 * ((t.val - 17) + 1) := by omega
    have hx0 : (idx 0).val - 256 * (t.val - 17) < 256 := by omega
    refine (Rect.overlay_unit_of_mem (s := S4096x128) (off := k0_off2 (grid0.coords t)) (size := S256x128.size) st.s3 _ idx
      (ix2 (n0 := 256) (n1 := 128) ⟨(idx 0).val - 256 * (t.val - 17), hx0⟩ (idx 1))
      (Fin.forall_fin_two.mpr ⟨by show (idx 0).val = k0_off2 (grid0.coords t) 0 + ((idx 0).val - 256 * (t.val - 17)); omega,
        by show (idx 1).val = k0_off2 (grid0.coords t) 1 + (idx 1).val; omega⟩)).trans ?_
    rw [hI.u2 h1 h2, (hI.consts (by omega)).2.2.2]
    show _ = S3blk m c (rowBlk (idx 0)) (ix2 (rowIn (idx 0)) (idx 1))
    rw [rowBlk_eq (idx 0) (t.val - 17) (by omega) hge hlt', rowIn_eq (idx 0) (t.val - 17) hge hlt']
    have hp : pt (17 + (t.val - 17)) (by omega) = t := Fin.ext (by show 17 + (t.val - 17) = t.val; omega)
    show _ = k0_pay6 (U2 m c ⟨t.val - 17, by omega⟩) (b1B m c (pt (17 + (t.val - 17)) (by omega))) (W2C m c) _
    rw [hp]

/-- The rows of A2's cached cast after the store of point `t` (points 16 to 31): all rows up to block `t - 16`. -/
theorem a2c_step (c : Dev nD) (t : Fin cfg0.N) (h1 : 16 ≤ t.val) (h2 : t.val < 32) (hc6 : k0_cond6 (grid0.coords t) = 1#1)
    (st : St F) (hI : Inv m c t.val st) (idx : S4096x4096.Idx) (hidx : (idx 0).val < 256 * (t.val + 1 - 16)) :
    (Rect.unit (s := S4096x4096) (k0_off3 (grid0.coords t)) S256x4096.size (k0_off3_inb (grid0.coords t) hc6)).overlay st.a2c
      (k0_pay10 (a2B m c t)) idx = A2C m c idx := by
  have hoff := off3_eq t h1 h2
  have hoff0 : k0_off3 (grid0.coords t) 0 = 256 * (t.val - 16) := by rw [hoff]; rfl
  have hoff1 : k0_off3 (grid0.coords t) 1 = 0 := by rw [hoff]; rfl
  have hl0 : (idx 0).val < 4096 := idx2_lt0 idx
  by_cases hlt : (idx 0).val < 256 * (t.val - 16)
  · rw [Rect.overlay_unit_of_not_mem _ _ idx 0 (Or.inl (by rw [hoff0]; exact hlt))]
    exact hI.a2c idx hlt
  · have hge : 256 * (t.val - 16) ≤ (idx 0).val := by omega
    have hlt' : (idx 0).val < 256 * ((t.val - 16) + 1) := by omega
    have hx0 : (idx 0).val - 256 * (t.val - 16) < 256 := by omega
    refine (Rect.overlay_unit_of_mem (s := S4096x4096) (off := k0_off3 (grid0.coords t)) (size := S256x4096.size) st.a2c _ idx
      (ix2 (n0 := 256) (n1 := 4096) ⟨(idx 0).val - 256 * (t.val - 16), hx0⟩ (idx 1))
      (Fin.forall_fin_two.mpr ⟨by show (idx 0).val = k0_off3 (grid0.coords t) 0 + ((idx 0).val - 256 * (t.val - 16)); omega,
        by show (idx 1).val = k0_off3 (grid0.coords t) 1 + (idx 1).val; omega⟩)).trans ?_
    show _ = A2Cblk m c (rowBlk (idx 0)) (ix2 (rowIn (idx 0)) (idx 1))
    rw [rowBlk_eq (idx 0) (t.val - 16) (by omega) hge hlt', rowIn_eq (idx 0) (t.val - 16) hge hlt']
    have hp : pt (16 + (t.val - 16)) (by omega) = t := Fin.ext (by show 16 + (t.val - 16) = t.val; omega)
    show _ = k0_pay10 (a2B m c (pt (16 + (t.val - 16)) (by omega))) _
    rw [hp]

/-- The row block of the cache that point `t` reads (points 32 to 47) is the cast of A2's block `t - 32`. -/
theorem ld_a2c (c : Dev nD) (t : Fin cfg0.N) (h1 : 32 ≤ t.val) (h2 : t.val < 48) (hc7 : k0_cond7 (grid0.coords t) = 1#1)
    (st : St F) (hI : Inv m c t.val st) :
    View.ld st.a2c (Rect.unit (s := S4096x4096) (k0_off4 (grid0.coords t)) S256x4096.size (k0_off4_inb (grid0.coords t) hc7))
      = A2Cblk m c ⟨t.val - 32, by omega⟩ := by
  have hoff := off4_eq t h1 h2
  have hoff0 : k0_off4 (grid0.coords t) 0 = 256 * (t.val - 32) := by rw [hoff]; rfl
  have hoff1 : k0_off4 (grid0.coords t) 1 = 0 := by rw [hoff]; rfl
  funext x
  have hx0 : (x 0).val < 256 := (x 0).isLt
  obtain ⟨y, hy⟩ : ∃ y, y = (Rect.unit (s := S4096x4096) (k0_off4 (grid0.coords t)) S256x4096.size (k0_off4_inb (grid0.coords t) hc7)).idx x := ⟨_, rfl⟩
  have hy0 : (y 0).val = 256 * (t.val - 32) + (x 0).val := by
    rw [hy]; show k0_off4 (grid0.coords t) 0 + 1 * (x 0).val = _; omega
  have hy1 : (y 1).val = (x 1).val := by
    rw [hy]; show k0_off4 (grid0.coords t) 1 + 1 * (x 1).val = _; omega
  show st.a2c ((Rect.unit (s := S4096x4096) (k0_off4 (grid0.coords t)) S256x4096.size (k0_off4_inb (grid0.coords t) hc7)).idx x) = _
  rw [← hy, hI.a2c y (by omega)]
  show A2Cblk m c (rowBlk (y 0)) (ix2 (rowIn (y 0)) (y 1)) = _
  rw [rowBlk_eq (y 0) (t.val - 32) (by omega) (by omega) (by omega)]
  refine congrArg (A2Cblk m c _) ?_
  funext a
  match a with
  | ⟨0, _⟩ => exact Fin.ext (by show (y 0).val % 256 = (x 0).val; omega)
  | ⟨1, _⟩ => exact Fin.ext (by show (y 1).val = (x 1).val; omega)

theorem step_D (c : Dev nD) (t : Fin cfg0.N) (h1 : 17 ≤ t.val) (h2 : t.val ≤ 31) (hc3 : k0_cond3 (grid0.coords t) = 1#1) (hc6 : k0_cond6 (grid0.coords t) = 1#1) (st : St F) (hI : Inv m c t.val st) :
    Inv m c (t.val + 1) { st with
      s3 := ((Rect.unit (s := S4096x128) (k0_off2 (grid0.coords t)) S256x128.size (k0_off2_inb (grid0.coords t) hc3)).overlay st.s3 (k0_pay6 st.u2 (b1B m c t) st.w2c)),
      a2c := ((Rect.unit (s := S4096x4096) (k0_off3 (grid0.coords t)) S256x4096.size (k0_off3_inb (grid0.coords t) hc6)).overlay st.a2c (k0_pay10 (a2B m c t))),
      u2 := k0_pay11 (a2B m c t) st.s2 } := by
  refine ⟨?_, ?_, ?_, ?_, ?_, ?_, ?_⟩
  · intro _; exact hI.consts (by omega)
  · intro h1' h2'; exact absurd h2' (by omega)
  · intro idx _; exact hI.s2 idx (by have := idx2_lt0 idx; omega)
  · intro h1' h2'
    have hs2 : st.s2 = S2 m c := funext fun idx => hI.s2 idx (by have := idx2_lt0 idx; omega)
    have hp : pt (16 + (t.val + 1 - 17)) (by omega) = t := Fin.ext (by show 16 + (t.val + 1 - 17) = t.val; omega)
    show k0_pay11 (a2B m c t) st.s2 = k0_pay11 (a2B m c (pt (16 + (t.val + 1 - 17)) (by omega))) (S2 m c)
    rw [hs2, hp]
  · intro idx hidx; dsimp only; exact a2c_step m c t (by omega) (by omega) hc6 st hI idx hidx
  · intro idx hidx; dsimp only; exact s3_step m c t h1 (by omega) hc3 st hI idx hidx
  · intro h1' h2'; exact absurd h1' (by omega)

theorem step_E (c : Dev nD) (t : Fin cfg0.N) (h : t.val = 32) (hc3 : k0_cond3 (grid0.coords t) = 1#1) (hc7 : k0_cond7 (grid0.coords t) = 1#1) (st : St F) (hI : Inv m c t.val st) :
    Inv m c (t.val + 1) { st with
      s3 := ((Rect.unit (s := S4096x128) (k0_off2 (grid0.coords t)) S256x128.size (k0_off2_inb (grid0.coords t) hc3)).overlay st.s3 (k0_pay6 st.u2 (b1B m c t) st.w2c)),
      u3 := k0_pay12 (View.ld st.a2c (Rect.unit (s := S4096x4096) (k0_off4 (grid0.coords t)) S256x4096.size (k0_off4_inb (grid0.coords t) hc7))) ((Rect.unit (s := S4096x128) (k0_off2 (grid0.coords t)) S256x128.size (k0_off2_inb (grid0.coords t) hc3)).overlay st.s3 (k0_pay6 st.u2 (b1B m c t) st.w2c)) } := by
  have h32 := h
  refine ⟨?_, ?_, ?_, ?_, ?_, ?_, ?_⟩
  · intro _; exact hI.consts (by omega)
  · intro h1' h2'; exact absurd h2' (by omega)
  · intro idx _; exact hI.s2 idx (by have := idx2_lt0 idx; omega)
  · intro h1' h2'; exact absurd h2' (by omega)
  · intro idx _; exact hI.a2c idx (by have := idx2_lt0 idx; omega)
  · intro idx hidx; dsimp only; exact s3_step m c t (by omega) (by omega) hc3 st hI idx hidx
  · intro h1' h2'
    dsimp only [U3]
    exact congrArg₂ k0_pay12
      ((ld_a2c m c t (by omega) (by omega) hc7 st hI).trans
        (congrArg (A2Cblk m c) (Fin.ext (by show t.val - 32 = t.val + 1 - 33; omega))))
      (funext fun idx => s3_step m c t (by omega) (by omega) hc3 st hI idx (by have := idx2_lt0 idx; omega))

theorem step_F (c : Dev nD) (t : Fin cfg0.N) (h1 : 33 ≤ t.val) (h2 : t.val ≤ 47) (hc7 : k0_cond7 (grid0.coords t) = 1#1) (st : St F) (hI : Inv m c t.val st) :
    Inv m c (t.val + 1) { st with
      u3 := k0_pay12 (View.ld st.a2c (Rect.unit (s := S4096x4096) (k0_off4 (grid0.coords t)) S256x4096.size (k0_off4_inb (grid0.coords t) hc7))) st.s3 } := by
  refine ⟨?_, ?_, ?_, ?_, ?_, ?_, ?_⟩
  · intro _; exact hI.consts (by omega)
  · intro h1' h2'; exact absurd h2' (by omega)
  · intro idx _; exact hI.s2 idx (by have := idx2_lt0 idx; omega)
  · intro h1' h2'; exact absurd h2' (by omega)
  · intro idx _; exact hI.a2c idx (by have := idx2_lt0 idx; omega)
  · intro idx _; exact hI.s3 idx (by have := idx2_lt0 idx; omega)
  · intro h1' h2'
    dsimp only [U3]
    exact congrArg₂ k0_pay12
      ((ld_a2c m c t (by omega) (by omega) hc7 st hI).trans
        (congrArg (A2Cblk m c) (Fin.ext (by show t.val - 32 = t.val + 1 - 33; omega))))
      (funext fun idx => hI.s3 idx (by have := idx2_lt0 idx; omega))

theorem step_G (c : Dev nD) (t : Fin cfg0.N) (h : t.val = 48) (st : St F) (hI : Inv m c t.val st) :
    Inv m c (t.val + 1) st := by
  have h48 := h
  refine ⟨?_, ?_, ?_, ?_, ?_, ?_, ?_⟩
  · intro _; exact hI.consts (by omega)
  · intro h1 h2; exact absurd h2 (by omega)
  · intro idx _; exact hI.s2 idx (by have := idx2_lt0 idx; omega)
  · intro h1 h2; exact absurd h2 (by omega)
  · intro idx _; exact hI.a2c idx (by have := idx2_lt0 idx; omega)
  · intro idx _; exact hI.s3 idx (by have := idx2_lt0 idx; omega)
  · intro h1 h2; exact absurd h2 (by omega)

/-- From point 33 on the scratch accumulator is layer 3's product for the block the point writes out, so the stored
    block is the output block. -/
theorem out_eq (c : Dev nD) (t : Fin cfg0.N) (h1 : 33 ≤ t.val) (st : St F) (hI : Inv m c t.val st) :
    k0_pay7 st.u3 (b2B m c t) = outAt m c t := by
  have h2 := lt49 t
  have hp : pt (33 + (t.val - 33)) (by omega) = t := Fin.ext (by show 33 + (t.val - 33) = t.val; omega)
  rw [hI.u3 h1 (by omega)]
  show _ = k0_pay7 (U3 m c ⟨t.val - 33, by omega⟩) (b2B m c (pt (33 + (t.val - 33)) (by omega)))
  rw [hp]

end Cert.Kernel.Body

end
-- ==== Proof.BodyK.SoundD.lean ====
import proofs.«128992_g77695958385291_cont_9to1c4b_463_14_alg».proof.Proof.BodyK.RunD
import proofs.«128992_g77695958385291_cont_9to1c4b_463_14_alg».proof.Proof.BodyK.StepsDEFG

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 3200000 in
/-- The body obligation at grid points 17 to 31: layer 2's previous row block folded into the support S3, A2's row block cached, layer 2's accumulator for it: the invariant before the point hands the run the scratch
    buffers at a state satisfying it, the run leaves them at the case's next state, and that state satisfies the invariant
    before the next point. -/
theorem sound_D (c : Dev nD) (t : Fin cfg0.N) (h1 : 17 ≤ t.val) (h2 : t.val ≤ 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8,
    leaves0_9_idle m c t (by omega), owes_succ, Phi_castSucc, Phi_succ]
  unfold PhiS ownsSt
  iintro ⟨⟨⟨%st, %hI, Ha2c, Hxc, Hw3c, Hw1c, Hw2c, Hs2, Hs3, Hu1, Hu2, Hu3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := fun hh => (show False by have := (hcond1 t).mp hh; omega)
  have hc2 := fun hh => (show False by have := (hcond2 t).mp hh; omega)
  have hc3 := (hcond3 t).mpr (by first | omega | exact ⟨by omega, by omega⟩)
  have hc4 := fun hh => (show False by have := (hcond4 t).mp hh; omega)
  have hc5 := fun hh => (show False by have := (hcond5 t).mp hh; omega)
  have hc6 := (hcond6 t).mpr (by first | omega | exact ⟨by omega, by omega⟩)
  have hc7 := fun hh => (show False by have := (hcond7 t).mp hh; omega)
  iapply (runD c (grid0.coords t) _ _ _ _ _ _ _ _ _ _ _ _ _ _ _ _ _ _ _ _ _ _ _ _ _ _ _ _ _ _ _ _ _ _ _ _ _ _ _ _
    hc1 hc2 hc3 hc4 hc5 hc6 hc7
    (b1B m c t) (a2B m c t) st.w2c st.s2 st.s3 st.a2c st.u2 Set.univ _)
  isplitl [H6]; · iexact H6
  isplitl [H1]; · iexact H1
  isplitl [Hw2c]; · iexact Hw2c
  isplitl [Hs2]; · iexact Hs2
  isplitl [Hs3]; · iexact Hs3
  isplitl [Ha2c]; · iexact Ha2c
  isplitl [Hu2]; · iexact Hu2
  iintro ⟨H6, H1, Hw2c, Hs2, Hs3, Ha2c, Hu2⟩
  isplitl [Ha2c Hxc Hw3c Hw1c Hw2c Hs2 Hs3 Hu1 Hu2 Hu3 Hg]
  · isplitr [Hg]
    · iexists ({ st with
      s3 := ((Rect.unit (s := S4096x128) (k0_off2 (grid0.coords t)) S256x128.size (k0_off2_inb (grid0.coords t) hc3)).overlay st.s3 (k0_pay6 st.u2 (b1B m c t) st.w2c)),
      a2c := ((Rect.unit (s := S4096x4096) (k0_off3 (grid0.coords t)) S256x4096.size (k0_off3_inb (grid0.coords t) hc6)).overlay st.a2c (k0_pay10 (a2B m c t))),
      u2 := k0_pay11 (a2B m c t) st.s2 } : St F)
      isplitr
      · ipureintro; exact step_D m c t h1 h2 hc3 hc6 st hI
      isplitl [Ha2c]; · iexact Ha2c
      isplitl [Hxc]; · iexact Hxc
      isplitl [Hw3c]; · iexact Hw3c
      isplitl [Hw1c]; · iexact Hw1c
      isplitl [Hw2c]; · iexact Hw2c
      isplitl [Hs2]; · iexact Hs2
      isplitl [Hs3]; · iexact Hs3
      isplitl [Hu1]; · iexact Hu1
      isplitl [Hu2]; · iexact Hu2
      iexact Hu3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.Kernel.Body

end
-- ==== Proof.BodyK.RunE.lean ====
import proofs.«128992_g77695958385291_cont_9to1c4b_463_14_alg».proof.Proof.BodyK.Defs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

instance : ClosedOff (k0_off2 (grid0.coords (pt 32 (by omega)))) := ⟨![3840, 0], by decide +kernel⟩
instance : ClosedOff (k0_off4 (grid0.coords (pt 32 (by omega)))) := ⟨![0, 0], by decide +kernel⟩
set_option maxHeartbeats 1600000 in
/-- The body in the control case of point 32: finish layer 2's last row block into S3, layer 3's accumulator for row block 0 from the cache over the now complete S3: on whole memrefs at the contents named, it runs to the
    continuation with each buffer it stores into at the contents the stores leave (a row-block store: the old contents
    with that block replaced), the others as they were. -/
theorem runE (c : Dev nD) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S4096x4096 .bf16) (harg11 : arg11.IsWhole) (arg12 : Memref sig .tc .vmem S4096x128 .bf16) (harg12 : arg12.IsWhole) (arg13 : Memref sig .tc .vmem S128x512 .bf16) (harg13 : arg13.IsWhole) (arg14 : Memref sig .tc .vmem S512x256 .bf16) (harg14 : arg14.IsWhole) (arg15 : Memref sig .tc .vmem S256x128 .bf16) (harg15 : arg15.IsWhole) (arg16 : Memref sig .tc .vmem S4096x256 .bf16) (harg16 : arg16.IsWhole) (arg17 : Memref sig .tc .vmem S4096x128 .bf16) (harg17 : arg17.IsWhole) (arg18 : Memref sig .tc .vmem S256x512 .f32) (harg18 : arg18.IsWhole) (arg19 : Memref sig .tc .vmem S256x256 .f32) (harg19 : arg19.IsWhole) (arg20 : Memref sig .tc .vmem S256x128 .f32) (harg20 : arg20.IsWhole)
    (hc1 : ¬ (Scalar.cmpi .ne (Scalar.extui (Scalar.cmpi .eq (BitVec.ofNat 32 ((grid0.coords (pt 32 (by omega))) 0).val) 0#32)) 0#32) = 1#1) (hc2 : ¬ k0_cond2 (grid0.coords (pt 32 (by omega))) = 1#1) (hc3 : k0_cond3 (grid0.coords (pt 32 (by omega))) = 1#1) (hc4 : ¬ k0_cond4 (grid0.coords (pt 32 (by omega))) = 1#1) (hc5 : ¬ (Scalar.cmpi .ne (Scalar.extui (Scalar.cmpi .slt (BitVec.ofNat 32 ((grid0.coords (pt 32 (by omega))) 0).val) 16#32)) 0#32) = 1#1) (hc6 : ¬ k0_cond6 (grid0.coords (pt 32 (by omega))) = 1#1) (hc7 : k0_cond7 (grid0.coords (pt 32 (by omega))) = 1#1)
    (x7 : Vec F S1x256 .f32) (x15 : Vec F S256x128 .bf16) (x19 : Vec F S256x256 .f32) (x11 : Vec F S4096x4096 .bf16) (x17 : Vec F S4096x128 .bf16) (x20 : Vec F S256x128 .f32)
    (E : Set ℕ) (K : PUnit → sProp 𝕄) :
    iprop(owns (c : Thread nD τ) arg7 fullShare x7 ∗ owns (c : Thread nD τ) arg15 fullShare x15 ∗ owns (c : Thread nD τ) arg19 fullShare x19 ∗ owns (c : Thread nD τ) arg11 fullShare x11 ∗ owns (c : Thread nD τ) arg17 fullShare x17 ∗ owns (c : Thread nD τ) arg20 fullShare x20
      ∗ (iprop(owns (c : Thread nD τ) arg7 fullShare x7 ∗ owns (c : Thread nD τ) arg15 fullShare x15 ∗ owns (c : Thread nD τ) arg19 fullShare x19 ∗ owns (c : Thread nD τ) arg11 fullShare x11 ∗ owns (c : Thread nD τ) arg17 fullShare ((Rect.unit (s := S4096x128) (k0_off2 (grid0.coords (pt 32 (by omega)))) S256x128.size (k0_off2_inb (grid0.coords (pt 32 (by omega))) hc3)).overlay x17 (k0_pay6 x19 x7 x15)) ∗ owns (c : Thread nD τ) arg20 fullShare (k0_pay12 (View.ld x11 (Rect.unit (s := S4096x4096) (k0_off4 (grid0.coords (pt 32 (by omega)))) S256x4096.size (k0_off4_inb (grid0.coords (pt 32 (by omega))) hc7))) ((Rect.unit (s := S4096x128) (k0_off2 (grid0.coords (pt 32 (by omega)))) S256x128.size (k0_off2_inb (grid0.coords (pt 32 (by omega))) hc3)).overlay x17 (k0_pay6 x19 x7 x15)))) -∗ K ⟨⟩))
    ⊢ wp frame (wpE (defs₀ (F := F)) Variants.none c none) E (cc0__gcn_kernel (grid0.coords (pt 32 (by omega))) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_kernel_eq_skeleton]; unfold cc0__gcn_kernel_skel
  unfold owns
  iintro ⟨⟨%f7, %hf7, H7⟩, ⟨%f15, %hf15, H15⟩, ⟨%f19, %hf19, H19⟩, ⟨%f11, %hf11, H11⟩, ⟨%f17, %hf17, H17⟩, ⟨%f20, %hf20, H20⟩, Hk⟩
  obtain rfl := harg7.eq_unread hf7; obtain rfl := harg15.eq_unread hf15; obtain rfl := harg19.eq_unread hf19; obtain rfl := harg11.eq_unread hf11; obtain rfl := harg17.eq_unread hf17; obtain rfl := harg20.eq_unread hf20
  sl_exec (disch := first | exact hc1 | exact hc2 | exact hc3 | exact hc4 | exact hc5 | exact hc6 | exact hc7)
  sl_step
  iapply Hk
  isplitl [H7]
  · iexists _; isplitr
    swap; · iexact H7
    ipureintro; exact harg7.read_unread _
  isplitl [H15]
  · iexists _; isplitr
    swap; · iexact H15
    ipureintro; exact harg15.read_unread _
  isplitl [H19]
  · iexists _; isplitr
    swap; · iexact H19
    ipureintro; exact harg19.read_unread _
  isplitl [H11]
  · iexists _; isplitr
    swap; · iexact H11
    ipureintro; exact harg11.read_unread _
  isplitl [H17]
  · iexists _; isplitr
    swap; · iexact H17
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  iexists _; isplitr
  swap; · iexact H20
  ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]

end Cert.Kernel.Body

end
-- ==== Proof.BodyK.SoundE.lean ====
import proofs.«128992_g77695958385291_cont_9to1c4b_463_14_alg».proof.Proof.BodyK.RunE
import proofs.«128992_g77695958385291_cont_9to1c4b_463_14_alg».proof.Proof.BodyK.StepsDEFG

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 3200000 in
/-- The body obligation at grid point 32: layer 2's last row block folded into S3, layer 3's accumulator for row block 0 from the cache: the invariant before the point hands the run the scratch
    buffers at a state satisfying it, the run leaves them at the case's next state, and that state satisfies the invariant
    before the next point. -/
theorem sound_E (c : Dev nD) (t : Fin cfg0.N) (h : t.val = 32) :
    bodyPre m c t ⊢ wp frame (wpE (defs₀ (F := F)) Variants.none c none) Set.univ (bodyAt0 t) (fun _ => bodyPost m c t) := by
  obtain rfl : t = pt 32 (by decide) := Fin.ext h
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8,
    leaves0_9_idle m c (pt 32 (by decide)) (by decide), owes_succ, Phi_castSucc, Phi_succ]
  unfold PhiS ownsSt
  iintro ⟨⟨⟨%st, %hI, Ha2c, Hxc, Hw3c, Hw1c, Hw2c, Hs2, Hs3, Hu1, Hu2, Hu3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := fun hh => (show False from absurd ((hcond1 (pt 32 (by decide))).mp hh) (by decide))
  have hc2 := fun hh => (show False from absurd ((hcond2 (pt 32 (by decide))).mp hh) (by decide))
  have hc3 := (hcond3 (pt 32 (by decide))).mpr (by decide)
  have hc4 := fun hh => (show False from absurd ((hcond4 (pt 32 (by decide))).mp hh) (by decide))
  have hc5 := fun hh => (show False from absurd ((hcond5 (pt 32 (by decide))).mp hh) (by decide))
  have hc6 := fun hh => (show False from absurd ((hcond6 (pt 32 (by decide))).mp hh) (by decide))
  have hc7 := (hcond7 (pt 32 (by decide))).mpr (by decide)
  iapply (runE c _ _ _ _ _ _ _ _ _ _ _ _ _ _ _ _ _ _ _ _ _ _ _ _ _ _ _ _ _ _ _ _ _ _ _ _ _ _ _ _
    hc1 hc2 hc3 hc4 hc5 hc6 hc7
    (b1B m c (pt 32 (by decide))) st.w2c st.u2 st.a2c st.s3 st.u3 Set.univ _)
  isplitl [H6]; · iexact H6
  isplitl [Hw2c]; · iexact Hw2c
  isplitl [Hu2]; · iexact Hu2
  isplitl [Ha2c]; · iexact Ha2c
  isplitl [Hs3]; · iexact Hs3
  isplitl [Hu3]; · iexact Hu3
  iintro ⟨H6, Hw2c, Hu2, Ha2c, Hs3, Hu3⟩
  isplitl [Ha2c Hxc Hw3c Hw1c Hw2c Hs2 Hs3 Hu1 Hu2 Hu3 Hg]
  · isplitr [Hg]
    · iexists ({ st with
      s3 := ((Rect.unit (s := S4096x128) (k0_off2 (grid0.coords (pt 32 (by decide)))) S256x128.size (k0_off2_inb (grid0.coords (pt 32 (by decide))) hc3)).overlay st.s3 (k0_pay6 st.u2 (b1B m c (pt 32 (by decide))) st.w2c)),
      u3 := k0_pay12 (View.ld st.a2c (Rect.unit (s := S4096x4096) (k0_off4 (grid0.coords (pt 32 (by decide)))) S256x4096.size (k0_off4_inb (grid0.coords (pt 32 (by decide))) hc7))) ((Rect.unit (s := S4096x128) (k0_off2 (grid0.coords (pt 32 (by decide)))) S256x128.size (k0_off2_inb (grid0.coords (pt 32 (by decide))) hc3)).overlay st.s3 (k0_pay6 st.u2 (b1B m c (pt 32 (by decide))) st.w2c)) } : St F)
      isplitr
      · ipureintro; exact step_E m c (pt 32 (by decide)) rfl hc3 hc7 st hI
      isplitl [Ha2c]; · iexact Ha2c
      isplitl [Hxc]; · iexact Hxc
      isplitl [Hw3c]; · iexact Hw3c
      isplitl [Hw1c]; · iexact Hw1c
      isplitl [Hw2c]; · iexact Hw2c
      isplitl [Hs2]; · iexact Hs2
      isplitl [Hs3]; · iexact Hs3
      isplitl [Hu1]; · iexact Hu1
      isplitl [Hu2]; · iexact Hu2
      iexact Hu3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.Kernel.Body

end
-- ==== Proof.BodyK.RunF.lean ====
import proofs.«128992_g77695958385291_cont_9to1c4b_463_14_alg».proof.Proof.BodyK.Defs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in
/-- The body in the control case of points 33 to 47: write layer 3's previous row block out, layer 3's accumulator for this block: on whole memrefs at the contents named, it runs to the
    continuation with each buffer it stores into at the contents the stores leave (a row-block store: the old contents
    with that block replaced), the others as they were. -/
theorem runF (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S4096x4096 .bf16) (harg11 : arg11.IsWhole) (arg12 : Memref sig .tc .vmem S4096x128 .bf16) (harg12 : arg12.IsWhole) (arg13 : Memref sig .tc .vmem S128x512 .bf16) (harg13 : arg13.IsWhole) (arg14 : Memref sig .tc .vmem S512x256 .bf16) (harg14 : arg14.IsWhole) (arg15 : Memref sig .tc .vmem S256x128 .bf16) (harg15 : arg15.IsWhole) (arg16 : Memref sig .tc .vmem S4096x256 .bf16) (harg16 : arg16.IsWhole) (arg17 : Memref sig .tc .vmem S4096x128 .bf16) (harg17 : arg17.IsWhole) (arg18 : Memref sig .tc .vmem S256x512 .f32) (harg18 : arg18.IsWhole) (arg19 : Memref sig .tc .vmem S256x256 .f32) (harg19 : arg19.IsWhole) (arg20 : Memref sig .tc .vmem S256x128 .f32) (harg20 : arg20.IsWhole)
    (hc1 : ¬ (Scalar.cmpi .ne (Scalar.extui (Scalar.cmpi .eq (BitVec.ofNat 32 (i 0).val) 0#32)) 0#32) = 1#1) (hc2 : ¬ k0_cond2 i = 1#1) (hc3 : ¬ k0_cond3 i = 1#1) (hc4 : k0_cond4 i = 1#1) (hc5 : ¬ (Scalar.cmpi .ne (Scalar.extui (Scalar.cmpi .slt (BitVec.ofNat 32 (i 0).val) 16#32)) 0#32) = 1#1) (hc6 : ¬ k0_cond6 i = 1#1) (hc7 : k0_cond7 i = 1#1)
    (x9 : Vec F S1x128 .f32) (x11 : Vec F S4096x4096 .bf16) (x17 : Vec F S4096x128 .bf16) (x10 : Vec F S256x128 .f32) (x20 : Vec F S256x128 .f32)
    (E : Set ℕ) (K : PUnit → sProp 𝕄) :
    iprop(owns (c : Thread nD τ) arg9 fullShare x9 ∗ owns (c : Thread nD τ) arg11 fullShare x11 ∗ owns (c : Thread nD τ) arg17 fullShare x17 ∗ owns (c : Thread nD τ) arg10 fullShare x10 ∗ owns (c : Thread nD τ) arg20 fullShare x20
      ∗ (iprop(owns (c : Thread nD τ) arg9 fullShare x9 ∗ owns (c : Thread nD τ) arg11 fullShare x11 ∗ owns (c : Thread nD τ) arg17 fullShare x17 ∗ owns (c : Thread nD τ) arg10 fullShare (k0_pay7 x20 x9) ∗ owns (c : Thread nD τ) arg20 fullShare (k0_pay12 (View.ld x11 (Rect.unit (s := S4096x4096) (k0_off4 i) S256x4096.size (k0_off4_inb i hc7))) x17)) -∗ K ⟨⟩))
    ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_kernel_eq_skeleton]; unfold cc0__gcn_kernel_skel
  unfold owns
  iintro ⟨⟨%f9, %hf9, H9⟩, ⟨%f11, %hf11, H11⟩, ⟨%f17, %hf17, H17⟩, ⟨%f10, %hf10, H10⟩, ⟨%f20, %hf20, H20⟩, Hk⟩
  obtain rfl := harg9.eq_unread hf9; obtain rfl := harg11.eq_unread hf11; obtain rfl := harg17.eq_unread hf17; obtain rfl := harg10.eq_unread hf10; obtain rfl := harg20.eq_unread hf20
  sl_exec (disch := first | exact hc1 | exact hc2 | exact hc3 | exact hc4 | exact hc5 | exact hc6 | exact hc7)
  sl_step
  iapply Hk
  isplitl [H9]
  · iexists _; isplitr
    swap; · iexact H9
    ipureintro; exact harg9.read_unread _
  isplitl [H11]
  · iexists _; isplitr
    swap; · iexact H11
    ipureintro; exact harg11.read_unread _
  isplitl [H17]
  · iexists _; isplitr
    swap; · iexact H17
    ipureintro; exact harg17.read_unread _
  isplitl [H10]
  · iexists _; isplitr
    swap; · iexact H10
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  iexists _; isplitr
  swap; · iexact H20
  ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]

end Cert.Kernel.Body

end
-- ==== Proof.BodyK.SoundF.lean ====
import proofs.«128992_g77695958385291_cont_9to1c4b_463_14_alg».proof.Proof.BodyK.RunF
import proofs.«128992_g77695958385291_cont_9to1c4b_463_14_alg».proof.Proof.BodyK.StepsDEFG

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 3200000 in
/-- The body obligation at grid points 33 to 47: layer 3's previous row block written out, the accumulator for this block: the invariant before the point hands the run the scratch
    buffers at a state satisfying it, the run leaves them at the case's next state, and that state satisfies the invariant
    before the next point. -/
theorem sound_F (c : Dev nD) (t : Fin cfg0.N) (h1 : 33 ≤ t.val) (h2 : t.val ≤ 47) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8,
    leaves0_9_live m c t (by omega), owes_succ, Phi_castSucc, Phi_succ]
  unfold PhiS ownsSt
  iintro ⟨⟨⟨%st, %hI, Ha2c, Hxc, Hw3c, Hw1c, Hw2c, Hs2, Hs3, Hu1, Hu2, Hu3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := fun hh => (show False by have := (hcond1 t).mp hh; omega)
  have hc2 := fun hh => (show False by have := (hcond2 t).mp hh; omega)
  have hc3 := fun hh => (show False by have := (hcond3 t).mp hh; omega)
  have hc4 := (hcond4 t).mpr (by first | omega | exact ⟨by omega, by omega⟩)
  have hc5 := fun hh => (show False by have := (hcond5 t).mp hh; omega)
  have hc6 := fun hh => (show False by have := (hcond6 t).mp hh; omega)
  have hc7 := (hcond7 t).mpr (by first | omega | exact ⟨by omega, by omega⟩)
  iapply (runF c (grid0.coords t) _ _ _ _ _ _ _ _ _ _ _ _ _ _ _ _ _ _ _ _ _ _ _ _ _ _ _ _ _ _ _ _ _ _ _ _ _ _ _ _
    hc1 hc2 hc3 hc4 hc5 hc6 hc7
    (b2B m c t) st.a2c st.s3 ((dats m 0 c).before 9 t d9) st.u3 Set.univ _)
  isplitl [H8]; · iexact H8
  isplitl [Ha2c]; · iexact Ha2c
  isplitl [Hs3]; · iexact Hs3
  isplitl [H9]; · iexact H9
  isplitl [Hu3]; · iexact Hu3
  iintro ⟨H8, Ha2c, Hs3, H9, Hu3⟩
  isplitl [Ha2c Hxc Hw3c Hw1c Hw2c Hs2 Hs3 Hu1 Hu2 Hu3 Hg]
  · isplitr [Hg]
    · iexists ({ st with
      u3 := k0_pay12 (View.ld st.a2c (Rect.unit (s := S4096x4096) (k0_off4 (grid0.coords t)) S256x4096.size (k0_off4_inb (grid0.coords t) hc7))) st.s3 } : St F)
      isplitr
      · ipureintro; exact step_F m c t h1 h2 hc7 st hI
      isplitl [Ha2c]; · iexact Ha2c
      isplitl [Hxc]; · iexact Hxc
      isplitl [Hw3c]; · iexact Hw3c
      isplitl [Hw1c]; · iexact Hw1c
      isplitl [Hw2c]; · iexact Hw2c
      isplitl [Hs2]; · iexact Hs2
      isplitl [Hs3]; · iexact Hs3
      isplitl [Hu1]; · iexact Hu1
      isplitl [Hu2]; · iexact Hu2
      iexact Hu3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [← out_eq m c t (by omega) st hI]
  iexact H9

end Cert.Kernel.Body

end
-- ==== Proof.BodyK.RunG.lean ====
import proofs.«128992_g77695958385291_cont_9to1c4b_463_14_alg».proof.Proof.BodyK.Defs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in
/-- The body in the control case of the last point: write layer 3's last row block out: on whole memrefs at the contents named, it runs to the
    continuation with each buffer it stores into at the contents the stores leave (a row-block store: the old contents
    with that block replaced), the others as they were. -/
theorem runG (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S4096x4096 .bf16) (harg11 : arg11.IsWhole) (arg12 : Memref sig .tc .vmem S4096x128 .bf16) (harg12 : arg12.IsWhole) (arg13 : Memref sig .tc .vmem S128x512 .bf16) (harg13 : arg13.IsWhole) (arg14 : Memref sig .tc .vmem S512x256 .bf16) (harg14 : arg14.IsWhole) (arg15 : Memref sig .tc .vmem S256x128 .bf16) (harg15 : arg15.IsWhole) (arg16 : Memref sig .tc .vmem S4096x256 .bf16) (harg16 : arg16.IsWhole) (arg17 : Memref sig .tc .vmem S4096x128 .bf16) (harg17 : arg17.IsWhole) (arg18 : Memref sig .tc .vmem S256x512 .f32) (harg18 : arg18.IsWhole) (arg19 : Memref sig .tc .vmem S256x256 .f32) (harg19 : arg19.IsWhole) (arg20 : Memref sig .tc .vmem S256x128 .f32) (harg20 : arg20.IsWhole)
    (hc1 : ¬ (Scalar.cmpi .ne (Scalar.extui (Scalar.cmpi .eq (BitVec.ofNat 32 (i 0).val) 0#32)) 0#32) = 1#1) (hc2 : ¬ k0_cond2 i = 1#1) (hc3 : ¬ k0_cond3 i = 1#1) (hc4 : k0_cond4 i = 1#1) (hc5 : ¬ (Scalar.cmpi .ne (Scalar.extui (Scalar.cmpi .slt (BitVec.ofNat 32 (i 0).val) 16#32)) 0#32) = 1#1) (hc6 : ¬ k0_cond6 i = 1#1) (hc7 : ¬ k0_cond7 i = 1#1)
    (x9 : Vec F S1x128 .f32) (x20 : Vec F S256x128 .f32) (x10 : Vec F S256x128 .f32)
    (E : Set ℕ) (K : PUnit → sProp 𝕄) :
    iprop(owns (c : Thread nD τ) arg9 fullShare x9 ∗ owns (c : Thread nD τ) arg20 fullShare x20 ∗ owns (c : Thread nD τ) arg10 fullShare x10
      ∗ (iprop(owns (c : Thread nD τ) arg9 fullShare x9 ∗ owns (c : Thread nD τ) arg20 fullShare x20 ∗ owns (c : Thread nD τ) arg10 fullShare (k0_pay7 x20 x9)) -∗ K ⟨⟩))
    ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_kernel_eq_skeleton]; unfold cc0__gcn_kernel_skel
  unfold owns
  iintro ⟨⟨%f9, %hf9, H9⟩, ⟨%f20, %hf20, H20⟩, ⟨%f10, %hf10, H10⟩, Hk⟩
  obtain rfl := harg9.eq_unread hf9; obtain rfl := harg20.eq_unread hf20; obtain rfl := harg10.eq_unread hf10
  sl_exec (disch := first | exact hc1 | exact hc2 | exact hc3 | exact hc4 | exact hc5 | exact hc6 | exact hc7)
  sl_step
  iapply Hk
  isplitl [H9]
  · iexists _; isplitr
    swap; · iexact H9
    ipureintro; exact harg9.read_unread _
  isplitl [H20]
  · iexists _; isplitr
    swap; · iexact H20
    ipureintro; exact harg20.read_unread _
  iexists _; isplitr
  swap; · iexact H10
  ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]

end Cert.Kernel.Body

end
-- ==== Proof.BodyK.SoundG.lean ====
import proofs.«128992_g77695958385291_cont_9to1c4b_463_14_alg».proof.Proof.BodyK.RunG
import proofs.«128992_g77695958385291_cont_9to1c4b_463_14_alg».proof.Proof.BodyK.StepsDEFG

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 3200000 in
/-- The body obligation at the last grid point (48): layer 3's last row block written out: the invariant before the point hands the run the scratch
    buffers at a state satisfying it, the run leaves them at the case's next state, and that state satisfies the invariant
    before the next point. -/
theorem sound_G (c : Dev nD) (t : Fin cfg0.N) (h : t.val = 48) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8,
    leaves0_9_live m c t (by omega), owes_succ, Phi_castSucc, Phi_succ]
  unfold PhiS ownsSt
  iintro ⟨⟨⟨%st, %hI, Ha2c, Hxc, Hw3c, Hw1c, Hw2c, Hs2, Hs3, Hu1, Hu2, Hu3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := fun hh => (show False by have := (hcond1 t).mp hh; omega)
  have hc2 := fun hh => (show False by have := (hcond2 t).mp hh; omega)
  have hc3 := fun hh => (show False by have := (hcond3 t).mp hh; omega)
  have hc4 := (hcond4 t).mpr (by first | omega | exact ⟨by omega, by omega⟩)
  have hc5 := fun hh => (show False by have := (hcond5 t).mp hh; omega)
  have hc6 := fun hh => (show False by have := (hcond6 t).mp hh; omega)
  have hc7 := fun hh => (show False by have := (hcond7 t).mp hh; omega)
  iapply (runG c (grid0.coords t) _ _ _ _ _ _ _ _ _ _ _ _ _ _ _ _ _ _ _ _ _ _ _ _ _ _ _ _ _ _ _ _ _ _ _ _ _ _ _ _
    hc1 hc2 hc3 hc4 hc5 hc6 hc7
    (b2B m c t) st.u3 ((dats m 0 c).before 9 t d9) Set.univ _)
  isplitl [H8]; · iexact H8
  isplitl [Hu3]; · iexact Hu3
  isplitl [H9]; · iexact H9
  iintro ⟨H8, Hu3, H9⟩
  isplitl [Ha2c Hxc Hw3c Hw1c Hw2c Hs2 Hs3 Hu1 Hu2 Hu3 Hg]
  · isplitr [Hg]
    · iexists (st : St F)
      isplitr
      · ipureintro; exact step_G m c t h st hI
      isplitl [Ha2c]; · iexact Ha2c
      isplitl [Hxc]; · iexact Hxc
      isplitl [Hw3c]; · iexact Hw3c
      isplitl [Hw1c]; · iexact Hw1c
      isplitl [Hw2c]; · iexact Hw2c
      isplitl [Hs2]; · iexact Hs2
      isplitl [Hs3]; · iexact Hs3
      isplitl [Hu1]; · iexact Hu1
      isplitl [Hu2]; · iexact Hu2
      iexact Hu3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [← out_eq m c t (by omega) st hI]
  iexact H9

end Cert.Kernel.Body

end
-- ==== Proof.BodyK.Run.lean ====
/-
  The frame of the fused kernel: the body obligation at every grid point (by the control case the point is in),
  the run of the whole program with the proof data's arrays named, and the frame claim — every execution ends, no
  fault, the nine argument arrays unchanged.
-/
import proofs.«128992_g77695958385291_cont_9to1c4b_463_14_alg».proof.Proof.BodyK.SoundA
import proofs.«128992_g77695958385291_cont_9to1c4b_463_14_alg».proof.Proof.BodyK.SoundB
import proofs.«128992_g77695958385291_cont_9to1c4b_463_14_alg».proof.Proof.BodyK.SoundC
import proofs.«128992_g77695958385291_cont_9to1c4b_463_14_alg».proof.Proof.BodyK.SoundD
import proofs.«128992_g77695958385291_cont_9to1c4b_463_14_alg».proof.Proof.BodyK.SoundE
import proofs.«128992_g77695958385291_cont_9to1c4b_463_14_alg».proof.Proof.BodyK.SoundF
import proofs.«128992_g77695958385291_cont_9to1c4b_463_14_alg».proof.Proof.BodyK.SoundG

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the point's number says which of the seven control cases it is in. -/
theorem sound_body (c : Dev nD) (t : Fin cfg0.N) :
    bodyPre m c t ⊢ wp frame (wpE (defs₀ (F := F)) Variants.none c none) Set.univ (bodyAt0 t) (fun _ => bodyPost m c t) := by
  have hN := lt49 t
  rcases Nat.lt_or_ge t.val 1 with h0 | h0
  · exact sound_A m c t (by omega)
  rcases Nat.lt_or_ge t.val 16 with h1 | h1
  · exact sound_B m c t h0 (by omega)
  rcases Nat.lt_or_ge t.val 17 with h2 | h2
  · exact sound_C m c t (by omega)
  rcases Nat.lt_or_ge t.val 32 with h3 | h3
  · exact sound_D m c t h2 (by omega)
  rcases Nat.lt_or_ge t.val 33 with h4 | h4
  · exact sound_E m c t (by omega)
  rcases Nat.lt_or_ge t.val 48 with h5 | h5
  · exact sound_F m c t h4 (by omega)
  · exact sound_G m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and every final state has each array of the pipeline at
    what the proof data compute (the output array: the row blocks written back) and every other buffer as the region
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Body

end
-- ==== Proof.Body.Defs.lean ====
/-
  What the fused three-layer kernel keeps in its scratch buffers from grid point to grid point, stated as
  functions of the input blocks (generic in the float instance):
  the casts of x, W3, W1, W2 made at point 0; per row block b of 256 rows, layer 1's staged accumulator
  U1 b = (adj_b · x) · W3, its finished rows S2 b = relu(U1 b + b3) · W1, layer 2's accumulator
  U2 b = A2_b · S2 (over ALL rows of S2), S3 b = relu(U2 b + b1) · W2, the cached casts of A2's row blocks,
  layer 3's accumulator U3 b = A2_b · S3, and the output block OUT b = relu(U3 b + b2).
  `Inv n st` says which of these the scratch state `st` holds before grid point n.
-/
import proofs.«128992_g77695958385291_cont_9to1c4b_463_14_alg».proof.Proof.Gen.KernelIdeal.Frame
import proofs.«128992_g77695958385291_cont_9to1c4b_463_14_alg».proof.Proof.Gen.KernelIdeal.Skeleton
import proofs.«128992_g77695958385291_cont_9to1c4b_463_14_alg».proof.Proof.LibOverlay
import Idealize.ShloMosaic.Lib.ValueIdx

set_option maxRecDepth 16384

noncomputable section

namespace Cert.KernelIdeal.Body

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Grid point number `n`. -/
abbrev pt (n : ℕ) (h : n < 49) : Fin cfg0.N := ⟨n, lt_of_lt_of_eq h N_0.symm⟩

theorem lt49 (t : Fin cfg0.N) : t.val < 49 := lt_of_lt_of_eq t.isLt N_0

/-! ## The input blocks at a point, at their literal types -/

abbrev adjB (c : Dev nD) (t : Fin cfg0.N) : Vec F S256x4096 .f32 := iblk m c 0 t
abbrev a2B (c : Dev nD) (t : Fin cfg0.N) : Vec F S256x4096 .f32 := iblk m c 1 t
abbrev xB (c : Dev nD) (t : Fin cfg0.N) : Vec F S4096x128 .f32 := iblk m c 2 t
abbrev w3B (c : Dev nD) (t : Fin cfg0.N) : Vec F S128x512 .f32 := iblk m c 3 t
abbrev b3B (c : Dev nD) (t : Fin cfg0.N) : Vec F S1x512 .f32 := iblk m c 4 t
abbrev w1B (c : Dev nD) (t : Fin cfg0.N) : Vec F S512x256 .f32 := iblk m c 5 t
abbrev b1B (c : Dev nD) (t : Fin cfg0.N) : Vec F S1x256 .f32 := iblk m c 6 t
abbrev w2B (c : Dev nD) (t : Fin cfg0.N) : Vec F S256x128 .f32 := iblk m c 7 t
abbrev b2B (c : Dev nD) (t : Fin cfg0.N) : Vec F S1x128 .f32 := iblk m c 8 t

/-! ## The scratch state -/

/-- What the ten scratch buffers read. -/
structure St (F : FTy → Type) [FloatOps F] where
  a2c : Vec F S4096x4096 .bf16
  xc : Vec F S4096x128 .bf16
  w3c : Vec F S128x512 .bf16
  w1c : Vec F S512x256 .bf16
  w2c : Vec F S256x128 .bf16
  s2 : Vec F S4096x256 .bf16
  s3 : Vec F S4096x128 .bf16
  u1 : Vec F S256x512 .f32
  u2 : Vec F S256x256 .f32
  u3 : Vec F S256x128 .f32

/-! ## What the kernel computes, block by block -/

/-- The casts made at the first point. -/
def XC (c : Dev nD) : Vec F S4096x128 .bf16 := k0_pay1 (xB m c (pt 0 (by omega)))
def W3C (c : Dev nD) : Vec F S128x512 .bf16 := k0_pay2 (w3B m c (pt 0 (by omega)))
def W1C (c : Dev nD) : Vec F S512x256 .bf16 := k0_pay3 (w1B m c (pt 0 (by omega)))
def W2C (c : Dev nD) : Vec F S256x128 .bf16 := k0_pay4 (w2B m c (pt 0 (by omega)))

/-- Layer 1's accumulator for row block `b`: (adj_b · x) · W3, computed at point `b`. -/
def U1 (c : Dev nD) (b : Fin 16) : Vec F S256x512 .f32 :=
  k0_pay8 (adjB m c (pt b.val (by omega))) (XC m c) (W3C m c)

/-- Layer 2's support rows of block `b`: relu(U1 b + b3) · W1, computed at point `b + 1`. -/
def S2blk (c : Dev nD) (b : Fin 16) : Vec F S256x256 .bf16 :=
  k0_pay5 (U1 m c b) (b3B m c (pt (b.val + 1) (by omega))) (W1C m c)

/-- A row index of a 4096-row array as (block of 256 rows, row in the block). -/
abbrev rowBlk (r : Fin 4096) : Fin 16 := ⟨r.val / 256, by omega⟩
abbrev rowIn (r : Fin 4096) : Fin 256 := ⟨r.val % 256, by omega⟩

/-- Layer 2's whole support matrix, the sixteen blocks stacked. -/
def S2 (c : Dev nD) : Vec F S4096x256 .bf16 := fun idx => S2blk m c (rowBlk (idx 0)) (ix2 (rowIn (idx 0)) (idx 1))

/-- Layer 2's accumulator for row block `b`: A2_b · S2, computed at point `16 + b`. -/
def U2 (c : Dev nD) (b : Fin 16) : Vec F S256x256 .f32 :=
  k0_pay11 (a2B m c (pt (16 + b.val) (by omega))) (S2 m c)

/-- Layer 3's support rows of block `b`: relu(U2 b + b1) · W2, computed at point `17 + b`. -/
def S3blk (c : Dev nD) (b : Fin 16) : Vec F S256x128 .bf16 :=
  k0_pay6 (U2 m c b) (b1B m c (pt (17 + b.val) (by omega))) (W2C m c)

def S3 (c : Dev nD) : Vec F S4096x128 .bf16 := fun idx => S3blk m c (rowBlk (idx 0)) (ix2 (rowIn (idx 0)) (idx 1))

/-- The cached cast of A2's row block `b`, stored at point `16 + b`. -/
def A2Cblk (c : Dev nD) (b : Fin 16) : Vec F S256x4096 .bf16 := k0_pay10 (a2B m c (pt (16 + b.val) (by omega)))

def A2C (c : Dev nD) : Vec F S4096x4096 .bf16 := fun idx => A2Cblk m c (rowBlk (idx 0)) (ix2 (rowIn (idx 0)) (idx 1))

/-- Layer 3's accumulator for row block `b`: A2_b · S3 from the cache, computed at point `32 + b`. -/
def U3 (c : Dev nD) (b : Fin 16) : Vec F S256x128 .f32 := k0_pay12 (A2Cblk m c b) (S3 m c)

/-- The output block `b`: relu(U3 b + b2), stored at point `33 + b`. -/
def OUT (c : Dev nD) (b : Fin 16) : Vec F S256x128 .f32 := k0_pay7 (U3 m c b) (b2B m c (pt (33 + b.val) (by omega)))

/-! ## The invariant -/

/-- What the scratch state holds before grid point `n` (after point `n - 1`). -/
structure Inv (c : Dev nD) (n : ℕ) (st : St F) : Prop where
  consts : 1 ≤ n → st.xc = XC m c ∧ st.w3c = W3C m c ∧ st.w1c = W1C m c ∧ st.w2c = W2C m c
  u1 : ∀ (h1 : 1 ≤ n) (h2 : n ≤ 16), st.u1 = U1 m c ⟨n - 1, by omega⟩
  s2 : ∀ idx : S4096x256.Idx, (idx 0).val < 256 * (n - 1) → st.s2 idx = S2 m c idx
  u2 : ∀ (h1 : 17 ≤ n) (h2 : n ≤ 32), st.u2 = U2 m c ⟨n - 17, by omega⟩
  a2c : ∀ idx : S4096x4096.Idx, (idx 0).val < 256 * (n - 16) → st.a2c idx = A2C m c idx
  s3 : ∀ idx : S4096x128.Idx, (idx 0).val < 256 * (n - 17) → st.s3 idx = S3 m c idx
  u3 : ∀ (h1 : 33 ≤ n) (h2 : n ≤ 48), st.u3 = U3 m c ⟨n - 33, by omega⟩

/-- Before the first point nothing is known, and nothing is asked. -/
theorem Inv.zero (c : Dev nD) (st : St F) : Inv m c 0 st :=
  ⟨fun h => absurd h (by omega), fun h => absurd h (by omega), fun _ h => absurd h (by omega),
   fun h => absurd h (by omega), fun _ h => absurd h (by omega), fun _ h => absurd h (by omega),
   fun h => absurd h (by omega)⟩

/-! ## The scratch buffers as memrefs, and the region invariant -/

abbrev scA2c : Memref sig .tc .vmem S4096x4096 .bf16 := Memref.whole cc0_scratch0
abbrev scXc : Memref sig .tc .vmem S4096x128 .bf16 := Memref.whole cc0_scratch1
abbrev scW3c : Memref sig .tc .vmem S128x512 .bf16 := Memref.whole cc0_scratch2
abbrev scW1c : Memref sig .tc .vmem S512x256 .bf16 := Memref.whole cc0_scratch3
abbrev scW2c : Memref sig .tc .vmem S256x128 .bf16 := Memref.whole cc0_scratch4
abbrev scS2 : Memref sig .tc .vmem S4096x256 .bf16 := Memref.whole cc0_scratch5
abbrev scS3 : Memref sig .tc .vmem S4096x128 .bf16 := Memref.whole cc0_scratch6
abbrev scU1 : Memref sig .tc .vmem S256x512 .f32 := Memref.whole cc0_scratch7
abbrev scU2 : Memref sig .tc .vmem S256x256 .f32 := Memref.whole cc0_scratch8
abbrev scU3 : Memref sig .tc .vmem S256x128 .f32 := Memref.whole cc0_scratch9

/-- The ten scratch buffers at the state `st`. -/
def ownsSt (c : Dev nD) (st : St F) : sProp 𝕄 :=
  iprop(owns (c : Thread nD τ) scA2c fullShare st.a2c ∗ owns (c : Thread nD τ) scXc fullShare st.xc
    ∗ owns (c : Thread nD τ) scW3c fullShare st.w3c ∗ owns (c : Thread nD τ) scW1c fullShare st.w1c
    ∗ owns (c : Thread nD τ) scW2c fullShare st.w2c ∗ owns (c : Thread nD τ) scS2 fullShare st.s2
    ∗ owns (c : Thread nD τ) scS3 fullShare st.s3 ∗ owns (c : Thread nD τ) scU1 fullShare st.u1
    ∗ owns (c : Thread nD τ) scU2 fullShare st.u2 ∗ owns (c : Thread nD τ) scU3 fullShare st.u3)

/-- The region invariant before point `n`: the scratch buffers at SOME state satisfying `Inv n`, and the
    generator register at some state. -/
def PhiS (c : Dev nD) (n : ℕ) : sProp 𝕄 :=
  iprop((∃ st : St F, ⌜Inv m c n st⌝ ∗ ownsSt c st) ∗ (∃ r, prngReg c r))

/-- The output block the body leaves at point `t` (meaningful from point 33 on; before that the window is idle). -/
def outAt (c : Dev nD) (t : Fin cfg0.N) : Vec F S256x128 .f32 := OUT m c ⟨t.val - 33, by have := lt49 t; omega⟩

end Cert.KernelIdeal.Body

end
-- ==== Proof.Body.RunA.lean ====
import proofs.«128992_g77695958385291_cont_9to1c4b_463_14_alg».proof.Proof.Body.Defs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
/-- The body in the control case of the first point: the four casts, then layer 1's accumulator for row block 0: on whole memrefs at the contents named, it runs to the
    continuation with each buffer it stores into at the contents the stores leave (a row-block store: the old contents
    with that block replaced), the others as they were. -/
theorem runA (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S4096x4096 .bf16) (harg11 : arg11.IsWhole) (arg12 : Memref sig .tc .vmem S4096x128 .bf16) (harg12 : arg12.IsWhole) (arg13 : Memref sig .tc .vmem S128x512 .bf16) (harg13 : arg13.IsWhole) (arg14 : Memref sig .tc .vmem S512x256 .bf16) (harg14 : arg14.IsWhole) (arg15 : Memref sig .tc .vmem S256x128 .bf16) (harg15 : arg15.IsWhole) (arg16 : Memref sig .tc .vmem S4096x256 .bf16) (harg16 : arg16.IsWhole) (arg17 : Memref sig .tc .vmem S4096x128 .bf16) (harg17 : arg17.IsWhole) (arg18 : Memref sig .tc .vmem S256x512 .f32) (harg18 : arg18.IsWhole) (arg19 : Memref sig .tc .vmem S256x256 .f32) (harg19 : arg19.IsWhole) (arg20 : Memref sig .tc .vmem S256x128 .f32) (harg20 : arg20.IsWhole)
    (hc1 : (Scalar.cmpi .ne (Scalar.extui (Scalar.cmpi .eq (BitVec.ofNat 32 (i 0).val) 0#32)) 0#32) = 1#1) (hc2 : ¬ k0_cond2 i = 1#1) (hc3 : ¬ k0_cond3 i = 1#1) (hc4 : ¬ k0_cond4 i = 1#1) (hc5 : (Scalar.cmpi .ne (Scalar.extui (Scalar.cmpi .slt (BitVec.ofNat 32 (i 0).val) 16#32)) 0#32) = 1#1) (hc6 : ¬ k0_cond6 i = 1#1) (hc7 : ¬ k0_cond7 i = 1#1)
    (x3 : Vec F S4096x128 .f32) (x4 : Vec F S128x512 .f32) (x6 : Vec F S512x256 .f32) (x8 : Vec F S256x128 .f32) (x1 : Vec F S256x4096 .f32) (x12 : Vec F S4096x128 .bf16) (x13 : Vec F S128x512 .bf16) (x14 : Vec F S512x256 .bf16) (x15 : Vec F S256x128 .bf16) (x18 : Vec F S256x512 .f32)
    (E : Set ℕ) (K : PUnit → sProp 𝕄) :
    iprop(owns (c : Thread nD τ) arg3 fullShare x3 ∗ owns (c : Thread nD τ) arg4 fullShare x4 ∗ owns (c : Thread nD τ) arg6 fullShare x6 ∗ owns (c : Thread nD τ) arg8 fullShare x8 ∗ owns (c : Thread nD τ) arg1 fullShare x1 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg18 fullShare x18
      ∗ (iprop(owns (c : Thread nD τ) arg3 fullShare x3 ∗ owns (c : Thread nD τ) arg4 fullShare x4 ∗ owns (c : Thread nD τ) arg6 fullShare x6 ∗ owns (c : Thread nD τ) arg8 fullShare x8 ∗ owns (c : Thread nD τ) arg1 fullShare x1 ∗ owns (c : Thread nD τ) arg12 fullShare (k0_pay1 x3) ∗ owns (c : Thread nD τ) arg13 fullShare (k0_pay2 x4) ∗ owns (c : Thread nD τ) arg14 fullShare (k0_pay3 x6) ∗ owns (c : Thread nD τ) arg15 fullShare (k0_pay4 x8) ∗ owns (c : Thread nD τ) arg18 fullShare (k0_pay8 x1 (k0_pay1 x3) (k0_pay2 x4))) -∗ K ⟨⟩))
    ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_kernel_eq_skeleton]; unfold cc0__gcn_kernel_skel
  unfold owns
  iintro ⟨⟨%f3, %hf3, H3⟩, ⟨%f4, %hf4, H4⟩, ⟨%f6, %hf6, H6⟩, ⟨%f8, %hf8, H8⟩, ⟨%f1, %hf1, H1⟩, ⟨%f12, %hf12, H12⟩, ⟨%f13, %hf13, H13⟩, ⟨%f14, %hf14, H14⟩, ⟨%f15, %hf15, H15⟩, ⟨%f18, %hf18, H18⟩, Hk⟩
  obtain rfl := harg3.eq_unread hf3; obtain rfl := harg4.eq_unread hf4; obtain rfl := harg6.eq_unread hf6; obtain rfl := harg8.eq_unread hf8; obtain rfl := harg1.eq_unread hf1; obtain rfl := harg12.eq_unread hf12; obtain rfl := harg13.eq_unread hf13; obtain rfl := harg14.eq_unread hf14; obtain rfl := harg15.eq_unread hf15; obtain rfl := harg18.eq_unread hf18
  sl_exec (disch := first | exact hc1 | exact hc2 | exact hc3 | exact hc4 | exact hc5 | exact hc6 | exact hc7)
  sl_step
  iapply Hk
  isplitl [H3]
  · iexists _; isplitr
    swap; · iexact H3
    ipureintro; exact harg3.read_unread _
  isplitl [H4]
  · iexists _; isplitr
    swap; · iexact H4
    ipureintro; exact harg4.read_unread _
  isplitl [H6]
  · iexists _; isplitr
    swap; · iexact H6
    ipureintro; exact harg6.read_unread _
  isplitl [H8]
  · iexists _; isplitr
    swap; · iexact H8
    ipureintro; exact harg8.read_unread _
  isplitl [H1]
  · iexists _; isplitr
    swap; · iexact H1
    ipureintro; exact harg1.read_unread _
  isplitl [H12]
  · iexists _; isplitr
    swap; · iexact H12
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  isplitl [H13]
  · iexists _; isplitr
    swap; · iexact H13
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  isplitl [H14]
  · iexists _; isplitr
    swap; · iexact H14
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  isplitl [H15]
  · iexists _; isplitr
    swap; · iexact H15
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  iexists _; isplitr
  swap; · iexact H18
  ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]

end Cert.KernelIdeal.Body

end
-- ==== Proof.Body.Dats.lean ====
/-
  The pipeline's proof data for the fused kernel and what the seven control cases share: the grid points at which
  each branch of the body is taken (decided over the 49 points), the row offsets of the block stores in closed form,
  where the output window is idle, the region invariant opened as ten scratch buffers, and the body obligation's
  pre- and postcondition at a point.
-/
import proofs.«128992_g77695958385291_cont_9to1c4b_463_14_alg».proof.Proof.Body.Defs

set_option maxRecDepth 16384

noncomputable section

namespace Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; after the body each input's buffer at its block, the output's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## Which branches a point takes -/

theorem hcond1 : ∀ t : Fin cfg0.N, ((Scalar.cmpi .ne (Scalar.extui (Scalar.cmpi .eq (BitVec.ofNat 32 ((grid0.coords t) 0).val) 0#32)) 0#32) = 1#1) ↔ t.val = 0 :=
  (by decide +kernel : ∀ t : Fin grid0.N, ((Scalar.cmpi .ne (Scalar.extui (Scalar.cmpi .eq (BitVec.ofNat 32 ((grid0.coords t) 0).val) 0#32)) 0#32) = 1#1) ↔ t.val = 0)
theorem hcond2 : ∀ t : Fin cfg0.N, k0_cond2 (grid0.coords t) = 1#1 ↔ (1 ≤ t.val ∧ t.val ≤ 16) :=
  (by decide +kernel : ∀ t : Fin grid0.N, k0_cond2 (grid0.coords t) = 1#1 ↔ (1 ≤ t.val ∧ t.val ≤ 16))
theorem hcond3 : ∀ t : Fin cfg0.N, k0_cond3 (grid0.coords t) = 1#1 ↔ (17 ≤ t.val ∧ t.val ≤ 32) :=
  (by decide +kernel : ∀ t : Fin grid0.N, k0_cond3 (grid0.coords t) = 1#1 ↔ (17 ≤ t.val ∧ t.val ≤ 32))
theorem hcond4 : ∀ t : Fin cfg0.N, k0_cond4 (grid0.coords t) = 1#1 ↔ 33 ≤ t.val :=
  (by decide +kernel : ∀ t : Fin grid0.N, k0_cond4 (grid0.coords t) = 1#1 ↔ 33 ≤ t.val)
theorem hcond5 : ∀ t : Fin cfg0.N, ((Scalar.cmpi .ne (Scalar.extui (Scalar.cmpi .slt (BitVec.ofNat 32 ((grid0.coords t) 0).val) 16#32)) 0#32) = 1#1) ↔ t.val < 16 :=
  (by decide +kernel : ∀ t : Fin grid0.N, ((Scalar.cmpi .ne (Scalar.extui (Scalar.cmpi .slt (BitVec.ofNat 32 ((grid0.coords t) 0).val) 16#32)) 0#32) = 1#1) ↔ t.val < 16)
theorem hcond6 : ∀ t : Fin cfg0.N, k0_cond6 (grid0.coords t) = 1#1 ↔ (16 ≤ t.val ∧ t.val < 32) :=
  (by decide +kernel : ∀ t : Fin grid0.N, k0_cond6 (grid0.coords t) = 1#1 ↔ (16 ≤ t.val ∧ t.val < 32))
theorem hcond7 : ∀ t : Fin cfg0.N, k0_cond7 (grid0.coords t) = 1#1 ↔ (32 ≤ t.val ∧ t.val < 48) :=
  (by decide +kernel : ∀ t : Fin grid0.N, k0_cond7 (grid0.coords t) = 1#1 ↔ (32 ≤ t.val ∧ t.val < 48))

/-! ## The row offsets of the block stores, in closed form -/

theorem off1_eq : ∀ t : Fin cfg0.N, 1 ≤ t.val → t.val ≤ 16 → k0_off1 (grid0.coords t) = ![256 * (t.val - 1), 0] :=
  (by decide +kernel : ∀ t : Fin grid0.N, 1 ≤ t.val → t.val ≤ 16 → k0_off1 (grid0.coords t) = ![256 * (t.val - 1), 0])
theorem off2_eq : ∀ t : Fin cfg0.N, 17 ≤ t.val → t.val ≤ 32 → k0_off2 (grid0.coords t) = ![256 * (t.val - 17), 0] :=
  (by decide +kernel : ∀ t : Fin grid0.N, 17 ≤ t.val → t.val ≤ 32 → k0_off2 (grid0.coords t) = ![256 * (t.val - 17), 0])
theorem off3_eq : ∀ t : Fin cfg0.N, 16 ≤ t.val → t.val < 32 → k0_off3 (grid0.coords t) = ![256 * (t.val - 16), 0] :=
  (by decide +kernel : ∀ t : Fin grid0.N, 16 ≤ t.val → t.val < 32 → k0_off3 (grid0.coords t) = ![256 * (t.val - 16), 0])
theorem off4_eq : ∀ t : Fin cfg0.N, 32 ≤ t.val → t.val < 48 → k0_off4 (grid0.coords t) = ![256 * (t.val - 32), 0] :=
  (by decide +kernel : ∀ t : Fin grid0.N, 32 ≤ t.val → t.val < 48 → k0_off4 (grid0.coords t) = ![256 * (t.val - 32), 0])

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
/-- Before point 33 the body stores nothing into the output window, and the pipeline does not write it back. -/
theorem idleAt0_9 : ∀ t : Fin cfg0.N, t.val < 33 → cfg0.idle 9 (grid0.coords t) = true :=
  (by decide +kernel : ∀ t : Fin grid0.N, t.val < 33 → cfg0.idle 9 (grid0.coords t) = true)
theorem noFlush0_9 : ∀ t : Fin cfg0.N, t.val < 33 → (cfg0.win 9).flush t = false :=
  (by decide +kernel : ∀ t : Fin grid0.N, t.val < 33 → win0_9.flush t = false)
theorem liveAt0_9 : ∀ t : Fin cfg0.N, 33 ≤ t.val → cfg0.idle 9 (grid0.coords t) = false :=
  (by decide +kernel : ∀ t : Fin grid0.N, 33 ≤ t.val → cfg0.idle 9 (grid0.coords t) = false)
/-- From point 33 on every point writes its output block back. -/
theorem flush0_9 : ∀ t : Fin cfg0.N, 33 ≤ t.val → (cfg0.win 9).flush t = true :=
  (by decide +kernel : ∀ t : Fin grid0.N, 33 ≤ t.val → win0_9.flush t = true)
/-- The output block index at a point from 33 on. -/
theorem index0_9 : ∀ t : Fin cfg0.N, 33 ≤ t.val → cc0_transform_9 (grid0.coords t) = ![t.val - 33, 0] :=
  (by decide +kernel : ∀ t : Fin grid0.N, 33 ≤ t.val → cc0_transform_9 (grid0.coords t) = ![t.val - 33, 0])

/-- What the body leaves in each input's buffer: its block. -/
theorem leaves0_0 (c : Dev nD) (t : Fin cfg0.N) : (dats m 0 c).leavesExact 0 t = owns (c : Thread nD τ) (st0_0 t) fullShare (iblk m c 0 t) := by
  unfold Dat.leavesExact; rw [liveAt0_0 t, after0_0]
theorem leaves0_1 (c : Dev nD) (t : Fin cfg0.N) : (dats m 0 c).leavesExact 1 t = owns (c : Thread nD τ) (st0_1 t) fullShare (iblk m c 1 t) := by
  unfold Dat.leavesExact; rw [liveAt0_1 t, after0_1]
theorem leaves0_2 (c : Dev nD) (t : Fin cfg0.N) : (dats m 0 c).leavesExact 2 t = owns (c : Thread nD τ) (st0_2 t) fullShare (iblk m c 2 t) := by
  unfold Dat.leavesExact; rw [liveAt0_2 t, after0_2]
theorem leaves0_3 (c : Dev nD) (t : Fin cfg0.N) : (dats m 0 c).leavesExact 3 t = owns (c : Thread nD τ) (st0_3 t) fullShare (iblk m c 3 t) := by
  unfold Dat.leavesExact; rw [liveAt0_3 t, after0_3]
theorem leaves0_4 (c : Dev nD) (t : Fin cfg0.N) : (dats m 0 c).leavesExact 4 t = owns (c : Thread nD τ) (st0_4 t) fullShare (iblk m c 4 t) := by
  unfold Dat.leavesExact; rw [liveAt0_4 t, after0_4]
theorem leaves0_5 (c : Dev nD) (t : Fin cfg0.N) : (dats m 0 c).leavesExact 5 t = owns (c : Thread nD τ) (st0_5 t) fullShare (iblk m c 5 t) := by
  unfold Dat.leavesExact; rw [liveAt0_5 t, after0_5]
theorem leaves0_6 (c : Dev nD) (t : Fin cfg0.N) : (dats m 0 c).leavesExact 6 t = owns (c : Thread nD τ) (st0_6 t) fullShare (iblk m c 6 t) := by
  unfold Dat.leavesExact; rw [liveAt0_6 t, after0_6]
theorem leaves0_7 (c : Dev nD) (t : Fin cfg0.N) : (dats m 0 c).leavesExact 7 t = owns (c : Thread nD τ) (st0_7 t) fullShare (iblk m c 7 t) := by
  unfold Dat.leavesExact; rw [liveAt0_7 t, after0_7]
theorem leaves0_8 (c : Dev nD) (t : Fin cfg0.N) : (dats m 0 c).leavesExact 8 t = owns (c : Thread nD τ) (st0_8 t) fullShare (iblk m c 8 t) := by
  unfold Dat.leavesExact; rw [liveAt0_8 t, after0_8]
/-- In the output's buffer: before point 33 what it found; from point 33 on the output block. -/
theorem leaves0_9_idle (c : Dev nD) (t : Fin cfg0.N) (h : t.val < 33) :
    (dats m 0 c).leavesExact 9 t = iprop(∃ d, owns (c : Thread nD τ) (st0_9 t) fullShare ((dats m 0 c).before 9 t d)) :=
  Dat.leavesExact_idle (dats m 0 c) 9 t (idleAt0_9 t h) (noFlush0_9 t h)
theorem leaves0_9_live (c : Dev nD) (t : Fin cfg0.N) (h : 33 ≤ t.val) :
    (dats m 0 c).leavesExact 9 t = owns (c : Thread nD τ) (st0_9 t) fullShare (outAt m c t) := by
  unfold Dat.leavesExact; rw [liveAt0_9 t h, after0_9]

/-! ## The region invariant, opened -/

/-- The class invariant with the ten scratch buffers as memrefs owned at some contents. -/
theorem PhiA0_eq (c : Dev nD) :
    (Pipeline.ΦA spec0 c : sProp 𝕄)
      = iprop(iprop((∃ d, owns (c : Thread nD τ) scA2c fullShare d) ∗ (∃ d, owns (c : Thread nD τ) scXc fullShare d) ∗ (∃ d, owns (c : Thread nD τ) scW3c fullShare d) ∗ (∃ d, owns (c : Thread nD τ) scW1c fullShare d) ∗ (∃ d, owns (c : Thread nD τ) scW2c fullShare d) ∗ (∃ d, owns (c : Thread nD τ) scS2 fullShare d) ∗ (∃ d, owns (c : Thread nD τ) scS3 fullShare d) ∗ (∃ d, owns (c : Thread nD τ) scU1 fullShare d) ∗ (∃ d, owns (c : Thread nD τ) scU2 fullShare d) ∗ (∃ d, owns (c : Thread nD τ) scU3 fullShare d)) ∗ (∃ r, prngReg c r)) := by
  unfold Pipeline.ΦA; rw [scopedRest0_eq]; simp only [scA2c, scXc, scW3c, scW1c, scW2c, scS2, scS3, scU1, scU2, scU3, owns_whole]; try rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS ownsSt
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩, Hg⟩
  isplitr [Hg]
  · iexists (⟨d0, d1, d2, d3, d4, d5, d6, d7, d8, d9⟩ : St F)
    isplitr
    · ipureintro; exact Inv.zero m c _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hg

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS ownsSt
  iintro ⟨⟨%st, %hI, H0, H1, H2, H3, H4, H5, H6, H7, H8, H9⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9
  iexact Hg

/-! ## The body obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl
theorem owes_succ (c : Dev nD) (t : Fin cfg0.N) : (dats m 0 c).owesAt () t.succ = (dats m 0 c).owesAt () t.castSucc := rfl

end Cert.KernelIdeal.Body

end
-- ==== Proof.Body.StepsABC.lean ====
/-
  The invariant through the first seventeen grid points: the casts and layer 1's first accumulator at point 0; at points 1 to 15 the previous accumulator folded into rows of the support S2 and the next accumulator; at point 16 the last rows of S2, the first cached row block of A2 and layer 2's first accumulator over the complete S2.
-/
import proofs.«128992_g77695958385291_cont_9to1c4b_463_14_alg».proof.Proof.Body.Dats

set_option maxRecDepth 16384

noncomputable section

namespace Cert.KernelIdeal.Body

open Idealize.ShloMosaic Idealize.ShloMosaic.TcCoe Idealize.ShloMosaic.ValueIdx
open Idealize.SL.Sem
open Cert.KernelIdeal Cert.KernelIdeal.Gen

variable {F : FTy → Type} [FloatOps F]

variable (m : (ℓ : Loc nD τ sig) → Buf (Elt F) ℓ)

/-- A grid point is the point numbered by its value. -/
private theorem pt_eq (t : Fin cfg0.N) (n : ℕ) (hn : n < 49) (e : n = t.val) : pt n hn = t := Fin.ext e

/-- The store of point `t` (1 ≤ t ≤ 16) into S2's rows: with the invariant before `t`, every row below
    256 · t of the new contents is S2's — rows below 256 · (t - 1) are untouched and were S2's already, the
    rows of block t - 1 are the payload relu(U1 (t-1) + b3) · W1 = S2blk (t - 1). -/
private theorem s2_store (c : Dev nD) (t : Fin cfg0.N) (h1 : 1 ≤ t.val) (h2 : t.val ≤ 16)
    (hc2 : k0_cond2 (grid0.coords t) = 1#1) (st : St F) (hI : Inv m c t.val st)
    (idx : S4096x256.Idx) (hidx : (idx 0).val < 256 * t.val) :
    ((Rect.unit (s := S4096x256) (k0_off1 (grid0.coords t)) S256x256.size (k0_off1_inb (grid0.coords t) hc2)).overlay st.s2
      (k0_pay5 st.u1 (b3B m c t) st.w1c)) idx = S2 m c idx := by
  have hoff := off1_eq t h1 h2
  have hoff0 : k0_off1 (grid0.coords t) 0 = 256 * (t.val - 1) := by rw [hoff]; rfl
  have hoff1 : k0_off1 (grid0.coords t) 1 = 0 := by rw [hoff]; rfl
  have hlt0 := idx2_lt0 idx
  have hlt1 := idx2_lt1 idx
  by_cases hlow : (idx 0).val < 256 * (t.val - 1)
  · rw [Rect.overlay_unit_of_not_mem _ _ idx 0 (Or.inl (by rw [hoff0]; exact hlow))]
    exact hI.s2 idx hlow
  · have hx0 : (idx 0).val - 256 * (t.val - 1) < 256 := by omega
    have hx1 : (idx 1).val < 256 := hlt1
    rw [Rect.overlay_unit_of_mem (s := S4096x256) (off := k0_off1 (grid0.coords t)) (size := S256x256.size)
      (inb := k0_off1_inb (grid0.coords t) hc2) st.s2 (k0_pay5 st.u1 (b3B m c t) st.w1c) idx
      (ix2 (n0 := 256) (n1 := 256) ⟨(idx 0).val - 256 * (t.val - 1), hx0⟩ ⟨(idx 1).val, hx1⟩ : S256x256.Idx) (by
      intro a
      match a with
      | ⟨0, _⟩ => show (idx 0).val = k0_off1 (grid0.coords t) 0 + ((idx 0).val - 256 * (t.val - 1)); rw [hoff0]; omega
      | ⟨1, _⟩ => show (idx 1).val = k0_off1 (grid0.coords t) 1 + (idx 1).val; rw [hoff1]; omega)]
    have hblk : rowBlk (idx 0) = ⟨t.val - 1, by omega⟩ := Fin.ext (by show (idx 0).val / 256 = t.val - 1; omega)
    have hin : rowIn (idx 0) = ⟨(idx 0).val - 256 * (t.val - 1), hx0⟩ := Fin.ext (by show (idx 0).val % 256 = (idx 0).val - 256 * (t.val - 1); omega)
    have hu1 := hI.u1 h1 h2
    obtain ⟨_, _, hw1, _⟩ := hI.consts h1
    show _ = S2blk m c (rowBlk (idx 0)) (ix2 (rowIn (idx 0)) (idx 1))
    rw [hblk, hin, hu1, hw1]
    unfold S2blk
    rw [pt_eq t (t.val - 1 + 1) (by omega) (by omega)]
    rfl

theorem step_A (c : Dev nD) (t : Fin cfg0.N) (h : t.val = 0) (st : St F) (hI : Inv m c t.val st) :
    Inv m c (t.val + 1) { st with
      xc := k0_pay1 (xB m c t), w3c := k0_pay2 (w3B m c t), w1c := k0_pay3 (w1B m c t), w2c := k0_pay4 (w2B m c t),
      u1 := k0_pay8 (adjB m c t) (k0_pay1 (xB m c t)) (k0_pay2 (w3B m c t)) } := by
  have e0 : pt 0 (by omega) = t := pt_eq t 0 (by omega) h.symm
  refine ⟨?_, ?_, ?_, ?_, ?_, ?_, ?_⟩
  · intro _
    unfold XC W3C W1C W2C
    rw [e0]
    exact ⟨rfl, rfl, rfl, rfl⟩
  · intro _ _
    unfold U1 XC W3C
    rw [e0, pt_eq t (t.val + 1 - 1) (by omega) (by omega)]
  · intro idx hidx; exact absurd hidx (by omega)
  · intro h1 h2; exact absurd h1 (by omega)
  · intro idx hidx; exact absurd hidx (by omega)
  · intro idx hidx; exact absurd hidx (by omega)
  · intro h1 h2; exact absurd h1 (by omega)

theorem step_B (c : Dev nD) (t : Fin cfg0.N) (h1 : 1 ≤ t.val) (h2 : t.val ≤ 15) (hc2 : k0_cond2 (grid0.coords t) = 1#1) (st : St F) (hI : Inv m c t.val st) :
    Inv m c (t.val + 1) { st with
      s2 := ((Rect.unit (s := S4096x256) (k0_off1 (grid0.coords t)) S256x256.size (k0_off1_inb (grid0.coords t) hc2)).overlay st.s2 (k0_pay5 st.u1 (b3B m c t) st.w1c)),
      u1 := k0_pay8 (adjB m c t) st.xc st.w3c } := by
  refine ⟨?_, ?_, ?_, ?_, ?_, ?_, ?_⟩
  · intro _; exact hI.consts h1
  · intro _ _
    obtain ⟨hx, hw3, _, _⟩ := hI.consts h1
    show k0_pay8 (adjB m c t) st.xc st.w3c = _
    rw [hx, hw3]
    unfold U1
    rw [pt_eq t (t.val + 1 - 1) (by omega) (by omega)]
  · intro idx hidx
    have hrow : (idx 0).val < 256 * t.val := by omega
    dsimp only
    exact s2_store m c t h1 (by omega) hc2 st hI idx hrow
  · intro h1' h2'; exact absurd h1' (by omega)
  · intro idx hidx; exact absurd hidx (by omega)
  · intro idx hidx; exact absurd hidx (by omega)
  · intro h1' h2'; exact absurd h1' (by omega)

/-- The store of point 16 into the cache of A2: its first 256 rows are the cast of A2's row block 0. -/
private theorem a2c_store (c : Dev nD) (t : Fin cfg0.N) (h : t.val = 16)
    (hc6 : k0_cond6 (grid0.coords t) = 1#1) (X : Vec F S4096x4096 .bf16)
    (idx : S4096x4096.Idx) (hidx : (idx 0).val < 256) :
    ((Rect.unit (s := S4096x4096) (k0_off3 (grid0.coords t)) S256x4096.size (k0_off3_inb (grid0.coords t) hc6)).overlay X
      (k0_pay10 (a2B m c t))) idx = A2C m c idx := by
  have hoff := off3_eq t (by omega) (by omega)
  have hoff0 : k0_off3 (grid0.coords t) 0 = 256 * (t.val - 16) := by rw [hoff]; rfl
  have hoff1 : k0_off3 (grid0.coords t) 1 = 0 := by rw [hoff]; rfl
  have hx1 : (idx 1).val < 4096 := idx2_lt1 idx
  rw [Rect.overlay_unit_of_mem (s := S4096x4096) (off := k0_off3 (grid0.coords t)) (size := S256x4096.size)
    (inb := k0_off3_inb (grid0.coords t) hc6) X (k0_pay10 (a2B m c t)) idx
    (ix2 (n0 := 256) (n1 := 4096) ⟨(idx 0).val, hidx⟩ ⟨(idx 1).val, hx1⟩ : S256x4096.Idx) (by
    intro a
    match a with
    | ⟨0, _⟩ => show (idx 0).val = k0_off3 (grid0.coords t) 0 + (idx 0).val; rw [hoff0]; omega
    | ⟨1, _⟩ => show (idx 1).val = k0_off3 (grid0.coords t) 1 + (idx 1).val; rw [hoff1]; omega)]
  have hblk : rowBlk (idx 0) = ⟨0, by omega⟩ := Fin.ext (by show (idx 0).val / 256 = 0; omega)
  have hin : rowIn (idx 0) = ⟨(idx 0).val, hidx⟩ := Fin.ext (by show (idx 0).val % 256 = (idx 0).val; omega)
  show _ = A2Cblk m c (rowBlk (idx 0)) (ix2 (rowIn (idx 0)) (idx 1))
  rw [hblk, hin]
  unfold A2Cblk
  rw [pt_eq t (16 + 0) (by omega) (by omega)]
  rfl

theorem step_C (c : Dev nD) (t : Fin cfg0.N) (h : t.val = 16) (hc2 : k0_cond2 (grid0.coords t) = 1#1) (hc6 : k0_cond6 (grid0.coords t) = 1#1) (st : St F) (hI : Inv m c t.val st) :
    Inv m c (t.val + 1) { st with
      s2 := ((Rect.unit (s := S4096x256) (k0_off1 (grid0.coords t)) S256x256.size (k0_off1_inb (grid0.coords t) hc2)).overlay st.s2 (k0_pay5 st.u1 (b3B m c t) st.w1c)),
      a2c := ((Rect.unit (s := S4096x4096) (k0_off3 (grid0.coords t)) S256x4096.size (k0_off3_inb (grid0.coords t) hc6)).overlay st.a2c (k0_pay10 (a2B m c t))),
      u2 := k0_pay11 (a2B m c t) ((Rect.unit (s := S4096x256) (k0_off1 (grid0.coords t)) S256x256.size (k0_off1_inb (grid0.coords t) hc2)).overlay st.s2 (k0_pay5 st.u1 (b3B m c t) st.w1c)) } := by
  have h1 : 1 ≤ t.val := by omega
  -- after this store all sixteen row blocks of S2 are in place
  have hs2 : ((Rect.unit (s := S4096x256) (k0_off1 (grid0.coords t)) S256x256.size (k0_off1_inb (grid0.coords t) hc2)).overlay st.s2
      (k0_pay5 st.u1 (b3B m c t) st.w1c)) = S2 m c :=
    funext fun idx => s2_store m c t h1 (by omega) hc2 st hI idx (by have := idx2_lt0 idx; omega)
  refine ⟨?_, ?_, ?_, ?_, ?_, ?_, ?_⟩
  · intro _; exact hI.consts h1
  · intro h1' h2'; exact absurd h2' (by omega)
  · intro idx _
    dsimp only
    exact congrFun hs2 idx
  · intro _ _
    dsimp only
    rw [hs2]
    unfold U2
    rw [pt_eq t (16 + (t.val + 1 - 17)) (by omega) (by omega)]
  · intro idx hidx
    have hrow : (idx 0).val < 256 := by omega
    dsimp only
    exact a2c_store m c t h hc6 st.a2c idx hrow
  · intro idx hidx; exact absurd hidx (by omega)
  · intro h1' h2'; exact absurd h1' (by omega)

end Cert.KernelIdeal.Body

end
-- ==== Proof.Body.SoundA.lean ====
import proofs.«128992_g77695958385291_cont_9to1c4b_463_14_alg».proof.Proof.Body.RunA
import proofs.«128992_g77695958385291_cont_9to1c4b_463_14_alg».proof.Proof.Body.StepsABC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 3200000 in
/-- The body obligation at the first grid point (0): the four casts and layer 1's accumulator for row block 0: the invariant before the point hands the run the scratch
    buffers at a state satisfying it, the run leaves them at the case's next state, and that state satisfies the invariant
    before the next point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8,
    leaves0_9_idle m c t (by omega), owes_succ, Phi_castSucc, Phi_succ]
  unfold PhiS ownsSt
  iintro ⟨⟨⟨%st, %hI, Ha2c, Hxc, Hw3c, Hw1c, Hw2c, Hs2, Hs3, Hu1, Hu2, Hu3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := (hcond1 t).mpr (by first | omega | exact ⟨by omega, by omega⟩)
  have hc2 := fun hh => (show False by have := (hcond2 t).mp hh; omega)
  have hc3 := fun hh => (show False by have := (hcond3 t).mp hh; omega)
  have hc4 := fun hh => (show False by have := (hcond4 t).mp hh; omega)
  have hc5 := (hcond5 t).mpr (by first | omega | exact ⟨by omega, by omega⟩)
  have hc6 := fun hh => (show False by have := (hcond6 t).mp hh; omega)
  have hc7 := fun hh => (show False by have := (hcond7 t).mp hh; omega)
  iapply (runA c (grid0.coords t) _ _ _ _ _ _ _ _ _ _ _ _ _ _ _ _ _ _ _ _ _ _ _ _ _ _ _ _ _ _ _ _ _ _ _ _ _ _ _ _
    hc1 hc2 hc3 hc4 hc5 hc6 hc7
    (xB m c t) (w3B m c t) (w1B m c t) (w2B m c t) (adjB m c t) st.xc st.w3c st.w1c st.w2c st.u1 Set.univ _)
  isplitl [H2]; · iexact H2
  isplitl [H3]; · iexact H3
  isplitl [H5]; · iexact H5
  isplitl [H7]; · iexact H7
  isplitl [H0]; · iexact H0
  isplitl [Hxc]; · iexact Hxc
  isplitl [Hw3c]; · iexact Hw3c
  isplitl [Hw1c]; · iexact Hw1c
  isplitl [Hw2c]; · iexact Hw2c
  isplitl [Hu1]; · iexact Hu1
  iintro ⟨H2, H3, H5, H7, H0, Hxc, Hw3c, Hw1c, Hw2c, Hu1⟩
  isplitl [Ha2c Hxc Hw3c Hw1c Hw2c Hs2 Hs3 Hu1 Hu2 Hu3 Hg]
  · isplitr [Hg]
    · iexists ({ st with
      xc := k0_pay1 (xB m c t), w3c := k0_pay2 (w3B m c t), w1c := k0_pay3 (w1B m c t), w2c := k0_pay4 (w2B m c t),
      u1 := k0_pay8 (adjB m c t) (k0_pay1 (xB m c t)) (k0_pay2 (w3B m c t)) } : St F)
      isplitr
      · ipureintro; exact step_A m c t h st hI
      isplitl [Ha2c]; · iexact Ha2c
      isplitl [Hxc]; · iexact Hxc
      isplitl [Hw3c]; · iexact Hw3c
      isplitl [Hw1c]; · iexact Hw1c
      isplitl [Hw2c]; · iexact Hw2c
      isplitl [Hs2]; · iexact Hs2
      isplitl [Hs3]; · iexact Hs3
      isplitl [Hu1]; · iexact Hu1
      isplitl [Hu2]; · iexact Hu2
      iexact Hu3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.KernelIdeal.Body

end
-- ==== Proof.Body.RunB.lean ====
import proofs.«128992_g77695958385291_cont_9to1c4b_463_14_alg».proof.Proof.Body.Defs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
/-- The body in the control case of points 1 to 15: finish layer 1's previous row block into the support S2, then layer 1's accumulator for this block: on whole memrefs at the contents named, it runs to the
    continuation with each buffer it stores into at the contents the stores leave (a row-block store: the old contents
    with that block replaced), the others as they were. -/
theorem runB (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S4096x4096 .bf16) (harg11 : arg11.IsWhole) (arg12 : Memref sig .tc .vmem S4096x128 .bf16) (harg12 : arg12.IsWhole) (arg13 : Memref sig .tc .vmem S128x512 .bf16) (harg13 : arg13.IsWhole) (arg14 : Memref sig .tc .vmem S512x256 .bf16) (harg14 : arg14.IsWhole) (arg15 : Memref sig .tc .vmem S256x128 .bf16) (harg15 : arg15.IsWhole) (arg16 : Memref sig .tc .vmem S4096x256 .bf16) (harg16 : arg16.IsWhole) (arg17 : Memref sig .tc .vmem S4096x128 .bf16) (harg17 : arg17.IsWhole) (arg18 : Memref sig .tc .vmem S256x512 .f32) (harg18 : arg18.IsWhole) (arg19 : Memref sig .tc .vmem S256x256 .f32) (harg19 : arg19.IsWhole) (arg20 : Memref sig .tc .vmem S256x128 .f32) (harg20 : arg20.IsWhole)
    (hc1 : ¬ (Scalar.cmpi .ne (Scalar.extui (Scalar.cmpi .eq (BitVec.ofNat 32 (i 0).val) 0#32)) 0#32) = 1#1) (hc2 : k0_cond2 i = 1#1) (hc3 : ¬ k0_cond3 i = 1#1) (hc4 : ¬ k0_cond4 i = 1#1) (hc5 : (Scalar.cmpi .ne (Scalar.extui (Scalar.cmpi .slt (BitVec.ofNat 32 (i 0).val) 16#32)) 0#32) = 1#1) (hc6 : ¬ k0_cond6 i = 1#1) (hc7 : ¬ k0_cond7 i = 1#1)
    (x5 : Vec F S1x512 .f32) (x1 : Vec F S256x4096 .f32) (x12 : Vec F S4096x128 .bf16) (x13 : Vec F S128x512 .bf16) (x14 : Vec F S512x256 .bf16) (x16 : Vec F S4096x256 .bf16) (x18 : Vec F S256x512 .f32)
    (E : Set ℕ) (K : PUnit → sProp 𝕄) :
    iprop(owns (c : Thread nD τ) arg5 fullShare x5 ∗ owns (c : Thread nD τ) arg1 fullShare x1 ∗ owns (c : Thread nD τ) arg12 fullShare x12 ∗ owns (c : Thread nD τ) arg13 fullShare x13 ∗ owns (c : Thread nD τ) arg14 fullShare x14 ∗ owns (c : Thread nD τ) arg16 fullShare x16 ∗ owns (c : Thread nD τ) arg18 fullShare x18
      ∗ (iprop(owns (c : Thread nD τ) arg5 fullShare x5 ∗ owns (c : Thread nD τ) arg1 fullShare x1 ∗ owns (c : Thread nD τ) arg12 fullShare x12 ∗ owns (c : Thread nD τ) arg13 fullShare x13 ∗ owns (c : Thread nD τ) arg14 fullShare x14 ∗ owns (c : Thread nD τ) arg16 fullShare ((Rect.unit (s := S4096x256) (k0_off1 i) S256x256.size (k0_off1_inb i hc2)).overlay x16 (k0_pay5 x18 x5 x14)) ∗ owns (c : Thread nD τ) arg18 fullShare (k0_pay8 x1 x12 x13)) -∗ K ⟨⟩))
    ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_kernel_eq_skeleton]; unfold cc0__gcn_kernel_skel
  unfold owns
  iintro ⟨⟨%f5, %hf5, H5⟩, ⟨%f1, %hf1, H1⟩, ⟨%f12, %hf12, H12⟩, ⟨%f13, %hf13, H13⟩, ⟨%f14, %hf14, H14⟩, ⟨%f16, %hf16, H16⟩, ⟨%f18, %hf18, H18⟩, Hk⟩
  obtain rfl := harg5.eq_unread hf5; obtain rfl := harg1.eq_unread hf1; obtain rfl := harg12.eq_unread hf12; obtain rfl := harg13.eq_unread hf13; obtain rfl := harg14.eq_unread hf14; obtain rfl := harg16.eq_unread hf16; obtain rfl := harg18.eq_unread hf18
  sl_exec (disch := first | exact hc1 | exact hc2 | exact hc3 | exact hc4 | exact hc5 | exact hc6 | exact hc7)
  sl_step
  iapply Hk
  isplitl [H5]
  · iexists _; isplitr
    swap; · iexact H5
    ipureintro; exact harg5.read_unread _
  isplitl [H1]
  · iexists _; isplitr
    swap; · iexact H1
    ipureintro; exact harg1.read_unread _
  isplitl [H12]
  · iexists _; isplitr
    swap; · iexact H12
    ipureintro; exact harg12.read_unread _
  isplitl [H13]
  · iexists _; isplitr
    swap; · iexact H13
    ipureintro; exact harg13.read_unread _
  isplitl [H14]
  · iexists _; isplitr
    swap; · iexact H14
    ipureintro; exact harg14.read_unread _
  isplitl [H16]
  · iexists _; isplitr
    swap; · iexact H16
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  iexists _; isplitr
  swap; · iexact H18
  ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]

end Cert.KernelIdeal.Body

end
-- ==== Proof.Body.SoundB.lean ====
import proofs.«128992_g77695958385291_cont_9to1c4b_463_14_alg».proof.Proof.Body.RunB
import proofs.«128992_g77695958385291_cont_9to1c4b_463_14_alg».proof.Proof.Body.StepsABC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 3200000 in
/-- The body obligation at grid points 1 to 15: layer 1's previous row block folded into the support S2, then the accumulator for this block: the invariant before the point hands the run the scratch
    buffers at a state satisfying it, the run leaves them at the case's next state, and that state satisfies the invariant
    before the next point. -/
theorem sound_B (c : Dev nD) (t : Fin cfg0.N) (h1 : 1 ≤ t.val) (h2 : t.val ≤ 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8,
    leaves0_9_idle m c t (by omega), owes_succ, Phi_castSucc, Phi_succ]
  unfold PhiS ownsSt
  iintro ⟨⟨⟨%st, %hI, Ha2c, Hxc, Hw3c, Hw1c, Hw2c, Hs2, Hs3, Hu1, Hu2, Hu3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := fun hh => (show False by have := (hcond1 t).mp hh; omega)
  have hc2 := (hcond2 t).mpr (by first | omega | exact ⟨by omega, by omega⟩)
  have hc3 := fun hh => (show False by have := (hcond3 t).mp hh; omega)
  have hc4 := fun hh => (show False by have := (hcond4 t).mp hh; omega)
  have hc5 := (hcond5 t).mpr (by first | omega | exact ⟨by omega, by omega⟩)
  have hc6 := fun hh => (show False by have := (hcond6 t).mp hh; omega)
  have hc7 := fun hh => (show False by have := (hcond7 t).mp hh; omega)
  iapply (runB c (grid0.coords t) _ _ _ _ _ _ _ _ _ _ _ _ _ _ _ _ _ _ _ _ _ _ _ _ _ _ _ _ _ _ _ _ _ _ _ _ _ _ _ _
    hc1 hc2 hc3 hc4 hc5 hc6 hc7
    (b3B m c t) (adjB m c t) st.xc st.w3c st.w1c st.s2 st.u1 Set.univ _)
  isplitl [H4]; · iexact H4
  isplitl [H0]; · iexact H0
  isplitl [Hxc]; · iexact Hxc
  isplitl [Hw3c]; · iexact Hw3c
  isplitl [Hw1c]; · iexact Hw1c
  isplitl [Hs2]; · iexact Hs2
  isplitl [Hu1]; · iexact Hu1
  iintro ⟨H4, H0, Hxc, Hw3c, Hw1c, Hs2, Hu1⟩
  isplitl [Ha2c Hxc Hw3c Hw1c Hw2c Hs2 Hs3 Hu1 Hu2 Hu3 Hg]
  · isplitr [Hg]
    · iexists ({ st with
      s2 := ((Rect.unit (s := S4096x256) (k0_off1 (grid0.coords t)) S256x256.size (k0_off1_inb (grid0.coords t) hc2)).overlay st.s2 (k0_pay5 st.u1 (b3B m c t) st.w1c)),
      u1 := k0_pay8 (adjB m c t) st.xc st.w3c } : St F)
      isplitr
      · ipureintro; exact step_B m c t h1 h2 hc2 st hI
      isplitl [Ha2c]; · iexact Ha2c
      isplitl [Hxc]; · iexact Hxc
      isplitl [Hw3c]; · iexact Hw3c
      isplitl [Hw1c]; · iexact Hw1c
      isplitl [Hw2c]; · iexact Hw2c
      isplitl [Hs2]; · iexact Hs2
      isplitl [Hs3]; · iexact Hs3
      isplitl [Hu1]; · iexact Hu1
      isplitl [Hu2]; · iexact Hu2
      iexact Hu3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.KernelIdeal.Body

end
-- ==== Proof.Body.RunC.lean ====
import proofs.«128992_g77695958385291_cont_9to1c4b_463_14_alg».proof.Proof.Body.Defs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

instance : ClosedOff (k0_off1 (grid0.coords (pt 16 (by omega)))) := ⟨![3840, 0], by decide +kernel⟩
instance : ClosedOff (k0_off3 (grid0.coords (pt 16 (by omega)))) := ⟨![0, 0], by decide +kernel⟩
set_option maxHeartbeats 1600000 in
/-- The body in the control case of point 16: finish layer 1's last row block into S2, cache A2's first row block, layer 2's accumulator for it over the now complete S2: on whole memrefs at the contents named, it runs to the
    continuation with each buffer it stores into at the contents the stores leave (a row-block store: the old contents
    with that block replaced), the others as they were. -/
theorem runC (c : Dev nD) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S4096x4096 .bf16) (harg11 : arg11.IsWhole) (arg12 : Memref sig .tc .vmem S4096x128 .bf16) (harg12 : arg12.IsWhole) (arg13 : Memref sig .tc .vmem S128x512 .bf16) (harg13 : arg13.IsWhole) (arg14 : Memref sig .tc .vmem S512x256 .bf16) (harg14 : arg14.IsWhole) (arg15 : Memref sig .tc .vmem S256x128 .bf16) (harg15 : arg15.IsWhole) (arg16 : Memref sig .tc .vmem S4096x256 .bf16) (harg16 : arg16.IsWhole) (arg17 : Memref sig .tc .vmem S4096x128 .bf16) (harg17 : arg17.IsWhole) (arg18 : Memref sig .tc .vmem S256x512 .f32) (harg18 : arg18.IsWhole) (arg19 : Memref sig .tc .vmem S256x256 .f32) (harg19 : arg19.IsWhole) (arg20 : Memref sig .tc .vmem S256x128 .f32) (harg20 : arg20.IsWhole)
    (hc1 : ¬ (Scalar.cmpi .ne (Scalar.extui (Scalar.cmpi .eq (BitVec.ofNat 32 ((grid0.coords (pt 16 (by omega))) 0).val) 0#32)) 0#32) = 1#1) (hc2 : k0_cond2 (grid0.coords (pt 16 (by omega))) = 1#1) (hc3 : ¬ k0_cond3 (grid0.coords (pt 16 (by omega))) = 1#1) (hc4 : ¬ k0_cond4 (grid0.coords (pt 16 (by omega))) = 1#1) (hc5 : ¬ (Scalar.cmpi .ne (Scalar.extui (Scalar.cmpi .slt (BitVec.ofNat 32 ((grid0.coords (pt 16 (by omega))) 0).val) 16#32)) 0#32) = 1#1) (hc6 : k0_cond6 (grid0.coords (pt 16 (by omega))) = 1#1) (hc7 : ¬ k0_cond7 (grid0.coords (pt 16 (by omega))) = 1#1)
    (x5 : Vec F S1x512 .f32) (x2 : Vec F S256x4096 .f32) (x14 : Vec F S512x256 .bf16) (x18 : Vec F S256x512 .f32) (x16 : Vec F S4096x256 .bf16) (x11 : Vec F S4096x4096 .bf16) (x19 : Vec F S256x256 .f32)
    (E : Set ℕ) (K : PUnit → sProp 𝕄) :
    iprop(owns (c : Thread nD τ) arg5 fullShare x5 ∗ owns (c : Thread nD τ) arg2 fullShare x2 ∗ owns (c : Thread nD τ) arg14 fullShare x14 ∗ owns (c : Thread nD τ) arg18 fullShare x18 ∗ owns (c : Thread nD τ) arg16 fullShare x16 ∗ owns (c : Thread nD τ) arg11 fullShare x11 ∗ owns (c : Thread nD τ) arg19 fullShare x19
      ∗ (iprop(owns (c : Thread nD τ) arg5 fullShare x5 ∗ owns (c : Thread nD τ) arg2 fullShare x2 ∗ owns (c : Thread nD τ) arg14 fullShare x14 ∗ owns (c : Thread nD τ) arg18 fullShare x18 ∗ owns (c : Thread nD τ) arg16 fullShare ((Rect.unit (s := S4096x256) (k0_off1 (grid0.coords (pt 16 (by omega)))) S256x256.size (k0_off1_inb (grid0.coords (pt 16 (by omega))) hc2)).overlay x16 (k0_pay5 x18 x5 x14)) ∗ owns (c : Thread nD τ) arg11 fullShare ((Rect.unit (s := S4096x4096) (k0_off3 (grid0.coords (pt 16 (by omega)))) S256x4096.size (k0_off3_inb (grid0.coords (pt 16 (by omega))) hc6)).overlay x11 (k0_pay10 x2)) ∗ owns (c : Thread nD τ) arg19 fullShare (k0_pay11 x2 ((Rect.unit (s := S4096x256) (k0_off1 (grid0.coords (pt 16 (by omega)))) S256x256.size (k0_off1_inb (grid0.coords (pt 16 (by omega))) hc2)).overlay x16 (k0_pay5 x18 x5 x14)))) -∗ K ⟨⟩))
    ⊢ wp frame (wpE (defs₀ (F := F)) Variants.none c none) E (cc0__gcn_kernel (grid0.coords (pt 16 (by omega))) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_kernel_eq_skeleton]; unfold cc0__gcn_kernel_skel
  unfold owns
  iintro ⟨⟨%f5, %hf5, H5⟩, ⟨%f2, %hf2, H2⟩, ⟨%f14, %hf14, H14⟩, ⟨%f18, %hf18, H18⟩, ⟨%f16, %hf16, H16⟩, ⟨%f11, %hf11, H11⟩, ⟨%f19, %hf19, H19⟩, Hk⟩
  obtain rfl := harg5.eq_unread hf5; obtain rfl := harg2.eq_unread hf2; obtain rfl := harg14.eq_unread hf14; obtain rfl := harg18.eq_unread hf18; obtain rfl := harg16.eq_unread hf16; obtain rfl := harg11.eq_unread hf11; obtain rfl := harg19.eq_unread hf19
  sl_exec (disch := first | exact hc1 | exact hc2 | exact hc3 | exact hc4 | exact hc5 | exact hc6 | exact hc7)
  sl_step
  iapply Hk
  isplitl [H5]
  · iexists _; isplitr
    swap; · iexact H5
    ipureintro; exact harg5.read_unread _
  isplitl [H2]
  · iexists _; isplitr
    swap; · iexact H2
    ipureintro; exact harg2.read_unread _
  isplitl [H14]
  · iexists _; isplitr
    swap; · iexact H14
    ipureintro; exact harg14.read_unread _
  isplitl [H18]
  · iexists _; isplitr
    swap; · iexact H18
    ipureintro; exact harg18.read_unread _
  isplitl [H16]
  · iexists _; isplitr
    swap; · iexact H16
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  isplitl [H11]
  · iexists _; isplitr
    swap; · iexact H11
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  iexists _; isplitr
  swap; · iexact H19
  ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]

end Cert.KernelIdeal.Body

end
-- ==== Proof.Body.SoundC.lean ====
import proofs.«128992_g77695958385291_cont_9to1c4b_463_14_alg».proof.Proof.Body.RunC
import proofs.«128992_g77695958385291_cont_9to1c4b_463_14_alg».proof.Proof.Body.StepsABC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 3200000 in
/-- The body obligation at grid point 16: layer 1's last row block folded into S2, A2's first row block cached, layer 2's accumulator for it: the invariant before the point hands the run the scratch
    buffers at a state satisfying it, the run leaves them at the case's next state, and that state satisfies the invariant
    before the next point. -/
theorem sound_C (c : Dev nD) (t : Fin cfg0.N) (h : t.val = 16) :
    bodyPre m c t ⊢ wp frame (wpE (defs₀ (F := F)) Variants.none c none) Set.univ (bodyAt0 t) (fun _ => bodyPost m c t) := by
  obtain rfl : t = pt 16 (by decide) := Fin.ext h
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8,
    leaves0_9_idle m c (pt 16 (by decide)) (by decide), owes_succ, Phi_castSucc, Phi_succ]
  unfold PhiS ownsSt
  iintro ⟨⟨⟨%st, %hI, Ha2c, Hxc, Hw3c, Hw1c, Hw2c, Hs2, Hs3, Hu1, Hu2, Hu3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := fun hh => (show False from absurd ((hcond1 (pt 16 (by decide))).mp hh) (by decide))
  have hc2 := (hcond2 (pt 16 (by decide))).mpr (by decide)
  have hc3 := fun hh => (show False from absurd ((hcond3 (pt 16 (by decide))).mp hh) (by decide))
  have hc4 := fun hh => (show False from absurd ((hcond4 (pt 16 (by decide))).mp hh) (by decide))
  have hc5 := fun hh => (show False from absurd ((hcond5 (pt 16 (by decide))).mp hh) (by decide))
  have hc6 := (hcond6 (pt 16 (by decide))).mpr (by decide)
  have hc7 := fun hh => (show False from absurd ((hcond7 (pt 16 (by decide))).mp hh) (by decide))
  iapply (runC c _ _ _ _ _ _ _ _ _ _ _ _ _ _ _ _ _ _ _ _ _ _ _ _ _ _ _ _ _ _ _ _ _ _ _ _ _ _ _ _
    hc1 hc2 hc3 hc4 hc5 hc6 hc7
    (b3B m c (pt 16 (by decide))) (a2B m c (pt 16 (by decide))) st.w1c st.u1 st.s2 st.a2c st.u2 Set.univ _)
  isplitl [H4]; · iexact H4
  isplitl [H1]; · iexact H1
  isplitl [Hw1c]; · iexact Hw1c
  isplitl [Hu1]; · iexact Hu1
  isplitl [Hs2]; · iexact Hs2
  isplitl [Ha2c]; · iexact Ha2c
  isplitl [Hu2]; · iexact Hu2
  iintro ⟨H4, H1, Hw1c, Hu1, Hs2, Ha2c, Hu2⟩
  isplitl [Ha2c Hxc Hw3c Hw1c Hw2c Hs2 Hs3 Hu1 Hu2 Hu3 Hg]
  · isplitr [Hg]
    · iexists ({ st with
      s2 := ((Rect.unit (s := S4096x256) (k0_off1 (grid0.coords (pt 16 (by decide)))) S256x256.size (k0_off1_inb (grid0.coords (pt 16 (by decide))) hc2)).overlay st.s2 (k0_pay5 st.u1 (b3B m c (pt 16 (by decide))) st.w1c)),
      a2c := ((Rect.unit (s := S4096x4096) (k0_off3 (grid0.coords (pt 16 (by decide)))) S256x4096.size (k0_off3_inb (grid0.coords (pt 16 (by decide))) hc6)).overlay st.a2c (k0_pay10 (a2B m c (pt 16 (by decide))))),
      u2 := k0_pay11 (a2B m c (pt 16 (by decide))) ((Rect.unit (s := S4096x256) (k0_off1 (grid0.coords (pt 16 (by decide)))) S256x256.size (k0_off1_inb (grid0.coords (pt 16 (by decide))) hc2)).overlay st.s2 (k0_pay5 st.u1 (b3B m c (pt 16 (by decide))) st.w1c)) } : St F)
      isplitr
      · ipureintro; exact step_C m c (pt 16 (by decide)) rfl hc2 hc6 st hI
      isplitl [Ha2c]; · iexact Ha2c
      isplitl [Hxc]; · iexact Hxc
      isplitl [Hw3c]; · iexact Hw3c
      isplitl [Hw1c]; · iexact Hw1c
      isplitl [Hw2c]; · iexact Hw2c
      isplitl [Hs2]; · iexact Hs2
      isplitl [Hs3]; · iexact Hs3
      isplitl [Hu1]; · iexact Hu1
      isplitl [Hu2]; · iexact Hu2
      iexact Hu3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.KernelIdeal.Body

end
-- ==== Proof.Body.RunD.lean ====
import proofs.«128992_g77695958385291_cont_9to1c4b_463_14_alg».proof.Proof.Body.Defs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
/-- The body in the control case of points 17 to 31: finish layer 2's previous row block into S3, cache A2's row block, layer 2's accumulator for it: on whole memrefs at the contents named, it runs to the
    continuation with each buffer it stores into at the contents the stores leave (a row-block store: the old contents
    with that block replaced), the others as they were. -/
theorem runD (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S4096x4096 .bf16) (harg11 : arg11.IsWhole) (arg12 : Memref sig .tc .vmem S4096x128 .bf16) (harg12 : arg12.IsWhole) (arg13 : Memref sig .tc .vmem S128x512 .bf16) (harg13 : arg13.IsWhole) (arg14 : Memref sig .tc .vmem S512x256 .bf16) (harg14 : arg14.IsWhole) (arg15 : Memref sig .tc .vmem S256x128 .bf16) (harg15 : arg15.IsWhole) (arg16 : Memref sig .tc .vmem S4096x256 .bf16) (harg16 : arg16.IsWhole) (arg17 : Memref sig .tc .vmem S4096x128 .bf16) (harg17 : arg17.IsWhole) (arg18 : Memref sig .tc .vmem S256x512 .f32) (harg18 : arg18.IsWhole) (arg19 : Memref sig .tc .vmem S256x256 .f32) (harg19 : arg19.IsWhole) (arg20 : Memref sig .tc .vmem S256x128 .f32) (harg20 : arg20.IsWhole)
    (hc1 : ¬ (Scalar.cmpi .ne (Scalar.extui (Scalar.cmpi .eq (BitVec.ofNat 32 (i 0).val) 0#32)) 0#32) = 1#1) (hc2 : ¬ k0_cond2 i = 1#1) (hc3 : k0_cond3 i = 1#1) (hc4 : ¬ k0_cond4 i = 1#1) (hc5 : ¬ (Scalar.cmpi .ne (Scalar.extui (Scalar.cmpi .slt (BitVec.ofNat 32 (i 0).val) 16#32)) 0#32) = 1#1) (hc6 : k0_cond6 i = 1#1) (hc7 : ¬ k0_cond7 i = 1#1)
    (x7 : Vec F S1x256 .f32) (x2 : Vec F S256x4096 .f32) (x15 : Vec F S256x128 .bf16) (x16 : Vec F S4096x256 .bf16) (x17 : Vec F S4096x128 .bf16) (x11 : Vec F S4096x4096 .bf16) (x19 : Vec F S256x256 .f32)
    (E : Set ℕ) (K : PUnit → sProp 𝕄) :
    iprop(owns (c : Thread nD τ) arg7 fullShare x7 ∗ owns (c : Thread nD τ) arg2 fullShare x2 ∗ owns (c : Thread nD τ) arg15 fullShare x15 ∗ owns (c : Thread nD τ) arg16 fullShare x16 ∗ owns (c : Thread nD τ) arg17 fullShare x17 ∗ owns (c : Thread nD τ) arg11 fullShare x11 ∗ owns (c : Thread nD τ) arg19 fullShare x19
      ∗ (iprop(owns (c : Thread nD τ) arg7 fullShare x7 ∗ owns (c : Thread nD τ) arg2 fullShare x2 ∗ owns (c : Thread nD τ) arg15 fullShare x15 ∗ owns (c : Thread nD τ) arg16 fullShare x16 ∗ owns (c : Thread nD τ) arg17 fullShare ((Rect.unit (s := S4096x128) (k0_off2 i) S256x128.size (k0_off2_inb i hc3)).overlay x17 (k0_pay6 x19 x7 x15)) ∗ owns (c : Thread nD τ) arg11 fullShare ((Rect.unit (s := S4096x4096) (k0_off3 i) S256x4096.size (k0_off3_inb i hc6)).overlay x11 (k0_pay10 x2)) ∗ owns (c : Thread nD τ) arg19 fullShare (k0_pay11 x2 x16)) -∗ K ⟨⟩))
    ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_kernel_eq_skeleton]; unfold cc0__gcn_kernel_skel
  unfold owns
  iintro ⟨⟨%f7, %hf7, H7⟩, ⟨%f2, %hf2, H2⟩, ⟨%f15, %hf15, H15⟩, ⟨%f16, %hf16, H16⟩, ⟨%f17, %hf17, H17⟩, ⟨%f11, %hf11, H11⟩, ⟨%f19, %hf19, H19⟩, Hk⟩
  obtain rfl := harg7.eq_unread hf7; obtain rfl := harg2.eq_unread hf2; obtain rfl := harg15.eq_unread hf15; obtain rfl := harg16.eq_unread hf16; obtain rfl := harg17.eq_unread hf17; obtain rfl := harg11.eq_unread hf11; obtain rfl := harg19.eq_unread hf19
  sl_exec (disch := first | exact hc1 | exact hc2 | exact hc3 | exact hc4 | exact hc5 | exact hc6 | exact hc7)
  sl_step
  iapply Hk
  isplitl [H7]
  · iexists _; isplitr
    swap; · iexact H7
    ipureintro; exact harg7.read_unread _
  isplitl [H2]
  · iexists _; isplitr
    swap; · iexact H2
    ipureintro; exact harg2.read_unread _
  isplitl [H15]
  · iexists _; isplitr
    swap; · iexact H15
    ipureintro; exact harg15.read_unread _
  isplitl [H16]
  · iexists _; isplitr
    swap; · iexact H16
    ipureintro; exact harg16.read_unread _
  isplitl [H17]
  · iexists _; isplitr
    swap; · iexact H17
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  isplitl [H11]
  · iexists _; isplitr
    swap; · iexact H11
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  iexists _; isplitr
  swap; · iexact H19
  ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]

end Cert.KernelIdeal.Body

end
-- ==== Proof.Body.StepsDEFG.lean ====
/-
  The invariant through grid points 17 to 48: layer 2's accumulators folded into rows of the support S3 while A2's row blocks are cached; at point 32 the last rows of S3 and layer 3's first accumulator from the cache; from point 33 on the accumulator written out and the next one computed.
-/
import proofs.«128992_g77695958385291_cont_9to1c4b_463_14_alg».proof.Proof.Body.Dats

set_option maxRecDepth 16384

noncomputable section

namespace Cert.KernelIdeal.Body

open Idealize.ShloMosaic Idealize.ShloMosaic.TcCoe Idealize.ShloMosaic.ValueIdx
open Idealize.SL.Sem
open Cert.KernelIdeal Cert.KernelIdeal.Gen

variable {F : FTy → Type} [FloatOps F]

variable (m : (ℓ : Loc nD τ sig) → Buf (Elt F) ℓ)

/-! ## Rows of a stored block -/

/-- A row between `256 * b` and `256 * (b + 1)` lies in block `b`. -/
theorem rowBlk_eq (r : Fin 4096) (b : ℕ) (hb : b < 16) (h1 : 256 * b ≤ r.val) (h2 : r.val < 256 * (b + 1)) :
    rowBlk r = ⟨b, hb⟩ := Fin.ext (by show r.val / 256 = b; omega)

/-- … and is row `r - 256 * b` of it. -/
theorem rowIn_eq (r : Fin 4096) (b : ℕ) (h1 : 256 * b ≤ r.val) (h2 : r.val < 256 * (b + 1)) :
    rowIn r = ⟨r.val - 256 * b, by omega⟩ := Fin.ext (by show r.val % 256 = r.val - 256 * b; omega)

/-- The rows of layer 3's support after the store of point `t` (points 17 to 32): all rows up to block `t - 17`. -/
theorem s3_step (c : Dev nD) (t : Fin cfg0.N) (h1 : 17 ≤ t.val) (h2 : t.val ≤ 32) (hc3 : k0_cond3 (grid0.coords t) = 1#1)
    (st : St F) (hI : Inv m c t.val st) (idx : S4096x128.Idx) (hidx : (idx 0).val < 256 * (t.val + 1 - 17)) :
    (Rect.unit (s := S4096x128) (k0_off2 (grid0.coords t)) S256x128.size (k0_off2_inb (grid0.coords t) hc3)).overlay st.s3
      (k0_pay6 st.u2 (b1B m c t) st.w2c) idx = S3 m c idx := by
  have hoff := off2_eq t h1 h2
  have hoff0 : k0_off2 (grid0.coords t) 0 = 256 * (t.val - 17) := by rw [hoff]; rfl
  have hoff1 : k0_off2 (grid0.coords t) 1 = 0 := by rw [hoff]; rfl
  have hl0 : (idx 0).val < 4096 := idx2_lt0 idx
  by_cases hlt : (idx 0).val < 256 * (t.val - 17)
  · rw [Rect.overlay_unit_of_not_mem _ _ idx 0 (Or.inl (by rw [hoff0]; exact hlt))]
    exact hI.s3 idx hlt
  · have hge : 256 * (t.val - 17) ≤ (idx 0).val := by omega
    have hlt' : (idx 0).val < 256 * ((t.val - 17) + 1) := by omega
    have hx0 : (idx 0).val - 256 * (t.val - 17) < 256 := by omega
    refine (Rect.overlay_unit_of_mem (s := S4096x128) (off := k0_off2 (grid0.coords t)) (size := S256x128.size) st.s3 _ idx
      (ix2 (n0 := 256) (n1 := 128) ⟨(idx 0).val - 256 * (t.val - 17), hx0⟩ (idx 1))
      (Fin.forall_fin_two.mpr ⟨by show (idx 0).val = k0_off2 (grid0.coords t) 0 + ((idx 0).val - 256 * (t.val - 17)); omega,
        by show (idx 1).val = k0_off2 (grid0.coords t) 1 + (idx 1).val; omega⟩)).trans ?_
    rw [hI.u2 h1 h2, (hI.consts (by omega)).2.2.2]
    show _ = S3blk m c (rowBlk (idx 0)) (ix2 (rowIn (idx 0)) (idx 1))
    rw [rowBlk_eq (idx 0) (t.val - 17) (by omega) hge hlt', rowIn_eq (idx 0) (t.val - 17) hge hlt']
    have hp : pt (17 + (t.val - 17)) (by omega) = t := Fin.ext (by show 17 + (t.val - 17) = t.val; omega)
    show _ = k0_pay6 (U2 m c ⟨t.val - 17, by omega⟩) (b1B m c (pt (17 + (t.val - 17)) (by omega))) (W2C m c) _
    rw [hp]

/-- The rows of A2's cached cast after the store of point `t` (points 16 to 31): all rows up to block `t - 16`. -/
theorem a2c_step (c : Dev nD) (t : Fin cfg0.N) (h1 : 16 ≤ t.val) (h2 : t.val < 32) (hc6 : k0_cond6 (grid0.coords t) = 1#1)
    (st : St F) (hI : Inv m c t.val st) (idx : S4096x4096.Idx) (hidx : (idx 0).val < 256 * (t.val + 1 - 16)) :
    (Rect.unit (s := S4096x4096) (k0_off3 (grid0.coords t)) S256x4096.size (k0_off3_inb (grid0.coords t) hc6)).overlay st.a2c
      (k0_pay10 (a2B m c t)) idx = A2C m c idx := by
  have hoff := off3_eq t h1 h2
  have hoff0 : k0_off3 (grid0.coords t) 0 = 256 * (t.val - 16) := by rw [hoff]; rfl
  have hoff1 : k0_off3 (grid0.coords t) 1 = 0 := by rw [hoff]; rfl
  have hl0 : (idx 0).val < 4096 := idx2_lt0 idx
  by_cases hlt : (idx 0).val < 256 * (t.val - 16)
  · rw [Rect.overlay_unit_of_not_mem _ _ idx 0 (Or.inl (by rw [hoff0]; exact hlt))]
    exact hI.a2c idx hlt
  · have hge : 256 * (t.val - 16) ≤ (idx 0).val := by omega
    have hlt' : (idx 0).val < 256 * ((t.val - 16) + 1) := by omega
    have hx0 : (idx 0).val - 256 * (t.val - 16) < 256 := by omega
    refine (Rect.overlay_unit_of_mem (s := S4096x4096) (off := k0_off3 (grid0.coords t)) (size := S256x4096.size) st.a2c _ idx
      (ix2 (n0 := 256) (n1 := 4096) ⟨(idx 0).val - 256 * (t.val - 16), hx0⟩ (idx 1))
      (Fin.forall_fin_two.mpr ⟨by show (idx 0).val = k0_off3 (grid0.coords t) 0 + ((idx 0).val - 256 * (t.val - 16)); omega,
        by show (idx 1).val = k0_off3 (grid0.coords t) 1 + (idx 1).val; omega⟩)).trans ?_
    show _ = A2Cblk m c (rowBlk (idx 0)) (ix2 (rowIn (idx 0)) (idx 1))
    rw [rowBlk_eq (idx 0) (t.val - 16) (by omega) hge hlt', rowIn_eq (idx 0) (t.val - 16) hge hlt']
    have hp : pt (16 + (t.val - 16)) (by omega) = t := Fin.ext (by show 16 + (t.val - 16) = t.val; omega)
    show _ = k0_pay10 (a2B m c (pt (16 + (t.val - 16)) (by omega))) _
    rw [hp]

/-- The row block of the cache that point `t` reads (points 32 to 47) is the cast of A2's block `t - 32`. -/
theorem ld_a2c (c : Dev nD) (t : Fin cfg0.N) (h1 : 32 ≤ t.val) (h2 : t.val < 48) (hc7 : k0_cond7 (grid0.coords t) = 1#1)
    (st : St F) (hI : Inv m c t.val st) :
    View.ld st.a2c (Rect.unit (s := S4096x4096) (k0_off4 (grid0.coords t)) S256x4096.size (k0_off4_inb (grid0.coords t) hc7))
      = A2Cblk m c ⟨t.val - 32, by omega⟩ := by
  have hoff := off4_eq t h1 h2
  have hoff0 : k0_off4 (grid0.coords t) 0 = 256 * (t.val - 32) := by rw [hoff]; rfl
  have hoff1 : k0_off4 (grid0.coords t) 1 = 0 := by rw [hoff]; rfl
  funext x
  have hx0 : (x 0).val < 256 := (x 0).isLt
  obtain ⟨y, hy⟩ : ∃ y, y = (Rect.unit (s := S4096x4096) (k0_off4 (grid0.coords t)) S256x4096.size (k0_off4_inb (grid0.coords t) hc7)).idx x := ⟨_, rfl⟩
  have hy0 : (y 0).val = 256 * (t.val - 32) + (x 0).val := by
    rw [hy]; show k0_off4 (grid0.coords t) 0 + 1 * (x 0).val = _; omega
  have hy1 : (y 1).val = (x 1).val := by
    rw [hy]; show k0_off4 (grid0.coords t) 1 + 1 * (x 1).val = _; omega
  show st.a2c ((Rect.unit (s := S4096x4096) (k0_off4 (grid0.coords t)) S256x4096.size (k0_off4_inb (grid0.coords t) hc7)).idx x) = _
  rw [← hy, hI.a2c y (by omega)]
  show A2Cblk m c (rowBlk (y 0)) (ix2 (rowIn (y 0)) (y 1)) = _
  rw [rowBlk_eq (y 0) (t.val - 32) (by omega) (by omega) (by omega)]
  refine congrArg (A2Cblk m c _) ?_
  funext a
  match a with
  | ⟨0, _⟩ => exact Fin.ext (by show (y 0).val % 256 = (x 0).val; omega)
  | ⟨1, _⟩ => exact Fin.ext (by show (y 1).val = (x 1).val; omega)

theorem step_D (c : Dev nD) (t : Fin cfg0.N) (h1 : 17 ≤ t.val) (h2 : t.val ≤ 31) (hc3 : k0_cond3 (grid0.coords t) = 1#1) (hc6 : k0_cond6 (grid0.coords t) = 1#1) (st : St F) (hI : Inv m c t.val st) :
    Inv m c (t.val + 1) { st with
      s3 := ((Rect.unit (s := S4096x128) (k0_off2 (grid0.coords t)) S256x128.size (k0_off2_inb (grid0.coords t) hc3)).overlay st.s3 (k0_pay6 st.u2 (b1B m c t) st.w2c)),
      a2c := ((Rect.unit (s := S4096x4096) (k0_off3 (grid0.coords t)) S256x4096.size (k0_off3_inb (grid0.coords t) hc6)).overlay st.a2c (k0_pay10 (a2B m c t))),
      u2 := k0_pay11 (a2B m c t) st.s2 } := by
  refine ⟨?_, ?_, ?_, ?_, ?_, ?_, ?_⟩
  · intro _; exact hI.consts (by omega)
  · intro h1' h2'; exact absurd h2' (by omega)
  · intro idx _; exact hI.s2 idx (by have := idx2_lt0 idx; omega)
  · intro h1' h2'
    have hs2 : st.s2 = S2 m c := funext fun idx => hI.s2 idx (by have := idx2_lt0 idx; omega)
    have hp : pt (16 + (t.val + 1 - 17)) (by omega) = t := Fin.ext (by show 16 + (t.val + 1 - 17) = t.val; omega)
    show k0_pay11 (a2B m c t) st.s2 = k0_pay11 (a2B m c (pt (16 + (t.val + 1 - 17)) (by omega))) (S2 m c)
    rw [hs2, hp]
  · intro idx hidx; dsimp only; exact a2c_step m c t (by omega) (by omega) hc6 st hI idx hidx
  · intro idx hidx; dsimp only; exact s3_step m c t h1 (by omega) hc3 st hI idx hidx
  · intro h1' h2'; exact absurd h1' (by omega)

theorem step_E (c : Dev nD) (t : Fin cfg0.N) (h : t.val = 32) (hc3 : k0_cond3 (grid0.coords t) = 1#1) (hc7 : k0_cond7 (grid0.coords t) = 1#1) (st : St F) (hI : Inv m c t.val st) :
    Inv m c (t.val + 1) { st with
      s3 := ((Rect.unit (s := S4096x128) (k0_off2 (grid0.coords t)) S256x128.size (k0_off2_inb (grid0.coords t) hc3)).overlay st.s3 (k0_pay6 st.u2 (b1B m c t) st.w2c)),
      u3 := k0_pay12 (View.ld st.a2c (Rect.unit (s := S4096x4096) (k0_off4 (grid0.coords t)) S256x4096.size (k0_off4_inb (grid0.coords t) hc7))) ((Rect.unit (s := S4096x128) (k0_off2 (grid0.coords t)) S256x128.size (k0_off2_inb (grid0.coords t) hc3)).overlay st.s3 (k0_pay6 st.u2 (b1B m c t) st.w2c)) } := by
  have h32 := h
  refine ⟨?_, ?_, ?_, ?_, ?_, ?_, ?_⟩
  · intro _; exact hI.consts (by omega)
  · intro h1' h2'; exact absurd h2' (by omega)
  · intro idx _; exact hI.s2 idx (by have := idx2_lt0 idx; omega)
  · intro h1' h2'; exact absurd h2' (by omega)
  · intro idx _; exact hI.a2c idx (by have := idx2_lt0 idx; omega)
  · intro idx hidx; dsimp only; exact s3_step m c t (by omega) (by omega) hc3 st hI idx hidx
  · intro h1' h2'
    dsimp only [U3]
    exact congrArg₂ k0_pay12
      ((ld_a2c m c t (by omega) (by omega) hc7 st hI).trans
        (congrArg (A2Cblk m c) (Fin.ext (by show t.val - 32 = t.val + 1 - 33; omega))))
      (funext fun idx => s3_step m c t (by omega) (by omega) hc3 st hI idx (by have := idx2_lt0 idx; omega))

theorem step_F (c : Dev nD) (t : Fin cfg0.N) (h1 : 33 ≤ t.val) (h2 : t.val ≤ 47) (hc7 : k0_cond7 (grid0.coords t) = 1#1) (st : St F) (hI : Inv m c t.val st) :
    Inv m c (t.val + 1) { st with
      u3 := k0_pay12 (View.ld st.a2c (Rect.unit (s := S4096x4096) (k0_off4 (grid0.coords t)) S256x4096.size (k0_off4_inb (grid0.coords t) hc7))) st.s3 } := by
  refine ⟨?_, ?_, ?_, ?_, ?_, ?_, ?_⟩
  · intro _; exact hI.consts (by omega)
  · intro h1' h2'; exact absurd h2' (by omega)
  · intro idx _; exact hI.s2 idx (by have := idx2_lt0 idx; omega)
  · intro h1' h2'; exact absurd h2' (by omega)
  · intro idx _; exact hI.a2c idx (by have := idx2_lt0 idx; omega)
  · intro idx _; exact hI.s3 idx (by have := idx2_lt0 idx; omega)
  · intro h1' h2'
    dsimp only [U3]
    exact congrArg₂ k0_pay12
      ((ld_a2c m c t (by omega) (by omega) hc7 st hI).trans
        (congrArg (A2Cblk m c) (Fin.ext (by show t.val - 32 = t.val + 1 - 33; omega))))
      (funext fun idx => hI.s3 idx (by have := idx2_lt0 idx; omega))

theorem step_G (c : Dev nD) (t : Fin cfg0.N) (h : t.val = 48) (st : St F) (hI : Inv m c t.val st) :
    Inv m c (t.val + 1) st := by
  have h48 := h
  refine ⟨?_, ?_, ?_, ?_, ?_, ?_, ?_⟩
  · intro _; exact hI.consts (by omega)
  · intro h1 h2; exact absurd h2 (by omega)
  · intro idx _; exact hI.s2 idx (by have := idx2_lt0 idx; omega)
  · intro h1 h2; exact absurd h2 (by omega)
  · intro idx _; exact hI.a2c idx (by have := idx2_lt0 idx; omega)
  · intro idx _; exact hI.s3 idx (by have := idx2_lt0 idx; omega)
  · intro h1 h2; exact absurd h2 (by omega)

/-- From point 33 on the scratch accumulator is layer 3's product for the block the point writes out, so the stored
    block is the output block. -/
theorem out_eq (c : Dev nD) (t : Fin cfg0.N) (h1 : 33 ≤ t.val) (st : St F) (hI : Inv m c t.val st) :
    k0_pay7 st.u3 (b2B m c t) = outAt m c t := by
  have h2 := lt49 t
  have hp : pt (33 + (t.val - 33)) (by omega) = t := Fin.ext (by show 33 + (t.val - 33) = t.val; omega)
  rw [hI.u3 h1 (by omega)]
  show _ = k0_pay7 (U3 m c ⟨t.val - 33, by omega⟩) (b2B m c (pt (33 + (t.val - 33)) (by omega)))
  rw [hp]

end Cert.KernelIdeal.Body

end
-- ==== Proof.Body.SoundD.lean ====
import proofs.«128992_g77695958385291_cont_9to1c4b_463_14_alg».proof.Proof.Body.RunD
import proofs.«128992_g77695958385291_cont_9to1c4b_463_14_alg».proof.Proof.Body.StepsDEFG

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 3200000 in
/-- The body obligation at grid points 17 to 31: layer 2's previous row block folded into the support S3, A2's row block cached, layer 2's accumulator for it: the invariant before the point hands the run the scratch
    buffers at a state satisfying it, the run leaves them at the case's next state, and that state satisfies the invariant
    before the next point. -/
theorem sound_D (c : Dev nD) (t : Fin cfg0.N) (h1 : 17 ≤ t.val) (h2 : t.val ≤ 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8,
    leaves0_9_idle m c t (by omega), owes_succ, Phi_castSucc, Phi_succ]
  unfold PhiS ownsSt
  iintro ⟨⟨⟨%st, %hI, Ha2c, Hxc, Hw3c, Hw1c, Hw2c, Hs2, Hs3, Hu1, Hu2, Hu3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := fun hh => (show False by have := (hcond1 t).mp hh; omega)
  have hc2 := fun hh => (show False by have := (hcond2 t).mp hh; omega)
  have hc3 := (hcond3 t).mpr (by first | omega | exact ⟨by omega, by omega⟩)
  have hc4 := fun hh => (show False by have := (hcond4 t).mp hh; omega)
  have hc5 := fun hh => (show False by have := (hcond5 t).mp hh; omega)
  have hc6 := (hcond6 t).mpr (by first | omega | exact ⟨by omega, by omega⟩)
  have hc7 := fun hh => (show False by have := (hcond7 t).mp hh; omega)
  iapply (runD c (grid0.coords t) _ _ _ _ _ _ _ _ _ _ _ _ _ _ _ _ _ _ _ _ _ _ _ _ _ _ _ _ _ _ _ _ _ _ _ _ _ _ _ _
    hc1 hc2 hc3 hc4 hc5 hc6 hc7
    (b1B m c t) (a2B m c t) st.w2c st.s2 st.s3 st.a2c st.u2 Set.univ _)
  isplitl [H6]; · iexact H6
  isplitl [H1]; · iexact H1
  isplitl [Hw2c]; · iexact Hw2c
  isplitl [Hs2]; · iexact Hs2
  isplitl [Hs3]; · iexact Hs3
  isplitl [Ha2c]; · iexact Ha2c
  isplitl [Hu2]; · iexact Hu2
  iintro ⟨H6, H1, Hw2c, Hs2, Hs3, Ha2c, Hu2⟩
  isplitl [Ha2c Hxc Hw3c Hw1c Hw2c Hs2 Hs3 Hu1 Hu2 Hu3 Hg]
  · isplitr [Hg]
    · iexists ({ st with
      s3 := ((Rect.unit (s := S4096x128) (k0_off2 (grid0.coords t)) S256x128.size (k0_off2_inb (grid0.coords t) hc3)).overlay st.s3 (k0_pay6 st.u2 (b1B m c t) st.w2c)),
      a2c := ((Rect.unit (s := S4096x4096) (k0_off3 (grid0.coords t)) S256x4096.size (k0_off3_inb (grid0.coords t) hc6)).overlay st.a2c (k0_pay10 (a2B m c t))),
      u2 := k0_pay11 (a2B m c t) st.s2 } : St F)
      isplitr
      · ipureintro; exact step_D m c t h1 h2 hc3 hc6 st hI
      isplitl [Ha2c]; · iexact Ha2c
      isplitl [Hxc]; · iexact Hxc
      isplitl [Hw3c]; · iexact Hw3c
      isplitl [Hw1c]; · iexact Hw1c
      isplitl [Hw2c]; · iexact Hw2c
      isplitl [Hs2]; · iexact Hs2
      isplitl [Hs3]; · iexact Hs3
      isplitl [Hu1]; · iexact Hu1
      isplitl [Hu2]; · iexact Hu2
      iexact Hu3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.KernelIdeal.Body

end
-- ==== Proof.Body.RunE.lean ====
import proofs.«128992_g77695958385291_cont_9to1c4b_463_14_alg».proof.Proof.Body.Defs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

instance : ClosedOff (k0_off2 (grid0.coords (pt 32 (by omega)))) := ⟨![3840, 0], by decide +kernel⟩
instance : ClosedOff (k0_off4 (grid0.coords (pt 32 (by omega)))) := ⟨![0, 0], by decide +kernel⟩
set_option maxHeartbeats 1600000 in
/-- The body in the control case of point 32: finish layer 2's last row block into S3, layer 3's accumulator for row block 0 from the cache over the now complete S3: on whole memrefs at the contents named, it runs to the
    continuation with each buffer it stores into at the contents the stores leave (a row-block store: the old contents
    with that block replaced), the others as they were. -/
theorem runE (c : Dev nD) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S4096x4096 .bf16) (harg11 : arg11.IsWhole) (arg12 : Memref sig .tc .vmem S4096x128 .bf16) (harg12 : arg12.IsWhole) (arg13 : Memref sig .tc .vmem S128x512 .bf16) (harg13 : arg13.IsWhole) (arg14 : Memref sig .tc .vmem S512x256 .bf16) (harg14 : arg14.IsWhole) (arg15 : Memref sig .tc .vmem S256x128 .bf16) (harg15 : arg15.IsWhole) (arg16 : Memref sig .tc .vmem S4096x256 .bf16) (harg16 : arg16.IsWhole) (arg17 : Memref sig .tc .vmem S4096x128 .bf16) (harg17 : arg17.IsWhole) (arg18 : Memref sig .tc .vmem S256x512 .f32) (harg18 : arg18.IsWhole) (arg19 : Memref sig .tc .vmem S256x256 .f32) (harg19 : arg19.IsWhole) (arg20 : Memref sig .tc .vmem S256x128 .f32) (harg20 : arg20.IsWhole)
    (hc1 : ¬ (Scalar.cmpi .ne (Scalar.extui (Scalar.cmpi .eq (BitVec.ofNat 32 ((grid0.coords (pt 32 (by omega))) 0).val) 0#32)) 0#32) = 1#1) (hc2 : ¬ k0_cond2 (grid0.coords (pt 32 (by omega))) = 1#1) (hc3 : k0_cond3 (grid0.coords (pt 32 (by omega))) = 1#1) (hc4 : ¬ k0_cond4 (grid0.coords (pt 32 (by omega))) = 1#1) (hc5 : ¬ (Scalar.cmpi .ne (Scalar.extui (Scalar.cmpi .slt (BitVec.ofNat 32 ((grid0.coords (pt 32 (by omega))) 0).val) 16#32)) 0#32) = 1#1) (hc6 : ¬ k0_cond6 (grid0.coords (pt 32 (by omega))) = 1#1) (hc7 : k0_cond7 (grid0.coords (pt 32 (by omega))) = 1#1)
    (x7 : Vec F S1x256 .f32) (x15 : Vec F S256x128 .bf16) (x19 : Vec F S256x256 .f32) (x11 : Vec F S4096x4096 .bf16) (x17 : Vec F S4096x128 .bf16) (x20 : Vec F S256x128 .f32)
    (E : Set ℕ) (K : PUnit → sProp 𝕄) :
    iprop(owns (c : Thread nD τ) arg7 fullShare x7 ∗ owns (c : Thread nD τ) arg15 fullShare x15 ∗ owns (c : Thread nD τ) arg19 fullShare x19 ∗ owns (c : Thread nD τ) arg11 fullShare x11 ∗ owns (c : Thread nD τ) arg17 fullShare x17 ∗ owns (c : Thread nD τ) arg20 fullShare x20
      ∗ (iprop(owns (c : Thread nD τ) arg7 fullShare x7 ∗ owns (c : Thread nD τ) arg15 fullShare x15 ∗ owns (c : Thread nD τ) arg19 fullShare x19 ∗ owns (c : Thread nD τ) arg11 fullShare x11 ∗ owns (c : Thread nD τ) arg17 fullShare ((Rect.unit (s := S4096x128) (k0_off2 (grid0.coords (pt 32 (by omega)))) S256x128.size (k0_off2_inb (grid0.coords (pt 32 (by omega))) hc3)).overlay x17 (k0_pay6 x19 x7 x15)) ∗ owns (c : Thread nD τ) arg20 fullShare (k0_pay12 (View.ld x11 (Rect.unit (s := S4096x4096) (k0_off4 (grid0.coords (pt 32 (by omega)))) S256x4096.size (k0_off4_inb (grid0.coords (pt 32 (by omega))) hc7))) ((Rect.unit (s := S4096x128) (k0_off2 (grid0.coords (pt 32 (by omega)))) S256x128.size (k0_off2_inb (grid0.coords (pt 32 (by omega))) hc3)).overlay x17 (k0_pay6 x19 x7 x15)))) -∗ K ⟨⟩))
    ⊢ wp frame (wpE (defs₀ (F := F)) Variants.none c none) E (cc0__gcn_kernel (grid0.coords (pt 32 (by omega))) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_kernel_eq_skeleton]; unfold cc0__gcn_kernel_skel
  unfold owns
  iintro ⟨⟨%f7, %hf7, H7⟩, ⟨%f15, %hf15, H15⟩, ⟨%f19, %hf19, H19⟩, ⟨%f11, %hf11, H11⟩, ⟨%f17, %hf17, H17⟩, ⟨%f20, %hf20, H20⟩, Hk⟩
  obtain rfl := harg7.eq_unread hf7; obtain rfl := harg15.eq_unread hf15; obtain rfl := harg19.eq_unread hf19; obtain rfl := harg11.eq_unread hf11; obtain rfl := harg17.eq_unread hf17; obtain rfl := harg20.eq_unread hf20
  sl_exec (disch := first | exact hc1 | exact hc2 | exact hc3 | exact hc4 | exact hc5 | exact hc6 | exact hc7)
  sl_step
  iapply Hk
  isplitl [H7]
  · iexists _; isplitr
    swap; · iexact H7
    ipureintro; exact harg7.read_unread _
  isplitl [H15]
  · iexists _; isplitr
    swap; · iexact H15
    ipureintro; exact harg15.read_unread _
  isplitl [H19]
  · iexists _; isplitr
    swap; · iexact H19
    ipureintro; exact harg19.read_unread _
  isplitl [H11]
  · iexists _; isplitr
    swap; · iexact H11
    ipureintro; exact harg11.read_unread _
  isplitl [H17]
  · iexists _; isplitr
    swap; · iexact H17
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  iexists _; isplitr
  swap; · iexact H20
  ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]

end Cert.KernelIdeal.Body

end
-- ==== Proof.Body.SoundE.lean ====
import proofs.«128992_g77695958385291_cont_9to1c4b_463_14_alg».proof.Proof.Body.RunE
import proofs.«128992_g77695958385291_cont_9to1c4b_463_14_alg».proof.Proof.Body.StepsDEFG

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 3200000 in
/-- The body obligation at grid point 32: layer 2's last row block folded into S3, layer 3's accumulator for row block 0 from the cache: the invariant before the point hands the run the scratch
    buffers at a state satisfying it, the run leaves them at the case's next state, and that state satisfies the invariant
    before the next point. -/
theorem sound_E (c : Dev nD) (t : Fin cfg0.N) (h : t.val = 32) :
    bodyPre m c t ⊢ wp frame (wpE (defs₀ (F := F)) Variants.none c none) Set.univ (bodyAt0 t) (fun _ => bodyPost m c t) := by
  obtain rfl : t = pt 32 (by decide) := Fin.ext h
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8,
    leaves0_9_idle m c (pt 32 (by decide)) (by decide), owes_succ, Phi_castSucc, Phi_succ]
  unfold PhiS ownsSt
  iintro ⟨⟨⟨%st, %hI, Ha2c, Hxc, Hw3c, Hw1c, Hw2c, Hs2, Hs3, Hu1, Hu2, Hu3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := fun hh => (show False from absurd ((hcond1 (pt 32 (by decide))).mp hh) (by decide))
  have hc2 := fun hh => (show False from absurd ((hcond2 (pt 32 (by decide))).mp hh) (by decide))
  have hc3 := (hcond3 (pt 32 (by decide))).mpr (by decide)
  have hc4 := fun hh => (show False from absurd ((hcond4 (pt 32 (by decide))).mp hh) (by decide))
  have hc5 := fun hh => (show False from absurd ((hcond5 (pt 32 (by decide))).mp hh) (by decide))
  have hc6 := fun hh => (show False from absurd ((hcond6 (pt 32 (by decide))).mp hh) (by decide))
  have hc7 := (hcond7 (pt 32 (by decide))).mpr (by decide)
  iapply (runE c _ _ _ _ _ _ _ _ _ _ _ _ _ _ _ _ _ _ _ _ _ _ _ _ _ _ _ _ _ _ _ _ _ _ _ _ _ _ _ _
    hc1 hc2 hc3 hc4 hc5 hc6 hc7
    (b1B m c (pt 32 (by decide))) st.w2c st.u2 st.a2c st.s3 st.u3 Set.univ _)
  isplitl [H6]; · iexact H6
  isplitl [Hw2c]; · iexact Hw2c
  isplitl [Hu2]; · iexact Hu2
  isplitl [Ha2c]; · iexact Ha2c
  isplitl [Hs3]; · iexact Hs3
  isplitl [Hu3]; · iexact Hu3
  iintro ⟨H6, Hw2c, Hu2, Ha2c, Hs3, Hu3⟩
  isplitl [Ha2c Hxc Hw3c Hw1c Hw2c Hs2 Hs3 Hu1 Hu2 Hu3 Hg]
  · isplitr [Hg]
    · iexists ({ st with
      s3 := ((Rect.unit (s := S4096x128) (k0_off2 (grid0.coords (pt 32 (by decide)))) S256x128.size (k0_off2_inb (grid0.coords (pt 32 (by decide))) hc3)).overlay st.s3 (k0_pay6 st.u2 (b1B m c (pt 32 (by decide))) st.w2c)),
      u3 := k0_pay12 (View.ld st.a2c (Rect.unit (s := S4096x4096) (k0_off4 (grid0.coords (pt 32 (by decide)))) S256x4096.size (k0_off4_inb (grid0.coords (pt 32 (by decide))) hc7))) ((Rect.unit (s := S4096x128) (k0_off2 (grid0.coords (pt 32 (by decide)))) S256x128.size (k0_off2_inb (grid0.coords (pt 32 (by decide))) hc3)).overlay st.s3 (k0_pay6 st.u2 (b1B m c (pt 32 (by decide))) st.w2c)) } : St F)
      isplitr
      · ipureintro; exact step_E m c (pt 32 (by decide)) rfl hc3 hc7 st hI
      isplitl [Ha2c]; · iexact Ha2c
      isplitl [Hxc]; · iexact Hxc
      isplitl [Hw3c]; · iexact Hw3c
      isplitl [Hw1c]; · iexact Hw1c
      isplitl [Hw2c]; · iexact Hw2c
      isplitl [Hs2]; · iexact Hs2
      isplitl [Hs3]; · iexact Hs3
      isplitl [Hu1]; · iexact Hu1
      isplitl [Hu2]; · iexact Hu2
      iexact Hu3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.KernelIdeal.Body

end
-- ==== Proof.Body.RunF.lean ====
import proofs.«128992_g77695958385291_cont_9to1c4b_463_14_alg».proof.Proof.Body.Defs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
/-- The body in the control case of points 33 to 47: write layer 3's previous row block out, layer 3's accumulator for this block: on whole memrefs at the contents named, it runs to the
    continuation with each buffer it stores into at the contents the stores leave (a row-block store: the old contents
    with that block replaced), the others as they were. -/
theorem runF (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S4096x4096 .bf16) (harg11 : arg11.IsWhole) (arg12 : Memref sig .tc .vmem S4096x128 .bf16) (harg12 : arg12.IsWhole) (arg13 : Memref sig .tc .vmem S128x512 .bf16) (harg13 : arg13.IsWhole) (arg14 : Memref sig .tc .vmem S512x256 .bf16) (harg14 : arg14.IsWhole) (arg15 : Memref sig .tc .vmem S256x128 .bf16) (harg15 : arg15.IsWhole) (arg16 : Memref sig .tc .vmem S4096x256 .bf16) (harg16 : arg16.IsWhole) (arg17 : Memref sig .tc .vmem S4096x128 .bf16) (harg17 : arg17.IsWhole) (arg18 : Memref sig .tc .vmem S256x512 .f32) (harg18 : arg18.IsWhole) (arg19 : Memref sig .tc .vmem S256x256 .f32) (harg19 : arg19.IsWhole) (arg20 : Memref sig .tc .vmem S256x128 .f32) (harg20 : arg20.IsWhole)
    (hc1 : ¬ (Scalar.cmpi .ne (Scalar.extui (Scalar.cmpi .eq (BitVec.ofNat 32 (i 0).val) 0#32)) 0#32) = 1#1) (hc2 : ¬ k0_cond2 i = 1#1) (hc3 : ¬ k0_cond3 i = 1#1) (hc4 : k0_cond4 i = 1#1) (hc5 : ¬ (Scalar.cmpi .ne (Scalar.extui (Scalar.cmpi .slt (BitVec.ofNat 32 (i 0).val) 16#32)) 0#32) = 1#1) (hc6 : ¬ k0_cond6 i = 1#1) (hc7 : k0_cond7 i = 1#1)
    (x9 : Vec F S1x128 .f32) (x11 : Vec F S4096x4096 .bf16) (x17 : Vec F S4096x128 .bf16) (x10 : Vec F S256x128 .f32) (x20 : Vec F S256x128 .f32)
    (E : Set ℕ) (K : PUnit → sProp 𝕄) :
    iprop(owns (c : Thread nD τ) arg9 fullShare x9 ∗ owns (c : Thread nD τ) arg11 fullShare x11 ∗ owns (c : Thread nD τ) arg17 fullShare x17 ∗ owns (c : Thread nD τ) arg10 fullShare x10 ∗ owns (c : Thread nD τ) arg20 fullShare x20
      ∗ (iprop(owns (c : Thread nD τ) arg9 fullShare x9 ∗ owns (c : Thread nD τ) arg11 fullShare x11 ∗ owns (c : Thread nD τ) arg17 fullShare x17 ∗ owns (c : Thread nD τ) arg10 fullShare (k0_pay7 x20 x9) ∗ owns (c : Thread nD τ) arg20 fullShare (k0_pay12 (View.ld x11 (Rect.unit (s := S4096x4096) (k0_off4 i) S256x4096.size (k0_off4_inb i hc7))) x17)) -∗ K ⟨⟩))
    ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_kernel_eq_skeleton]; unfold cc0__gcn_kernel_skel
  unfold owns
  iintro ⟨⟨%f9, %hf9, H9⟩, ⟨%f11, %hf11, H11⟩, ⟨%f17, %hf17, H17⟩, ⟨%f10, %hf10, H10⟩, ⟨%f20, %hf20, H20⟩, Hk⟩
  obtain rfl := harg9.eq_unread hf9; obtain rfl := harg11.eq_unread hf11; obtain rfl := harg17.eq_unread hf17; obtain rfl := harg10.eq_unread hf10; obtain rfl := harg20.eq_unread hf20
  sl_exec (disch := first | exact hc1 | exact hc2 | exact hc3 | exact hc4 | exact hc5 | exact hc6 | exact hc7)
  sl_step
  iapply Hk
  isplitl [H9]
  · iexists _; isplitr
    swap; · iexact H9
    ipureintro; exact harg9.read_unread _
  isplitl [H11]
  · iexists _; isplitr
    swap; · iexact H11
    ipureintro; exact harg11.read_unread _
  isplitl [H17]
  · iexists _; isplitr
    swap; · iexact H17
    ipureintro; exact harg17.read_unread _
  isplitl [H10]
  · iexists _; isplitr
    swap; · iexact H10
    ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]
  iexists _; isplitr
  swap; · iexact H20
  ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]

end Cert.KernelIdeal.Body

end
-- ==== Proof.Body.SoundF.lean ====
import proofs.«128992_g77695958385291_cont_9to1c4b_463_14_alg».proof.Proof.Body.RunF
import proofs.«128992_g77695958385291_cont_9to1c4b_463_14_alg».proof.Proof.Body.StepsDEFG

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 3200000 in
/-- The body obligation at grid points 33 to 47: layer 3's previous row block written out, the accumulator for this block: the invariant before the point hands the run the scratch
    buffers at a state satisfying it, the run leaves them at the case's next state, and that state satisfies the invariant
    before the next point. -/
theorem sound_F (c : Dev nD) (t : Fin cfg0.N) (h1 : 33 ≤ t.val) (h2 : t.val ≤ 47) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8,
    leaves0_9_live m c t (by omega), owes_succ, Phi_castSucc, Phi_succ]
  unfold PhiS ownsSt
  iintro ⟨⟨⟨%st, %hI, Ha2c, Hxc, Hw3c, Hw1c, Hw2c, Hs2, Hs3, Hu1, Hu2, Hu3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := fun hh => (show False by have := (hcond1 t).mp hh; omega)
  have hc2 := fun hh => (show False by have := (hcond2 t).mp hh; omega)
  have hc3 := fun hh => (show False by have := (hcond3 t).mp hh; omega)
  have hc4 := (hcond4 t).mpr (by first | omega | exact ⟨by omega, by omega⟩)
  have hc5 := fun hh => (show False by have := (hcond5 t).mp hh; omega)
  have hc6 := fun hh => (show False by have := (hcond6 t).mp hh; omega)
  have hc7 := (hcond7 t).mpr (by first | omega | exact ⟨by omega, by omega⟩)
  iapply (runF c (grid0.coords t) _ _ _ _ _ _ _ _ _ _ _ _ _ _ _ _ _ _ _ _ _ _ _ _ _ _ _ _ _ _ _ _ _ _ _ _ _ _ _ _
    hc1 hc2 hc3 hc4 hc5 hc6 hc7
    (b2B m c t) st.a2c st.s3 ((dats m 0 c).before 9 t d9) st.u3 Set.univ _)
  isplitl [H8]; · iexact H8
  isplitl [Ha2c]; · iexact Ha2c
  isplitl [Hs3]; · iexact Hs3
  isplitl [H9]; · iexact H9
  isplitl [Hu3]; · iexact Hu3
  iintro ⟨H8, Ha2c, Hs3, H9, Hu3⟩
  isplitl [Ha2c Hxc Hw3c Hw1c Hw2c Hs2 Hs3 Hu1 Hu2 Hu3 Hg]
  · isplitr [Hg]
    · iexists ({ st with
      u3 := k0_pay12 (View.ld st.a2c (Rect.unit (s := S4096x4096) (k0_off4 (grid0.coords t)) S256x4096.size (k0_off4_inb (grid0.coords t) hc7))) st.s3 } : St F)
      isplitr
      · ipureintro; exact step_F m c t h1 h2 hc7 st hI
      isplitl [Ha2c]; · iexact Ha2c
      isplitl [Hxc]; · iexact Hxc
      isplitl [Hw3c]; · iexact Hw3c
      isplitl [Hw1c]; · iexact Hw1c
      isplitl [Hw2c]; · iexact Hw2c
      isplitl [Hs2]; · iexact Hs2
      isplitl [Hs3]; · iexact Hs3
      isplitl [Hu1]; · iexact Hu1
      isplitl [Hu2]; · iexact Hu2
      iexact Hu3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [← out_eq m c t (by omega) st hI]
  iexact H9

end Cert.KernelIdeal.Body

end
-- ==== Proof.Body.RunG.lean ====
import proofs.«128992_g77695958385291_cont_9to1c4b_463_14_alg».proof.Proof.Body.Defs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
/-- The body in the control case of the last point: write layer 3's last row block out: on whole memrefs at the contents named, it runs to the
    continuation with each buffer it stores into at the contents the stores leave (a row-block store: the old contents
    with that block replaced), the others as they were. -/
theorem runG (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S4096x4096 .bf16) (harg11 : arg11.IsWhole) (arg12 : Memref sig .tc .vmem S4096x128 .bf16) (harg12 : arg12.IsWhole) (arg13 : Memref sig .tc .vmem S128x512 .bf16) (harg13 : arg13.IsWhole) (arg14 : Memref sig .tc .vmem S512x256 .bf16) (harg14 : arg14.IsWhole) (arg15 : Memref sig .tc .vmem S256x128 .bf16) (harg15 : arg15.IsWhole) (arg16 : Memref sig .tc .vmem S4096x256 .bf16) (harg16 : arg16.IsWhole) (arg17 : Memref sig .tc .vmem S4096x128 .bf16) (harg17 : arg17.IsWhole) (arg18 : Memref sig .tc .vmem S256x512 .f32) (harg18 : arg18.IsWhole) (arg19 : Memref sig .tc .vmem S256x256 .f32) (harg19 : arg19.IsWhole) (arg20 : Memref sig .tc .vmem S256x128 .f32) (harg20 : arg20.IsWhole)
    (hc1 : ¬ (Scalar.cmpi .ne (Scalar.extui (Scalar.cmpi .eq (BitVec.ofNat 32 (i 0).val) 0#32)) 0#32) = 1#1) (hc2 : ¬ k0_cond2 i = 1#1) (hc3 : ¬ k0_cond3 i = 1#1) (hc4 : k0_cond4 i = 1#1) (hc5 : ¬ (Scalar.cmpi .ne (Scalar.extui (Scalar.cmpi .slt (BitVec.ofNat 32 (i 0).val) 16#32)) 0#32) = 1#1) (hc6 : ¬ k0_cond6 i = 1#1) (hc7 : ¬ k0_cond7 i = 1#1)
    (x9 : Vec F S1x128 .f32) (x20 : Vec F S256x128 .f32) (x10 : Vec F S256x128 .f32)
    (E : Set ℕ) (K : PUnit → sProp 𝕄) :
    iprop(owns (c : Thread nD τ) arg9 fullShare x9 ∗ owns (c : Thread nD τ) arg20 fullShare x20 ∗ owns (c : Thread nD τ) arg10 fullShare x10
      ∗ (iprop(owns (c : Thread nD τ) arg9 fullShare x9 ∗ owns (c : Thread nD τ) arg20 fullShare x20 ∗ owns (c : Thread nD τ) arg10 fullShare (k0_pay7 x20 x9)) -∗ K ⟨⟩))
    ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__gcn_kernel_eq_skeleton]; unfold cc0__gcn_kernel_skel
  unfold owns
  iintro ⟨⟨%f9, %hf9, H9⟩, ⟨%f20, %hf20, H20⟩, ⟨%f10, %hf10, H10⟩, Hk⟩
  obtain rfl := harg9.eq_unread hf9; obtain rfl := harg20.eq_unread hf20; obtain rfl := harg10.eq_unread hf10
  sl_exec (disch := first | exact hc1 | exact hc2 | exact hc3 | exact hc4 | exact hc5 | exact hc6 | exact hc7)
  sl_step
  iapply Hk
  isplitl [H9]
  · iexists _; isplitr
    swap; · iexact H9
    ipureintro; exact harg9.read_unread _
  isplitl [H20]
  · iexists _; isplitr
    swap; · iexact H20
    ipureintro; exact harg20.read_unread _
  iexists _; isplitr
  swap; · iexact H10
  ipureintro; sl_unfold_words; simp only [View.read_writes_single, View.readAt_eq_ld, Memref.IsWhole.read_unread, View.readCov_cons_toLoadRect, Rect.overlay_unit_zero (s := S256x4096) Rect.zero2, View.ld_unit_zero (S := S256x4096) Rect.zero2, Rect.overlay_unit_zero (s := S4096x128) Rect.zero2, View.ld_unit_zero (S := S4096x128) Rect.zero2, Rect.overlay_unit_zero (s := S128x512) Rect.zero2, View.ld_unit_zero (S := S128x512) Rect.zero2, Rect.overlay_unit_zero (s := S1x512) Rect.zero2, View.ld_unit_zero (S := S1x512) Rect.zero2, Rect.overlay_unit_zero (s := S512x256) Rect.zero2, View.ld_unit_zero (S := S512x256) Rect.zero2, Rect.overlay_unit_zero (s := S1x256) Rect.zero2, View.ld_unit_zero (S := S1x256) Rect.zero2, Rect.overlay_unit_zero (s := S256x128) Rect.zero2, View.ld_unit_zero (S := S256x128) Rect.zero2, Rect.overlay_unit_zero (s := S1x128) Rect.zero2, View.ld_unit_zero (S := S1x128) Rect.zero2, Rect.overlay_unit_zero (s := S4096x4096) Rect.zero2, View.ld_unit_zero (S := S4096x4096) Rect.zero2, Rect.overlay_unit_zero (s := S4096x256) Rect.zero2, View.ld_unit_zero (S := S4096x256) Rect.zero2, Rect.overlay_unit_zero (s := S256x512) Rect.zero2, View.ld_unit_zero (S := S256x512) Rect.zero2, Rect.overlay_unit_zero (s := S256x256) Rect.zero2, View.ld_unit_zero (S := S256x256) Rect.zero2]

end Cert.KernelIdeal.Body

end
-- ==== Proof.Body.SoundG.lean ====
import proofs.«128992_g77695958385291_cont_9to1c4b_463_14_alg».proof.Proof.Body.RunG
import proofs.«128992_g77695958385291_cont_9to1c4b_463_14_alg».proof.Proof.Body.StepsDEFG

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 3200000 in
/-- The body obligation at the last grid point (48): layer 3's last row block written out: the invariant before the point hands the run the scratch
    buffers at a state satisfying it, the run leaves them at the case's next state, and that state satisfies the invariant
    before the next point. -/
theorem sound_G (c : Dev nD) (t : Fin cfg0.N) (h : t.val = 48) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8,
    leaves0_9_live m c t (by omega), owes_succ, Phi_castSucc, Phi_succ]
  unfold PhiS ownsSt
  iintro ⟨⟨⟨%st, %hI, Ha2c, Hxc, Hw3c, Hw1c, Hw2c, Hs2, Hs3, Hu1, Hu2, Hu3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := fun hh => (show False by have := (hcond1 t).mp hh; omega)
  have hc2 := fun hh => (show False by have := (hcond2 t).mp hh; omega)
  have hc3 := fun hh => (show False by have := (hcond3 t).mp hh; omega)
  have hc4 := (hcond4 t).mpr (by first | omega | exact ⟨by omega, by omega⟩)
  have hc5 := fun hh => (show False by have := (hcond5 t).mp hh; omega)
  have hc6 := fun hh => (show False by have := (hcond6 t).mp hh; omega)
  have hc7 := fun hh => (show False by have := (hcond7 t).mp hh; omega)
  iapply (runG c (grid0.coords t) _ _ _ _ _ _ _ _ _ _ _ _ _ _ _ _ _ _ _ _ _ _ _ _ _ _ _ _ _ _ _ _ _ _ _ _ _ _ _ _
    hc1 hc2 hc3 hc4 hc5 hc6 hc7
    (b2B m c t) st.u3 ((dats m 0 c).before 9 t d9) Set.univ _)
  isplitl [H8]; · iexact H8
  isplitl [Hu3]; · iexact Hu3
  isplitl [H9]; · iexact H9
  iintro ⟨H8, Hu3, H9⟩
  isplitl [Ha2c Hxc Hw3c Hw1c Hw2c Hs2 Hs3 Hu1 Hu2 Hu3 Hg]
  · isplitr [Hg]
    · iexists (st : St F)
      isplitr
      · ipureintro; exact step_G m c t h st hI
      isplitl [Ha2c]; · iexact Ha2c
      isplitl [Hxc]; · iexact Hxc
      isplitl [Hw3c]; · iexact Hw3c
      isplitl [Hw1c]; · iexact Hw1c
      isplitl [Hw2c]; · iexact Hw2c
      isplitl [Hs2]; · iexact Hs2
      isplitl [Hs3]; · iexact Hs3
      isplitl [Hu1]; · iexact Hu1
      isplitl [Hu2]; · iexact Hu2
      iexact Hu3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [← out_eq m c t (by omega) st hI]
  iexact H9

end Cert.KernelIdeal.Body

end
-- ==== Proof.Body.Run.lean ====
/-
  The frame of the fused kernel: the body obligation at every grid point (by the control case the point is in),
  the run of the whole program with the proof data's arrays named, and the frame claim — every execution ends, no
  fault, the nine argument arrays unchanged.
-/
import proofs.«128992_g77695958385291_cont_9to1c4b_463_14_alg».proof.Proof.Body.SoundA
import proofs.«128992_g77695958385291_cont_9to1c4b_463_14_alg».proof.Proof.Body.SoundB
import proofs.«128992_g77695958385291_cont_9to1c4b_463_14_alg».proof.Proof.Body.SoundC
import proofs.«128992_g77695958385291_cont_9to1c4b_463_14_alg».proof.Proof.Body.SoundD
import proofs.«128992_g77695958385291_cont_9to1c4b_463_14_alg».proof.Proof.Body.SoundE
import proofs.«128992_g77695958385291_cont_9to1c4b_463_14_alg».proof.Proof.Body.SoundF
import proofs.«128992_g77695958385291_cont_9to1c4b_463_14_alg».proof.Proof.Body.SoundG

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the point's number says which of the seven control cases it is in. -/
theorem sound_body (c : Dev nD) (t : Fin cfg0.N) :
    bodyPre m c t ⊢ wp frame (wpE (defs₀ (F := F)) Variants.none c none) Set.univ (bodyAt0 t) (fun _ => bodyPost m c t) := by
  have hN := lt49 t
  rcases Nat.lt_or_ge t.val 1 with h0 | h0
  · exact sound_A m c t (by omega)
  rcases Nat.lt_or_ge t.val 16 with h1 | h1
  · exact sound_B m c t h0 (by omega)
  rcases Nat.lt_or_ge t.val 17 with h2 | h2
  · exact sound_C m c t (by omega)
  rcases Nat.lt_or_ge t.val 32 with h3 | h3
  · exact sound_D m c t h2 (by omega)
  rcases Nat.lt_or_ge t.val 33 with h4 | h4
  · exact sound_E m c t (by omega)
  rcases Nat.lt_or_ge t.val 48 with h5 | h5
  · exact sound_F m c t h4 (by omega)
  · exact sound_G m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and every final state has each array of the pipeline at
    what the proof data compute (the output array: the row blocks written back) and every other buffer as the region
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Body

end
-- ==== Proof.Value.Spec.lean ====
/-
  The three stacked graph-convolution layers as functions of the nine input arrays, over the extended reals:
  a layer is out = relu(a · (h · W) + b). The kernel propagates layer 1 first, relu((adj · x) · W3 + b3); the
  reference multiplies by the weights first, relu(adj · (x · W3) + b3). On finite entries the two products agree
  (matrix multiplication associates over the reals), and the later layers are the same expression of layer 1's result.
-/
import Idealize.ShloMosaic.PureOps.Ideal
import Idealize.ShloMosaic.Lib.ValueIdx

noncomputable section

namespace Cert.Gcn

open scoped BigOperators
open Idealize.ShloMosaic Idealize.ShloMosaic.ValueIdx

/-- A two-axis array of extended reals as a matrix, and a one-axis array as a row. -/
def arr2 {n p : ℕ} (X : (⟨2, ![n, p]⟩ : Shape).Idx → EReal) : Fin n → Fin p → EReal := fun i j => X (ix2 i j)
def arr1 {n : ℕ} (X : (⟨1, ![n]⟩ : Shape).Idx → EReal) : Fin n → EReal := fun i => X (ix1 i)

/-- A matrix product over the extended reals. -/
def mm {n k p : ℕ} (a : Fin n → Fin k → EReal) (b : Fin k → Fin p → EReal) (i : Fin n) (j : Fin p) : EReal :=
  ∑ l : Fin k, a i l * b l j

/-- Add a bias row and clamp below at zero. -/
def biasRelu {n p : ℕ} (u : Fin n → Fin p → EReal) (b : Fin p → EReal) (i : Fin n) (j : Fin p) : EReal :=
  max (u i j + b j) 0

/-- Every entry is a real number. -/
def Finite2 {n p : ℕ} (a : Fin n → Fin p → EReal) : Prop := ∀ i j, ∃ r : ℝ, a i j = (r : EReal)

/-- The network with layer 1 propagated before it is projected (the kernel's order of the two products). -/
def netK {N c f h : ℕ} (adj a2 : Fin N → Fin N → EReal) (x : Fin N → Fin c → EReal) (w3 : Fin c → Fin f → EReal)
    (b3 : Fin f → EReal) (w1 : Fin f → Fin h → EReal) (b1 : Fin h → EReal) (w2 : Fin h → Fin c → EReal)
    (b2 : Fin c → EReal) : Fin N → Fin c → EReal :=
  biasRelu (mm a2 (mm (biasRelu (mm a2 (mm (biasRelu (mm (mm adj x) w3) b3) w1)) b1) w2)) b2

/-- The network as the reference writes it: project, then propagate. -/
def netR {N c f h : ℕ} (adj a2 : Fin N → Fin N → EReal) (x : Fin N → Fin c → EReal) (w3 : Fin c → Fin f → EReal)
    (b3 : Fin f → EReal) (w1 : Fin f → Fin h → EReal) (b1 : Fin h → EReal) (w2 : Fin h → Fin c → EReal)
    (b2 : Fin c → EReal) : Fin N → Fin c → EReal :=
  biasRelu (mm a2 (mm (biasRelu (mm a2 (mm (biasRelu (mm adj (mm x w3)) b3) w1)) b1) w2)) b2

/-- On finite entries the matrix product associates. -/
theorem mm_assoc {n k p q : ℕ} (a : Fin n → Fin k → EReal) (b : Fin k → Fin p → EReal) (c : Fin p → Fin q → EReal)
    (ha : Finite2 a) (hb : Finite2 b) (hc : Finite2 c) : mm (mm a b) c = mm a (mm b c) := by
  classical
  -- the coercion of the reals into the extended reals commutes with finite sums
  have coe_sum : ∀ {ι : Type} (s : Finset ι) (f : ι → ℝ),
      ((∑ x ∈ s, f x : ℝ) : EReal) = ∑ x ∈ s, (f x : EReal) := by
    intro ι s f
    induction s using Finset.induction_on with
    | empty => simp
    | insert x s hx ih => rw [Finset.sum_insert hx, Finset.sum_insert hx, EReal.coe_add, ih]
  -- name the real entries
  choose ra hra using ha
  choose rb hrb using hb
  choose rc hrc using hc
  funext i j
  simp only [mm, hra, hrb, hrc]
  -- both sides are coercions of real double sums
  simp only [← EReal.coe_mul, ← coe_sum]
  congr 1
  -- in the reals: distribute, swap the two sums, reassociate each term
  simp only [Finset.sum_mul, Finset.mul_sum]
  rw [Finset.sum_comm]
  refine Finset.sum_congr rfl fun m _ => Finset.sum_congr rfl fun l _ => ?_
  exact mul_assoc _ _ _

/-- So on finite adjacency, features and first weights the two networks are one function. -/
theorem netK_eq_netR {N c f h : ℕ} (adj a2 : Fin N → Fin N → EReal) (x : Fin N → Fin c → EReal) (w3 : Fin c → Fin f → EReal)
    (b3 : Fin f → EReal) (w1 : Fin f → Fin h → EReal) (b1 : Fin h → EReal) (w2 : Fin h → Fin c → EReal)
    (b2 : Fin c → EReal) (hadj : Finite2 adj) (hx : Finite2 x) (hw3 : Finite2 w3) :
    netK adj a2 x w3 b3 w1 b1 w2 b2 = netR adj a2 x w3 b3 w1 b1 w2 b2 := by
  unfold netK netR; rw [mm_assoc adj x w3 hadj hx hw3]

end Cert.Gcn

end
-- ==== Proof.Value.Blocks.lean ====
/-
  The nine argument arrays of the kernel as matrices and bias rows over the extended reals, and each input window's block at a grid point read off them: a row block of adj or A2 is 256 consecutive rows; x and the three weight matrices are fetched whole; a bias is fetched as the one row of its reshape.
-/
import proofs.«128992_g77695958385291_cont_9to1c4b_463_14_alg».proof.Proof.Body.Defs
import proofs.«128992_g77695958385291_cont_9to1c4b_463_14_alg».proof.Proof.Value.Spec
import Idealize.ShloMosaic.Lib.Pipeline.Value
import Idealize.ShloMosaic.Lib.StableHlo.Run

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen Cert.KernelIdeal.Body Cert.Gcn

variable (m : (ℓ : Loc nD τ sig) → Buf (Elt Ideal) ℓ)

/-! ## The arguments, as launched -/

def adjM (c : Dev nD) : Fin 4096 → Fin 4096 → EReal := arr2 (n := 4096) (p := 4096) (m ((c.tc : Thread nD τ).loc main_arg1))
def a2M (c : Dev nD) : Fin 4096 → Fin 4096 → EReal := arr2 (n := 4096) (p := 4096) (m ((c.tc : Thread nD τ).loc main_arg2))
def xM (c : Dev nD) : Fin 4096 → Fin 128 → EReal := arr2 (n := 4096) (p := 128) (m ((c.tc : Thread nD τ).loc main_arg0))
def w3M (c : Dev nD) : Fin 128 → Fin 512 → EReal := arr2 (n := 128) (p := 512) (m ((c.tc : Thread nD τ).loc main_arg3))
def b3M (c : Dev nD) : Fin 512 → EReal := arr1 (n := 512) (m ((c.tc : Thread nD τ).loc main_arg4))
def w1M (c : Dev nD) : Fin 512 → Fin 256 → EReal := arr2 (n := 512) (p := 256) (m ((c.tc : Thread nD τ).loc main_arg5))
def b1M (c : Dev nD) : Fin 256 → EReal := arr1 (n := 256) (m ((c.tc : Thread nD τ).loc main_arg6))
def w2M (c : Dev nD) : Fin 256 → Fin 128 → EReal := arr2 (n := 256) (p := 128) (m ((c.tc : Thread nD τ).loc main_arg7))
def b2M (c : Dev nD) : Fin 128 → EReal := arr1 (n := 128) (m ((c.tc : Thread nD τ).loc main_arg8))

/-! ## The block indices, decided over the grid -/

/-- At the first sixteen points the first adjacency's block index is the point's number (and 0 along the columns). -/
theorem idx0 : ∀ t : Fin cfg0.N, t.val < 16 → win0_0.index t (0 : Fin 2) = t.val ∧ win0_0.index t (1 : Fin 2) = 0 :=
  (by decide +kernel : ∀ t : Fin grid0.N, _)
/-- At points 16 to 31 the second adjacency's block index is the point's number less 16. -/
theorem idx1 : ∀ t : Fin cfg0.N, 16 ≤ t.val → t.val < 32 → win0_1.index t (0 : Fin 2) = t.val - 16 ∧ win0_1.index t (1 : Fin 2) = 0 :=
  (by decide +kernel : ∀ t : Fin grid0.N, _)
/-- The other input windows hold one block, of index 0 on both axes at every point. -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-! ## The blocks -/

/-- A block's element sits in the array, on each axis, at block index × block size + its coordinate in the block; for
    the first adjacency at a point `t < 16` that is row `256 t + p`, column `j`. -/
theorem adjB_at (c : Dev nD) (t : Fin cfg0.N) (ht : t.val < 16) (p : Fin 256) (j : Fin 4096) :
    adjB m c t (ix2 p j) = adjM m c ⟨256 * t.val + p.val, by omega⟩ j := by
  unfold adjB iblk
  rw [View.read_apply]
  show V m c main_arg1 (((cfg0.win 0).blk t).view.emb (ix2 p j)) = _
  rw [V_main_arg1]
  unfold adjM arr2
  refine congrArg _ ?_
  funext a; apply Fin.ext
  obtain ⟨e0, e1⟩ := idx0 t ht
  match a with
  | ⟨0, _⟩ => show win0_0.index t (0 : Fin 2) * 256 + 1 * p.val = 256 * t.val + p.val; omega
  | ⟨1, _⟩ => show win0_0.index t (1 : Fin 2) * 4096 + 1 * j.val = j.val; omega

/-- Row block `b` of the first adjacency, fetched at point `b`: rows 256 b to 256 b + 255. -/
theorem adjB_apply (c : Dev nD) (b : Fin 16) (p : Fin 256) (j : Fin 4096) :
    adjB m c (pt b.val (by omega)) (ix2 p j) = adjM m c ⟨256 * b.val + p.val, by omega⟩ j :=
  adjB_at m c (pt b.val (by omega)) b.isLt p j

/-- For the second adjacency at the point `t = 16 + b`, `b < 16`: row `256 b + p`, column `j`. -/
theorem a2B_at (c : Dev nD) (t : Fin cfg0.N) (b : ℕ) (hb : b < 16) (ht : t.val = 16 + b) (p : Fin 256) (j : Fin 4096) :
    a2B m c t (ix2 p j) = a2M m c ⟨256 * b + p.val, by omega⟩ j := by
  unfold a2B iblk
  rw [View.read_apply]
  show V m c main_arg2 (((cfg0.win 1).blk t).view.emb (ix2 p j)) = _
  rw [V_main_arg2]
  unfold a2M arr2
  refine congrArg _ ?_
  funext a; apply Fin.ext
  obtain ⟨e0, e1⟩ := idx1 t (by omega) (by omega)
  match a with
  | ⟨0, _⟩ => show win0_1.index t (0 : Fin 2) * 256 + 1 * p.val = 256 * b + p.val; omega
  | ⟨1, _⟩ => show win0_1.index t (1 : Fin 2) * 4096 + 1 * j.val = j.val; omega

/-- Row block `b` of the second adjacency, fetched at point `16 + b`. -/
theorem a2B_apply (c : Dev nD) (b : Fin 16) (p : Fin 256) (j : Fin 4096) :
    a2B m c (pt (16 + b.val) (by omega)) (ix2 p j) = a2M m c ⟨256 * b.val + p.val, by omega⟩ j :=
  a2B_at m c (pt (16 + b.val) (by omega)) b.val b.isLt rfl p j

/-- The features and the three weight matrices are one block each: at any point the block is the whole array. -/
theorem xB_at (c : Dev nD) (t : Fin cfg0.N) (j : Fin 4096) (l : Fin 128) : xB m c t (ix2 j l) = xM m c j l := by
  unfold xB iblk
  rw [View.read_apply]
  show V m c main_arg0 (((cfg0.win 2).blk t).view.emb (ix2 j l)) = _
  rw [V_main_arg0]
  unfold xM arr2
  refine congrArg _ ?_
  funext a; apply Fin.ext
  obtain ⟨e0, e1⟩ := idx2 t
  match a with
  | ⟨0, _⟩ => show win0_2.index t (0 : Fin 2) * 4096 + 1 * j.val = j.val; omega
  | ⟨1, _⟩ => show win0_2.index t (1 : Fin 2) * 128 + 1 * l.val = l.val; omega
theorem w3B_at (c : Dev nD) (t : Fin cfg0.N) (l : Fin 128) (q : Fin 512) : w3B m c t (ix2 l q) = w3M m c l q := by
  unfold w3B iblk
  rw [View.read_apply]
  show V m c main_arg3 (((cfg0.win 3).blk t).view.emb (ix2 l q)) = _
  rw [V_main_arg3]
  unfold w3M arr2
  refine congrArg _ ?_
  funext a; apply Fin.ext
  obtain ⟨e0, e1⟩ := idx3 t
  match a with
  | ⟨0, _⟩ => show win0_3.index t (0 : Fin 2) * 128 + 1 * l.val = l.val; omega
  | ⟨1, _⟩ => show win0_3.index t (1 : Fin 2) * 512 + 1 * q.val = q.val; omega
theorem w1B_at (c : Dev nD) (t : Fin cfg0.N) (l : Fin 512) (q : Fin 256) : w1B m c t (ix2 l q) = w1M m c l q := by
  unfold w1B iblk
  rw [View.read_apply]
  show V m c main_arg5 (((cfg0.win 5).blk t).view.emb (ix2 l q)) = _
  rw [V_main_arg5]
  unfold w1M arr2
  refine congrArg _ ?_
  funext a; apply Fin.ext
  obtain ⟨e0, e1⟩ := idx5 t
  match a with
  | ⟨0, _⟩ => show win0_5.index t (0 : Fin 2) * 512 + 1 * l.val = l.val; omega
  | ⟨1, _⟩ => show win0_5.index t (1 : Fin 2) * 256 + 1 * q.val = q.val; omega
theorem w2B_at (c : Dev nD) (t : Fin cfg0.N) (l : Fin 256) (q : Fin 128) : w2B m c t (ix2 l q) = w2M m c l q := by
  unfold w2B iblk
  rw [View.read_apply]
  show V m c main_arg7 (((cfg0.win 7).blk t).view.emb (ix2 l q)) = _
  rw [V_main_arg7]
  unfold w2M arr2
  refine congrArg _ ?_
  funext a; apply Fin.ext
  obtain ⟨e0, e1⟩ := idx7 t
  match a with
  | ⟨0, _⟩ => show win0_7.index t (0 : Fin 2) * 256 + 1 * l.val = l.val; omega
  | ⟨1, _⟩ => show win0_7.index t (1 : Fin 2) * 128 + 1 * q.val = q.val; omega

/-- The features and the weights are fetched whole (at the first point). -/
theorem xB_apply (c : Dev nD) (j : Fin 4096) (l : Fin 128) : xB m c (pt 0 (by omega)) (ix2 j l) = xM m c j l :=
  xB_at m c _ j l
theorem w3B_apply (c : Dev nD) (l : Fin 128) (q : Fin 512) : w3B m c (pt 0 (by omega)) (ix2 l q) = w3M m c l q :=
  w3B_at m c _ l q
theorem w1B_apply (c : Dev nD) (l : Fin 512) (q : Fin 256) : w1B m c (pt 0 (by omega)) (ix2 l q) = w1M m c l q :=
  w1B_at m c _ l q
theorem w2B_apply (c : Dev nD) (l : Fin 256) (q : Fin 128) : w2B m c (pt 0 (by omega)) (ix2 l q) = w2M m c l q :=
  w2B_at m c _ l q

/-- A bias window's block, at any point, is the one row of the bias's reshape to [1, n]. -/
theorem b3B_apply (c : Dev nD) (t : Fin cfg0.N) (l : Fin 512) : b3B m c t (ix2 0 l) = b3M m c l := by
  unfold b3B iblk
  rw [View.read_apply]
  show V m c main_call0_v0 (((cfg0.win 4).blk t).view.emb (ix2 0 l)) = _
  -- the window's array is the bias reshaped to one row
  have e : (V m c main_call0_v0 : S1x512.Idx → EReal) = shapeCast S1x512 (m ((c.tc : Thread nD τ).loc main_arg4)) shapeCasts_S512_S1x512 := by
    dsimp only [Gen.V, Gen.hostOps0]; after_results; rfl
  refine (congrFun e _).trans ?_
  unfold b3M arr1
  -- the two indices have the same row-major position: 0 · 512 + l = l
  refine shapeCast_apply _ _ _ (ix1 l) ?_
  rw [Shape.rowMajor_val_one, Shape.rowMajor_val_two]
  obtain ⟨e0, e1⟩ := idx4 t
  show l.val = (win0_4.index t (0 : Fin 2) * 1 + 1 * 0) * 512 + (win0_4.index t (1 : Fin 2) * 512 + 1 * l.val)
  omega
theorem b1B_apply (c : Dev nD) (t : Fin cfg0.N) (l : Fin 256) : b1B m c t (ix2 0 l) = b1M m c l := by
  unfold b1B iblk
  rw [View.read_apply]
  show V m c main_call0_v1 (((cfg0.win 6).blk t).view.emb (ix2 0 l)) = _
  -- the window's array is the bias reshaped to one row
  have e : (V m c main_call0_v1 : S1x256.Idx → EReal) = shapeCast S1x256 (m ((c.tc : Thread nD τ).loc main_arg6)) shapeCasts_S256_S1x256 := by
    dsimp only [Gen.V, Gen.hostOps0]; after_results; rfl
  refine (congrFun e _).trans ?_
  unfold b1M arr1
  -- the two indices have the same row-major position: 0 · 256 + l = l
  refine shapeCast_apply _ _ _ (ix1 l) ?_
  rw [Shape.rowMajor_val_one, Shape.rowMajor_val_two]
  obtain ⟨e0, e1⟩ := idx6 t
  show l.val = (win0_6.index t (0 : Fin 2) * 1 + 1 * 0) * 256 + (win0_6.index t (1 : Fin 2) * 256 + 1 * l.val)
  omega
theorem b2B_apply (c : Dev nD) (t : Fin cfg0.N) (l : Fin 128) : b2B m c t (ix2 0 l) = b2M m c l := by
  unfold b2B iblk
  rw [View.read_apply]
  show V m c main_call0_v2 (((cfg0.win 8).blk t).view.emb (ix2 0 l)) = _
  -- the window's array is the bias reshaped to one row
  have e : (V m c main_call0_v2 : S1x128.Idx → EReal) = shapeCast S1x128 (m ((c.tc : Thread nD τ).loc main_arg8)) shapeCasts_S128_S1x128 := by
    dsimp only [Gen.V, Gen.hostOps0]; after_results; rfl
  refine (congrFun e _).trans ?_
  unfold b2M arr1
  -- the two indices have the same row-major position: 0 · 128 + l = l
  refine shapeCast_apply _ _ _ (ix1 l) ?_
  rw [Shape.rowMajor_val_one, Shape.rowMajor_val_two]
  obtain ⟨e0, e1⟩ := idx8 t
  show l.val = (win0_8.index t (0 : Fin 2) * 1 + 1 * 0) * 128 + (win0_8.index t (1 : Fin 2) * 128 + 1 * l.val)
  omega

end Cert.KernelIdeal.KVal

end
-- ==== Proof.Value.Pays.lean ====
/-
  The kernel's twelve payloads read at the extended reals, one entry at a time.
  There a change of float format is the identity, a cast to the same shape is the identity, the bias row is read
  at its column, the clamp is a maximum with zero, and a matrix product into a zero accumulator is the sum over the
  contracted axis. So each payload's entry at row p and column q is a plain sum (or, for the casts, the operand).
-/
import proofs.«128992_g77695958385291_cont_9to1c4b_463_14_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.PayVal

open scoped BigOperators
open Cert.KernelIdeal Cert.KernelIdeal.Gen Idealize.ShloMosaic Idealize.SL.Sem
open Idealize.ShloMosaic.ValueIdx (ix2)

/-! ## The casts: a payload that only changes the float format is its operand -/

theorem pay1_eq (v : Vec Ideal S4096x128 .f32) : k0_pay1 (F := Ideal) v = v := by
  unfold k0_pay1
  exact shapeCast_self _ _

theorem pay2_eq (v : Vec Ideal S128x512 .f32) : k0_pay2 (F := Ideal) v = v := by
  unfold k0_pay2
  exact shapeCast_self _ _

theorem pay3_eq (v : Vec Ideal S512x256 .f32) : k0_pay3 (F := Ideal) v = v := by
  unfold k0_pay3
  exact shapeCast_self _ _

theorem pay4_eq (v : Vec Ideal S256x128 .f32) : k0_pay4 (F := Ideal) v = v := by
  unfold k0_pay4
  exact shapeCast_self _ _

theorem pay10_eq (v : Vec Ideal S256x4096 .f32) : k0_pay10 (F := Ideal) v = v := by
  unfold k0_pay10 k0_pay9
  exact shapeCast_self _ _

/-! ## Bias and clamp: the last layer's output block -/

theorem pay7_apply (u : Vec Ideal S256x128 .f32) (b : Vec Ideal S1x128 .f32) (p : Fin 256) (q : Fin 128) :
    k0_pay7 (F := Ideal) u b (ix2 p q) = max (u (ix2 p q) + b (ix2 0 q)) 0 := by
  unfold k0_pay7
  rw [ValueIdx.maximumf_apply, ValueIdx.addf_apply, ValueIdx.broadcast_apply, shapeCast_self,
    ValueIdx.broadcastTo_1b_ab_apply, Ideal.ofBits_def, Ideal.ofBits_zero_f32]

/-! ## The five matrix products

For each product: the operands' indices at output entry `i` and contraction index `q`, one axis at a time; then
the product into a zero accumulator at row `p` and column `q` as the sum over the contracted axis. -/

/-! ### A 256 × 4096 block times a 4096 × 256 array -/

theorem lhs_a_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhs_a_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhs_a_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhs_a_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

theorem mm_a {φ₁ φ₂ : FTy} (l : FVec Ideal S256x4096 φ₁) (r : FVec Ideal S4096x256 φ₂) (p : Fin 256) (q : Fin 256) :
    matmul dot_S256x4096_S4096x256_S256x256_1_0_0_1_n_n none l r (constant (F := Ideal) S256x256 .f32 0x00000000#32) (ix2 p q)
      = ∑ k : Fin 4096, l (ix2 p k) * r (ix2 k q) := by
  simp only [matmul]
  rw [Ideal.matmul_constant_zero_apply, ← Equiv.sum_comp (ValueIdx.contrEquiv1 dot_S256x4096_S4096x256_S256x256_1_0_0_1_n_n 4096 rfl rfl).symm]
  refine Finset.sum_congr rfl fun k _ => ?_
  have hk := ValueIdx.contrEquiv1_symm_val dot_S256x4096_S4096x256_S256x256_1_0_0_1_n_n 4096 rfl rfl k
  have el : dot_S256x4096_S4096x256_S256x256_1_0_0_1_n_n.lhsIdx (ix2 p q) ((ValueIdx.contrEquiv1 dot_S256x4096_S4096x256_S256x256_1_0_0_1_n_n 4096 rfl rfl).symm k) = ix2 p k := funext fun a => Fin.ext (by
    match a with
    | ⟨0, _⟩ => exact lhs_a_0 _ _
    | ⟨1, _⟩ => exact (lhs_a_1 _ _).trans hk)
  have er : dot_S256x4096_S4096x256_S256x256_1_0_0_1_n_n.rhsIdx (ix2 p q) ((ValueIdx.contrEquiv1 dot_S256x4096_S4096x256_S256x256_1_0_0_1_n_n 4096 rfl rfl).symm k) = ix2 k q := funext fun a => Fin.ext (by
    match a with
    | ⟨0, _⟩ => exact (rhs_a_0 _ _).trans hk
    | ⟨1, _⟩ => exact rhs_a_1 _ _)
  rw [el, er]

/-! ### A 256 × 4096 block times a 4096 × 128 array -/

theorem lhs_b_0 (i : S256x128.Idx) (q : dot_S256x4096_S4096x128_S256x128_1_0_0_1_n_n.contr.Idx) :
    (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
theorem lhs_b_1 (i : S256x128.Idx) (q : dot_S256x4096_S4096x128_S256x128_1_0_0_1_n_n.contr.Idx) :
    (dot_S256x4096_S4096x128_S256x128_1_0_0_1_n_n.lhsIdx i q 1).val = (q ⟨0, by decide⟩).val :=
  dot_S256x4096_S4096x128_S256x128_1_0_0_1_n_n.lhsIdx_val_of_single rfl i q
theorem rhs_b_0 (i : S256x128.Idx) (q : dot_S256x4096_S4096x128_S256x128_1_0_0_1_n_n.contr.Idx) :
    (dot_S256x4096_S4096x128_S256x128_1_0_0_1_n_n.rhsIdx i q 0).val = (q ⟨0, by decide⟩).val :=
  dot_S256x4096_S4096x128_S256x128_1_0_0_1_n_n.rhsIdx_val_of_single rfl i q
theorem rhs_b_1 (i : S256x128.Idx) (q : dot_S256x4096_S4096x128_S256x128_1_0_0_1_n_n.contr.Idx) :
    (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

theorem mm_b {φ₁ φ₂ : FTy} (l : FVec Ideal S256x4096 φ₁) (r : FVec Ideal S4096x128 φ₂) (p : Fin 256) (q : Fin 128) :
    matmul dot_S256x4096_S4096x128_S256x128_1_0_0_1_n_n none l r (constant (F := Ideal) S256x128 .f32 0x00000000#32) (ix2 p q)
      = ∑ k : Fin 4096, l (ix2 p k) * r (ix2 k q) := by
  simp only [matmul]
  rw [Ideal.matmul_constant_zero_apply, ← Equiv.sum_comp (ValueIdx.contrEquiv1 dot_S256x4096_S4096x128_S256x128_1_0_0_1_n_n 4096 rfl rfl).symm]
  refine Finset.sum_congr rfl fun k _ => ?_
  have hk := ValueIdx.contrEquiv1_symm_val dot_S256x4096_S4096x128_S256x128_1_0_0_1_n_n 4096 rfl rfl k
  have el : dot_S256x4096_S4096x128_S256x128_1_0_0_1_n_n.lhsIdx (ix2 p q) ((ValueIdx.contrEquiv1 dot_S256x4096_S4096x128_S256x128_1_0_0_1_n_n 4096 rfl rfl).symm k) = ix2 p k := funext fun a => Fin.ext (by
    match a with
    | ⟨0, _⟩ => exact lhs_b_0 _ _
    | ⟨1, _⟩ => exact (lhs_b_1 _ _).trans hk)
  have er : dot_S256x4096_S4096x128_S256x128_1_0_0_1_n_n.rhsIdx (ix2 p q) ((ValueIdx.contrEquiv1 dot_S256x4096_S4096x128_S256x128_1_0_0_1_n_n 4096 rfl rfl).symm k) = ix2 k q := funext fun a => Fin.ext (by
    match a with
    | ⟨0, _⟩ => exact (rhs_b_0 _ _).trans hk
    | ⟨1, _⟩ => exact rhs_b_1 _ _)
  rw [el, er]

/-! ### A 256 × 128 block times the 128 × 512 weights -/

theorem lhs_c_0 (i : S256x512.Idx) (q : dot_S256x128_S128x512_S256x512_1_0_0_1_n_n.contr.Idx) :
    (dot_S256x128_S128x512_S256x512_1_0_0_1_n_n.lhsIdx i q 0).val = (i 0).val := by
  unfold DotDims.lhsIdx
  rw [dif_neg (show ¬(0 : Fin S256x128.rank) ∈ dot_S256x128_S128x512_S256x512_1_0_0_1_n_n.lhsBatch by decide), dif_pos (show (0 : Fin S256x128.rank) ∈ dot_S256x128_S128x512_S256x512_1_0_0_1_n_n.lhsNonContracting by decide)]
  rfl
theorem lhs_c_1 (i : S256x512.Idx) (q : dot_S256x128_S128x512_S256x512_1_0_0_1_n_n.contr.Idx) :
    (dot_S256x128_S128x512_S256x512_1_0_0_1_n_n.lhsIdx i q 1).val = (q ⟨0, by decide⟩).val :=
  dot_S256x128_S128x512_S256x512_1_0_0_1_n_n.lhsIdx_val_of_single rfl i q
theorem rhs_c_0 (i : S256x512.Idx) (q : dot_S256x128_S128x512_S256x512_1_0_0_1_n_n.contr.Idx) :
    (dot_S256x128_S128x512_S256x512_1_0_0_1_n_n.rhsIdx i q 0).val = (q ⟨0, by decide⟩).val :=
  dot_S256x128_S128x512_S256x512_1_0_0_1_n_n.rhsIdx_val_of_single rfl i q
theorem rhs_c_1 (i : S256x512.Idx) (q : dot_S256x128_S128x512_S256x512_1_0_0_1_n_n.contr.Idx) :
    (dot_S256x128_S128x512_S256x512_1_0_0_1_n_n.rhsIdx i q 1).val = (i 1).val := by
  unfold DotDims.rhsIdx
  rw [dif_neg (show ¬(1 : Fin S128x512.rank) ∈ dot_S256x128_S128x512_S256x512_1_0_0_1_n_n.rhsBatch by decide), dif_pos (show (1 : Fin S128x512.rank) ∈ dot_S256x128_S128x512_S256x512_1_0_0_1_n_n.rhsNonContracting by decide)]
  rfl

theorem mm_c {φ₁ φ₂ : FTy} (l : FVec Ideal S256x128 φ₁) (r : FVec Ideal S128x512 φ₂) (p : Fin 256) (q : Fin 512) :
    matmul dot_S256x128_S128x512_S256x512_1_0_0_1_n_n none l r (constant (F := Ideal) S256x512 .f32 0x00000000#32) (ix2 p q)
      = ∑ k : Fin 128, l (ix2 p k) * r (ix2 k q) := by
  simp only [matmul]
  rw [Ideal.matmul_constant_zero_apply, ← Equiv.sum_comp (ValueIdx.contrEquiv1 dot_S256x128_S128x512_S256x512_1_0_0_1_n_n 128 rfl rfl).symm]
  refine Finset.sum_congr rfl fun k _ => ?_
  have hk := ValueIdx.contrEquiv1_symm_val dot_S256x128_S128x512_S256x512_1_0_0_1_n_n 128 rfl rfl k
  have el : dot_S256x128_S128x512_S256x512_1_0_0_1_n_n.lhsIdx (ix2 p q) ((ValueIdx.contrEquiv1 dot_S256x128_S128x512_S256x512_1_0_0_1_n_n 128 rfl rfl).symm k) = ix2 p k := funext fun a => Fin.ext (by
    match a with
    | ⟨0, _⟩ => exact lhs_c_0 _ _
    | ⟨1, _⟩ => exact (lhs_c_1 _ _).trans hk)
  have er : dot_S256x128_S128x512_S256x512_1_0_0_1_n_n.rhsIdx (ix2 p q) ((ValueIdx.contrEquiv1 dot_S256x128_S128x512_S256x512_1_0_0_1_n_n 128 rfl rfl).symm k) = ix2 k q := funext fun a => Fin.ext (by
    match a with
    | ⟨0, _⟩ => exact (rhs_c_0 _ _).trans hk
    | ⟨1, _⟩ => exact rhs_c_1 _ _)
  rw [el, er]

/-! ### A 256 × 512 block times the 512 × 256 weights -/

theorem lhs_d_0 (i : S256x256.Idx) (q : dot_S256x512_S512x256_S256x256_1_0_0_1_n_n.contr.Idx) :
    (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
theorem lhs_d_1 (i : S256x256.Idx) (q : dot_S256x512_S512x256_S256x256_1_0_0_1_n_n.contr.Idx) :
    (dot_S256x512_S512x256_S256x256_1_0_0_1_n_n.lhsIdx i q 1).val = (q ⟨0, by decide⟩).val :=
  dot_S256x512_S512x256_S256x256_1_0_0_1_n_n.lhsIdx_val_of_single rfl i q
theorem rhs_d_0 (i : S256x256.Idx) (q : dot_S256x512_S512x256_S256x256_1_0_0_1_n_n.contr.Idx) :
    (dot_S256x512_S512x256_S256x256_1_0_0_1_n_n.rhsIdx i q 0).val = (q ⟨0, by decide⟩).val :=
  dot_S256x512_S512x256_S256x256_1_0_0_1_n_n.rhsIdx_val_of_single rfl i q
theorem rhs_d_1 (i : S256x256.Idx) (q : dot_S256x512_S512x256_S256x256_1_0_0_1_n_n.contr.Idx) :
    (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

theorem mm_d {φ₁ φ₂ : FTy} (l : FVec Ideal S256x512 φ₁) (r : FVec Ideal S512x256 φ₂) (p : Fin 256) (q : Fin 256) :
    matmul dot_S256x512_S512x256_S256x256_1_0_0_1_n_n none l r (constant (F := Ideal) S256x256 .f32 0x00000000#32) (ix2 p q)
      = ∑ k : Fin 512, l (ix2 p k) * r (ix2 k q) := by
  simp only [matmul]
  rw [Ideal.matmul_constant_zero_apply, ← Equiv.sum_comp (ValueIdx.contrEquiv1 dot_S256x512_S512x256_S256x256_1_0_0_1_n_n 512 rfl rfl).symm]
  refine Finset.sum_congr rfl fun k _ => ?_
  have hk := ValueIdx.contrEquiv1_symm_val dot_S256x512_S512x256_S256x256_1_0_0_1_n_n 512 rfl rfl k
  have el : dot_S256x512_S512x256_S256x256_1_0_0_1_n_n.lhsIdx (ix2 p q) ((ValueIdx.contrEquiv1 dot_S256x512_S512x256_S256x256_1_0_0_1_n_n 512 rfl rfl).symm k) = ix2 p k := funext fun a => Fin.ext (by
    match a with
    | ⟨0, _⟩ => exact lhs_d_0 _ _
    | ⟨1, _⟩ => exact (lhs_d_1 _ _).trans hk)
  have er : dot_S256x512_S512x256_S256x256_1_0_0_1_n_n.rhsIdx (ix2 p q) ((ValueIdx.contrEquiv1 dot_S256x512_S512x256_S256x256_1_0_0_1_n_n 512 rfl rfl).symm k) = ix2 k q := funext fun a => Fin.ext (by
    match a with
    | ⟨0, _⟩ => exact (rhs_d_0 _ _).trans hk
    | ⟨1, _⟩ => exact rhs_d_1 _ _)
  rw [el, er]

/-! ### A 256 × 256 block times the 256 × 128 weights -/

theorem lhs_e_0 (i : S256x128.Idx) (q : dot_S256x256_S256x128_S256x128_1_0_0_1_n_n.contr.Idx) :
    (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
theorem lhs_e_1 (i : S256x128.Idx) (q : dot_S256x256_S256x128_S256x128_1_0_0_1_n_n.contr.Idx) :
    (dot_S256x256_S256x128_S256x128_1_0_0_1_n_n.lhsIdx i q 1).val = (q ⟨0, by decide⟩).val :=
  dot_S256x256_S256x128_S256x128_1_0_0_1_n_n.lhsIdx_val_of_single rfl i q
theorem rhs_e_0 (i : S256x128.Idx) (q : dot_S256x256_S256x128_S256x128_1_0_0_1_n_n.contr.Idx) :
    (dot_S256x256_S256x128_S256x128_1_0_0_1_n_n.rhsIdx i q 0).val = (q ⟨0, by decide⟩).val :=
  dot_S256x256_S256x128_S256x128_1_0_0_1_n_n.rhsIdx_val_of_single rfl i q
theorem rhs_e_1 (i : S256x128.Idx) (q : dot_S256x256_S256x128_S256x128_1_0_0_1_n_n.contr.Idx) :
    (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl

theorem mm_e {φ₁ φ₂ : FTy} (l : FVec Ideal S256x256 φ₁) (r : FVec Ideal S256x128 φ₂) (p : Fin 256) (q : Fin 128) :
    matmul dot_S256x256_S256x128_S256x128_1_0_0_1_n_n none l r (constant (F := Ideal) S256x128 .f32 0x00000000#32) (ix2 p q)
      = ∑ k : Fin 256, l (ix2 p k) * r (ix2 k q) := by
  simp only [matmul]
  rw [Ideal.matmul_constant_zero_apply, ← Equiv.sum_comp (ValueIdx.contrEquiv1 dot_S256x256_S256x128_S256x128_1_0_0_1_n_n 256 rfl rfl).symm]
  refine Finset.sum_congr rfl fun k _ => ?_
  have hk := ValueIdx.contrEquiv1_symm_val dot_S256x256_S256x128_S256x128_1_0_0_1_n_n 256 rfl rfl k
  have el : dot_S256x256_S256x128_S256x128_1_0_0_1_n_n.lhsIdx (ix2 p q) ((ValueIdx.contrEquiv1 dot_S256x256_S256x128_S256x128_1_0_0_1_n_n 256 rfl rfl).symm k) = ix2 p k := funext fun a => Fin.ext (by
    match a with
    | ⟨0, _⟩ => exact lhs_e_0 _ _
    | ⟨1, _⟩ => exact (lhs_e_1 _ _).trans hk)
  have er : dot_S256x256_S256x128_S256x128_1_0_0_1_n_n.rhsIdx (ix2 p q) ((ValueIdx.contrEquiv1 dot_S256x256_S256x128_S256x128_1_0_0_1_n_n 256 rfl rfl).symm k) = ix2 k q := funext fun a => Fin.ext (by
    match a with
    | ⟨0, _⟩ => exact (rhs_e_0 _ _).trans hk
    | ⟨1, _⟩ => exact rhs_e_1 _ _)
  rw [el, er]

/-! ## The payloads with a product, at row `p` and column `q` -/

/-- Layer 1's staged rows: the adjacency block times the features, then times the first weights. -/
theorem pay8_apply (a : Vec Ideal S256x4096 .f32) (xc : Vec Ideal S4096x128 .bf16) (w : Vec Ideal S128x512 .bf16) (p : Fin 256) (q : Fin 512) :
    k0_pay8 (F := Ideal) a xc w (ix2 p q) = ∑ l : Fin 128, (∑ j : Fin 4096, a (ix2 p j) * xc (ix2 j l)) * w (ix2 l q) := by
  unfold k0_pay8
  rw [shapeCast_self, mm_c]
  refine Finset.sum_congr rfl fun l _ => ?_
  rw [ValueIdx.truncf_apply, mm_b]
  rfl

/-- Layer 1 finished (bias, clamp) and projected by the second weights. -/
theorem pay5_apply (u : Vec Ideal S256x512 .f32) (b : Vec Ideal S1x512 .f32) (w : Vec Ideal S512x256 .bf16) (p : Fin 256) (q : Fin 256) :
    k0_pay5 (F := Ideal) u b w (ix2 p q) = ∑ l : Fin 512, max (u (ix2 p l) + b (ix2 0 l)) 0 * w (ix2 l q) := by
  unfold k0_pay5
  rw [shapeCast_self, shapeCast_self, ValueIdx.truncf_apply, mm_d]
  refine Finset.sum_congr rfl fun l _ => ?_
  rw [ValueIdx.truncf_apply, ValueIdx.maximumf_apply, ValueIdx.addf_apply, ValueIdx.broadcast_apply,
    ValueIdx.broadcastTo_1b_ab_apply, Ideal.ofBits_def, Ideal.ofBits_zero_f32]

/-- Layer 2 finished (bias, clamp) and projected by the third weights. -/
theorem pay6_apply (u : Vec Ideal S256x256 .f32) (b : Vec Ideal S1x256 .f32) (w : Vec Ideal S256x128 .bf16) (p : Fin 256) (q : Fin 128) :
    k0_pay6 (F := Ideal) u b w (ix2 p q) = ∑ l : Fin 256, max (u (ix2 p l) + b (ix2 0 l)) 0 * w (ix2 l q) := by
  unfold k0_pay6
  rw [shapeCast_self, shapeCast_self, ValueIdx.truncf_apply, mm_e]
  refine Finset.sum_congr rfl fun l _ => ?_
  rw [ValueIdx.truncf_apply, ValueIdx.maximumf_apply, ValueIdx.addf_apply, ValueIdx.broadcast_apply,
    ValueIdx.broadcastTo_1b_ab_apply, Ideal.ofBits_def, Ideal.ofBits_zero_f32]

/-- Layer 2's propagation: the second adjacency's block times layer 2's projected rows. -/
theorem pay11_apply (a : Vec Ideal S256x4096 .f32) (s : Vec Ideal S4096x256 .bf16) (p : Fin 256) (q : Fin 256) :
    k0_pay11 (F := Ideal) a s (ix2 p q) = ∑ j : Fin 4096, a (ix2 p j) * s (ix2 j q) := by
  unfold k0_pay11 k0_pay9
  rw [shapeCast_self, mm_a]
  rfl

/-- Layer 3's propagation: the cached adjacency block times layer 3's projected rows. -/
theorem pay12_apply (a : Vec Ideal S256x4096 .bf16) (s : Vec Ideal S4096x128 .bf16) (p : Fin 256) (q : Fin 128) :
    k0_pay12 (F := Ideal) a s (ix2 p q) = ∑ j : Fin 4096, a (ix2 p j) * s (ix2 j q) := by
  unfold k0_pay12
  rw [shapeCast_self, mm_b]

end Cert.KernelIdeal.PayVal

end
-- ==== Proof.Value.Chain.lean ====
/-
  What the fused kernel computes, at the ideal values, read at an index as matrix products: layer 1's accumulator rows are rows of (adj · x) · W3; the support S2 is relu((adj · x) · W3 + b3) · W1; layer 2's accumulator rows are rows of A2 · S2; S3 is relu(A2 · S2 + b1) · W2; the cache is A2; and the output block b is rows 256 b … of the network.
-/
import proofs.«128992_g77695958385291_cont_9to1c4b_463_14_alg».proof.Proof.Value.Blocks
import proofs.«128992_g77695958385291_cont_9to1c4b_463_14_alg».proof.Proof.Value.Pays

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen Cert.KernelIdeal.Body Cert.Gcn

variable (m : (ℓ : Loc nD τ sig) → Buf (Elt Ideal) ℓ)

/-- Layer 1 before the bias, the kernel's order of the two products. -/
def L1 (c : Dev nD) : Fin 4096 → Fin 512 → EReal := mm (mm (adjM m c) (xM m c)) (w3M m c)
/-- Layer 2's support. -/
def P2 (c : Dev nD) : Fin 4096 → Fin 256 → EReal := mm (biasRelu (L1 m c) (b3M m c)) (w1M m c)
/-- Layer 3's support. -/
def P3 (c : Dev nD) : Fin 4096 → Fin 128 → EReal := mm (biasRelu (mm (a2M m c) (P2 m c)) (b1M m c)) (w2M m c)

/-! ## Small readings -/

/-- An entry of a matrix product is the sum over the inner index. -/
theorem mm_apply {n k p : ℕ} (a : Fin n → Fin k → EReal) (b : Fin k → Fin p → EReal) (i : Fin n) (j : Fin p) :
    mm a b i j = ∑ l : Fin k, a i l * b l j := rfl

/-- An entry after the bias and the clamp. -/
theorem biasRelu_apply {n p : ℕ} (u : Fin n → Fin p → EReal) (b : Fin p → EReal) (i : Fin n) (j : Fin p) :
    biasRelu u b i j = max (u i j + b j) 0 := rfl

/-- A row number is 256 times its block plus its place in the block. -/
theorem row_eq (r : Fin 4096) (h : 256 * (rowBlk r).val + (rowIn r).val < 4096) :
    (⟨256 * (rowBlk r).val + (rowIn r).val, h⟩ : Fin 4096) = r :=
  Fin.ext (by show 256 * (r.val / 256) + r.val % 256 = r.val; omega)

/-! ## The casts made at the first point are the arguments themselves -/

theorem XC_apply (c : Dev nD) (j : Fin 4096) (l : Fin 128) : XC m c (ix2 j l) = xM m c j l := by
  unfold XC
  rw [PayVal.pay1_eq]
  exact xB_apply m c j l

theorem W3C_apply (c : Dev nD) (l : Fin 128) (q : Fin 512) : W3C m c (ix2 l q) = w3M m c l q := by
  unfold W3C
  rw [PayVal.pay2_eq]
  exact w3B_apply m c l q

theorem W1C_apply (c : Dev nD) (l : Fin 512) (q : Fin 256) : W1C m c (ix2 l q) = w1M m c l q := by
  unfold W1C
  rw [PayVal.pay3_eq]
  exact w1B_apply m c l q

theorem W2C_apply (c : Dev nD) (l : Fin 256) (q : Fin 128) : W2C m c (ix2 l q) = w2M m c l q := by
  unfold W2C
  rw [PayVal.pay4_eq]
  exact w2B_apply m c l q

/-! ## The chain -/

theorem U1_apply (c : Dev nD) (b : Fin 16) (p : Fin 256) (q : Fin 512) :
    U1 m c b (ix2 p q) = L1 m c ⟨256 * b.val + p.val, by omega⟩ q := by
  unfold U1 L1
  rw [PayVal.pay8_apply, mm_apply]
  refine Finset.sum_congr rfl fun l _ => ?_
  rw [W3C_apply, mm_apply]
  congr 1
  exact Finset.sum_congr rfl fun j _ => by rw [adjB_apply, XC_apply]

theorem S2_apply (c : Dev nD) (r : Fin 4096) (q : Fin 256) : S2 m c (ix2 r q) = P2 m c r q := by
  unfold S2 P2
  show S2blk m c (rowBlk r) (ix2 (rowIn r) q) = _
  unfold S2blk
  rw [PayVal.pay5_apply, mm_apply]
  refine Finset.sum_congr rfl fun l _ => ?_
  rw [U1_apply, b3B_apply, W1C_apply, row_eq, biasRelu_apply]

theorem U2_apply (c : Dev nD) (b : Fin 16) (p : Fin 256) (q : Fin 256) :
    U2 m c b (ix2 p q) = mm (a2M m c) (P2 m c) ⟨256 * b.val + p.val, by omega⟩ q := by
  unfold U2
  rw [PayVal.pay11_apply, mm_apply]
  refine Finset.sum_congr rfl fun j _ => ?_
  rw [a2B_apply, S2_apply]

theorem S3_apply (c : Dev nD) (r : Fin 4096) (q : Fin 128) : S3 m c (ix2 r q) = P3 m c r q := by
  unfold S3 P3
  show S3blk m c (rowBlk r) (ix2 (rowIn r) q) = _
  unfold S3blk
  rw [PayVal.pay6_apply, mm_apply]
  refine Finset.sum_congr rfl fun l _ => ?_
  rw [U2_apply, b1B_apply, W2C_apply, row_eq, biasRelu_apply]

theorem A2Cblk_apply (c : Dev nD) (b : Fin 16) (p : Fin 256) (j : Fin 4096) :
    A2Cblk m c b (ix2 p j) = a2M m c ⟨256 * b.val + p.val, by omega⟩ j := by
  unfold A2Cblk
  rw [PayVal.pay10_eq]
  exact a2B_apply m c b p j

theorem U3_apply (c : Dev nD) (b : Fin 16) (p : Fin 256) (q : Fin 128) :
    U3 m c b (ix2 p q) = mm (a2M m c) (P3 m c) ⟨256 * b.val + p.val, by omega⟩ q := by
  unfold U3
  rw [PayVal.pay12_apply, mm_apply]
  refine Finset.sum_congr rfl fun j _ => ?_
  rw [A2Cblk_apply, S3_apply]

/-- The output block `b` is rows 256 b to 256 b + 255 of the network. -/
theorem OUT_apply (c : Dev nD) (b : Fin 16) (p : Fin 256) (q : Fin 128) :
    OUT m c b (ix2 p q)
      = netK (adjM m c) (a2M m c) (xM m c) (w3M m c) (b3M m c) (w1M m c) (b1M m c) (w2M m c) (b2M m c) ⟨256 * b.val + p.val, by omega⟩ q := by
  unfold OUT
  rw [PayVal.pay7_apply, U3_apply, b2B_apply]
  unfold netK
  rfl

end Cert.KernelIdeal.KVal

end
-- ==== Proof.Value.Final.lean ====
/-
  The output array after the run: the sixteen row blocks written back at grid points 33 to 48 tile it, and block b is rows 256 b … of the network, so the whole array is the network of the nine arguments.
-/
import proofs.«128992_g77695958385291_cont_9to1c4b_463_14_alg».proof.Proof.Body.Dats
import proofs.«128992_g77695958385291_cont_9to1c4b_463_14_alg».proof.Proof.Value.Chain
import Idealize.ShloMosaic.Lib.Pipeline.Value

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen Cert.KernelIdeal.Body Cert.Gcn

variable (m : (ℓ : Loc nD τ sig) → Buf (Elt Ideal) ℓ)

/-- The network of the launch arguments, as an array. -/
def netArr (c : Dev nD) : Vec Ideal S4096x128 .f32 := fun idx =>
  netK (adjM m c) (a2M m c) (xM m c) (w3M m c) (b3M m c) (w1M m c) (b1M m c) (w2M m c) (b2M m c) (idx 0) (idx 1)

/-- The output window's block index at a point from 33 on: row block `t - 33`, the one column block. -/
theorem outIndex (t : Fin cfg0.N) (h : 33 ≤ t.val) :
    win0_9.index t (0 : Fin 2) = t.val - 33 ∧ win0_9.index t (1 : Fin 2) = 0 := by
  have e : win0_9.index t = ![t.val - 33, 0] := index0_9 t h
  exact ⟨congrFun e 0, congrFun e 1⟩

/-- What a point that writes back writes is its row block of the network. -/
theorem flushedOut (c : Dev nD) (t : Fin cfg0.N) (hf : (cfg0.win 9).flush t = true) :
    (dats m 0 c).flushed 9 t = ((cfg0.win 9).blk t).view.read (Elt Ideal) (netArr m c) := by
  have h33 : 33 ≤ t.val := by
    by_contra hlt
    rw [noFlush0_9 t (by omega)] at hf
    exact Bool.false_ne_true hf
  have h49 := lt49 t
  obtain ⟨e0, e1⟩ := outIndex t h33
  show (cfg0.win 9).cut (grid0.coords t) ((dats m 0 c).after 9 t) = _
  rw [after0_9]
  funext y
  rw [View.read_apply]
  show outAt m c t y = netArr m c (((cfg0.win 9).blk t).view.emb y)
  obtain ⟨p, q, rfl⟩ : ∃ (p : Fin 256) (q : Fin 128), y = ix2 p q := ⟨y 0, y 1, eq_ix2 y⟩
  have hr : ((cfg0.win 9).blk t).view.emb (ix2 p q)
      = ix2 (n0 := 4096) (n1 := 128) ⟨256 * (t.val - 33) + p.val, by omega⟩ q := by
    funext a; apply Fin.ext
    match a with
    | ⟨0, _⟩ => show win0_9.index t (0 : Fin 2) * 256 + 1 * p.val = 256 * (t.val - 33) + p.val; omega
    | ⟨1, _⟩ => show win0_9.index t (1 : Fin 2) * 128 + 1 * q.val = q.val; omega
  rw [hr]
  exact OUT_apply m c ⟨t.val - 33, by omega⟩ p q

/-- An index of the array is in point `t`'s block iff each coordinate is in the block's range on its axis. -/
theorem mem_outBlk (t : Fin cfg0.N) (i : S4096x128.Idx) :
    i ∈ ((cfg0.win 9).blk t).view.set ↔ ∀ a : Fin 2, win0_9.index t a * S256x128.size a ≤ (i a).val
      ∧ (i a).val < win0_9.index t a * S256x128.size a + S256x128.size a := by
  show i ∈ ((View.whole main_v0).slice (win0_9.rect t)).set ↔ _
  rw [View.set_slice_whole, Rect.mem_set_unit]
  exact Iff.rfl

/-- Every row lies in the block of the point that writes its row block back: row `r` at point `33 + r / 256`. -/
theorem covered (i : S4096x128.Idx) :
    ∃ t : Fin cfg0.N, (cfg0.win 9).flush t = true ∧ i ∈ ((cfg0.win 9).blk t).view.set := by
  have hi0 : (i 0).val < 4096 := (i 0).isLt
  have hi1 : (i 1).val < 128 := (i 1).isLt
  obtain ⟨t, ht⟩ : ∃ t : Fin cfg0.N, t.val = 33 + (i 0).val / 256 := ⟨pt (33 + (i 0).val / 256) (by omega), rfl⟩
  obtain ⟨e0, e1⟩ := outIndex t (by omega)
  refine ⟨t, flush0_9 t (by omega), ?_⟩
  rw [mem_outBlk]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 128 ≤ (i 1).val ∧ (i 1).val < win0_9.index t (1 : Fin 2) * 128 + 128; omega

/-- After all write-backs the output array holds the network. -/
theorem final9 (c : Dev nD) : (dats m 0 c).arrAt 9 cfg0.N = netArr m c := by
  exact (dats m 0 c).arrAt_eq_of_cover 9 (netArr m c) (flushedOut m c) covered

end Cert.KernelIdeal.KVal

end
-- ==== Proof.Value.KernelRun.lean ====
/-
  The idealized kernel's run with its result named: every execution ends with the output array at the network of the nine launch arguments, and the arguments unchanged.
-/
import proofs.«128992_g77695958385291_cont_9to1c4b_463_14_alg».proof.Proof.Body.Run
import proofs.«128992_g77695958385291_cont_9to1c4b_463_14_alg».proof.Proof.Value.Final

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen Cert.KernelIdeal.Body Cert.Gcn

variable (m : (ℓ : Loc nD τ sig) → Buf (Elt Ideal) ℓ)

variable (ρ : Dev nD → PrngReg)

theorem kernel_run : θ_run (defs (F := Ideal)) (onTc (τ := τ) (main (F := Ideal))) ⟨m, fun _ => 0, ρ⟩ (fun r => ∀ c : Dev nD,
      r.2.mem ((c.tc : Thread nD τ).loc main_v0) = netArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 9).trans (final9 m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c)⟩)
    (run_main (F := Ideal) m ρ)

end Cert.KernelIdeal.KVal

end
-- ==== Proof.Value.Finite.lean ====
/-
  Under the precondition (every float input finite) the first adjacency, the features and layer 1's weights have real entries: what the reassociation of layer 1's two products needs.
-/
import proofs.«128992_g77695958385291_cont_9to1c4b_463_14_alg».proof.Proof.Value.Blocks
import proofs.«128992_g77695958385291_cont_9to1c4b_463_14_alg».proof.Defs
import proofs.«128992_g77695958385291_cont_9to1c4b_463_14_alg».proof.Proof.Gen.Pre_finite_inputs
import Idealize.ShloMosaic.Lib.ReduceAll

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen Cert.KernelIdeal.Body Cert.Gcn

variable (m : (ℓ : Loc nD τ sig) → Buf (Elt Ideal) ℓ)

/-- The scalar shape has exactly one index. -/
instance subsingleton_scalar_idx : Subsingleton Cert.Pre_finite_inputs.S_.Idx :=
  ⟨fun a b => funext fun d => d.elim0⟩

/-- An extended real whose absolute value max x (-x) lies strictly below +∞ is a real number:
    at -∞ and at +∞ the absolute value is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The per-array step, for any shape: where |X idx| < +∞ (the pattern 0x7F800000) tests true at every index,
    every entry of X is a real number. -/
theorem real_of_test {s : Shape}
    (hb : Cert.Pre_finite_inputs.S_.BroadcastsInDim s (![] : Fin 0 → Fin s.rank)) (X : FVec Ideal s .f32)
    (h : ∀ idx, cmpf .olt (Host.absf X)
      (broadcastInDim s ![] hb (constant (F := Ideal) Cert.Pre_finite_inputs.S_ .f32 0x7F800000#32)) idx = 1#1)
    (idx : s.Idx) : ∃ r : ℝ, X idx = (r : EReal) := by
  have e : Ideal.ofBits .f32 0x7F800000#32 = (⊤ : EReal) := by simp [Ideal.ofBits, Ideal.ieee]
  have h1 := h idx
  change BitVec.ofBool (decide (max (X idx) (-(X idx)) < Ideal.ofBits .f32 0x7F800000#32)) = 1#1 at h1
  rw [e] at h1
  refine real_of_abs_lt_top (X idx) ?_
  by_contra hn
  simp [hn] at h1

/-- From the printed precondition: the entries of adj, x and W3 are real numbers. -/
theorem finite_of_pre (h : Cert.Pre_KernelIdeal m) (c : Dev nD) :
    Finite2 (adjM m c) ∧ Finite2 (xM m c) ∧ Finite2 (w3M m c) := by
  have h0 := congrFun (h c) ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨h3, h7⟩, -⟩, h17⟩, -⟩, -⟩, -⟩, -⟩, -⟩ := h0
  refine ⟨fun i j => ?_, fun i j => ?_, fun i j => ?_⟩
  · exact real_of_test _ _ (Host.reduce_andi_all _ _ _ _ _ h7) (ix2 i j)
  · exact real_of_test _ _ (Host.reduce_andi_all _ _ _ _ _ h3) (ix2 i j)
  · exact real_of_test _ _ (Host.reduce_andi_all _ _ _ _ _ h17) (ix2 i j)

end Cert.KernelIdeal.KVal

end
-- ==== Proof.Value.RefVal.lean ====
/-
  The reference's result, read one host operation at a time, is the network `Cert.Gcn.netR` of the nine argument
  arrays: three times a product with the weights, a product with the adjacency, the bias row added, the clamp at zero.
-/
import proofs.«128992_g77695958385291_cont_9to1c4b_463_14_alg».proof.Proof.Gen.ReferenceIdeal.Read
import proofs.«128992_g77695958385291_cont_9to1c4b_463_14_alg».proof.Proof.Value.Spec

noncomputable section

namespace Cert.ReferenceIdeal.RefValue

open scoped BigOperators
open Cert.ReferenceIdeal Cert.ReferenceIdeal.Gen Cert.ReferenceIdeal.Read Cert.Gcn Idealize.ShloMosaic Idealize.ShloMosaic.TcCoe Idealize.SL.Sem Idealize.ShloMosaic.StableHlo Idealize.ShloMosaic.ValueIdx

/-- A sum whose terms are the products of a row of `a` with a column of `b` is an entry of the matrix product. -/
theorem sum_eq_mm {n k p : ℕ} (a : Fin n → Fin k → EReal) (b : Fin k → Fin p → EReal) (i : Fin n) (j : Fin p)
    (f : Fin k → EReal) (h : ∀ l, f l = a i l * b l j) : ∑ l, f l = mm a b i j :=
  Finset.sum_congr rfl fun l _ => h l

variable (x0 : (⟨S4096x128, .f32⟩ : BufTy).Contents (Elt Ideal)) (x1 x2 : (⟨S4096x4096, .f32⟩ : BufTy).Contents (Elt Ideal))
  (x3 : (⟨S128x512, .f32⟩ : BufTy).Contents (Elt Ideal)) (x4 : (⟨S512, .f32⟩ : BufTy).Contents (Elt Ideal))
  (x5 : (⟨S512x256, .f32⟩ : BufTy).Contents (Elt Ideal)) (x6 : (⟨S256, .f32⟩ : BufTy).Contents (Elt Ideal))
  (x7 : (⟨S256x128, .f32⟩ : BufTy).Contents (Elt Ideal)) (x8 : (⟨S128, .f32⟩ : BufTy).Contents (Elt Ideal))

/-- The features times the first weights. -/
theorem v0_eq : val_main_v0 (F := Ideal) x0 x3 = fun i => mm (arr2 x0) (arr2 x3) (i 0) (i 1) := by
  funext i
  rw [val_main_v0_apply]
  refine sum_eq_mm _ _ _ _ _ fun k => ?_
  have hl : lidx_main_v0 i k = ix2 (i 0) k := funext fun a => Fin.ext (by match a with | ⟨0, _⟩ => rfl | ⟨1, _⟩ => rfl)
  have hr : ridx_main_v0 i k = ix2 k (i 1) := funext fun a => Fin.ext (by match a with | ⟨0, _⟩ => rfl | ⟨1, _⟩ => rfl)
  rw [hl, hr]
  rfl

/-- The adjacency times that product. -/
theorem v1_eq : val_main_v1 (F := Ideal) x0 x1 x3 = fun i => mm (arr2 x1) (mm (arr2 x0) (arr2 x3)) (i 0) (i 1) := by
  funext i
  rw [val_main_v1_apply, v0_eq]
  refine sum_eq_mm _ _ _ _ _ fun k => ?_
  have hl : lidx_main_v1 i k = ix2 (i 0) k := funext fun a => Fin.ext (by match a with | ⟨0, _⟩ => rfl | ⟨1, _⟩ => rfl)
  have hr : ridx_main_v1 i k = ix2 k (i 1) := funext fun a => Fin.ext (by match a with | ⟨0, _⟩ => rfl | ⟨1, _⟩ => rfl)
  rw [hl, hr]
  rfl

/-- Layer 1: the bias row added and the clamp at zero. -/
theorem v5_eq : val_main_v5 (F := Ideal) x0 x1 x3 x4 =
    fun i => biasRelu (mm (arr2 x1) (mm (arr2 x0) (arr2 x3))) (arr1 x4) (i 0) (i 1) := by
  funext i
  rw [val_main_v5_apply, val_main_v4_apply, v1_eq, val_main_v3_apply, val_main_v2_apply, val_main_call0_v0_apply,
    val_main_call0_cst_apply]
  have hb : idx_main_v2 (idx_main_v3 i) = ix1 (i 1) := funext fun a => Fin.ext (by match a with | ⟨0, _⟩ => rfl)
  rw [hb, Ideal.ofBits_def, Ideal.ofBits_zero_f32]
  rfl

/-- Layer 1's result times the second weights. -/
theorem v6_eq : val_main_v6 (F := Ideal) x0 x1 x3 x4 x5 =
    fun i => mm (biasRelu (mm (arr2 x1) (mm (arr2 x0) (arr2 x3))) (arr1 x4)) (arr2 x5) (i 0) (i 1) := by
  funext i
  rw [val_main_v6_apply, v5_eq]
  refine sum_eq_mm _ _ _ _ _ fun k => ?_
  have hl : lidx_main_v6 i k = ix2 (i 0) k := funext fun a => Fin.ext (by match a with | ⟨0, _⟩ => rfl | ⟨1, _⟩ => rfl)
  have hr : ridx_main_v6 i k = ix2 k (i 1) := funext fun a => Fin.ext (by match a with | ⟨0, _⟩ => rfl | ⟨1, _⟩ => rfl)
  rw [hl, hr]
  rfl

/-- The second adjacency times that product. -/
theorem v7_eq : val_main_v7 (F := Ideal) x0 x1 x2 x3 x4 x5 =
    fun i => mm (arr2 x2) (mm (biasRelu (mm (arr2 x1) (mm (arr2 x0) (arr2 x3))) (arr1 x4)) (arr2 x5)) (i 0) (i 1) := by
  funext i
  rw [val_main_v7_apply, v6_eq]
  refine sum_eq_mm _ _ _ _ _ fun k => ?_
  have hl : lidx_main_v7 i k = ix2 (i 0) k := funext fun a => Fin.ext (by match a with | ⟨0, _⟩ => rfl | ⟨1, _⟩ => rfl)
  have hr : ridx_main_v7 i k = ix2 k (i 1) := funext fun a => Fin.ext (by match a with | ⟨0, _⟩ => rfl | ⟨1, _⟩ => rfl)
  rw [hl, hr]
  rfl

/-- Layer 2: the bias row added and the clamp at zero. -/
theorem v11_eq : val_main_v11 (F := Ideal) x0 x1 x2 x3 x4 x5 x6 =
    fun i => biasRelu (mm (arr2 x2) (mm (biasRelu (mm (arr2 x1) (mm (arr2 x0) (arr2 x3))) (arr1 x4)) (arr2 x5)))
      (arr1 x6) (i 0) (i 1) := by
  funext i
  rw [val_main_v11_apply, val_main_v10_apply, v7_eq, val_main_v9_apply, val_main_v8_apply, val_main_call1_v0_apply,
    val_main_call1_cst_apply]
  have hb : idx_main_v8 (idx_main_v9 i) = ix1 (i 1) := funext fun a => Fin.ext (by match a with | ⟨0, _⟩ => rfl)
  rw [hb, Ideal.ofBits_def, Ideal.ofBits_zero_f32]
  rfl

/-- Layer 2's result times the third weights. -/
theorem v12_eq : val_main_v12 (F := Ideal) x0 x1 x2 x3 x4 x5 x6 x7 =
    fun i => mm (biasRelu (mm (arr2 x2) (mm (biasRelu (mm (arr2 x1) (mm (arr2 x0) (arr2 x3))) (arr1 x4)) (arr2 x5)))
      (arr1 x6)) (arr2 x7) (i 0) (i 1) := by
  funext i
  rw [val_main_v12_apply, v11_eq]
  refine sum_eq_mm _ _ _ _ _ fun k => ?_
  have hl : lidx_main_v12 i k = ix2 (i 0) k := funext fun a => Fin.ext (by match a with | ⟨0, _⟩ => rfl | ⟨1, _⟩ => rfl)
  have hr : ridx_main_v12 i k = ix2 k (i 1) := funext fun a => Fin.ext (by match a with | ⟨0, _⟩ => rfl | ⟨1, _⟩ => rfl)
  rw [hl, hr]
  rfl

/-- The second adjacency times that product. -/
theorem v13_eq : val_main_v13 (F := Ideal) x0 x1 x2 x3 x4 x5 x6 x7 =
    fun i => mm (arr2 x2) (mm (biasRelu (mm (arr2 x2) (mm (biasRelu (mm (arr2 x1) (mm (arr2 x0) (arr2 x3))) (arr1 x4))
      (arr2 x5))) (arr1 x6)) (arr2 x7)) (i 0) (i 1) := by
  funext i
  rw [val_main_v13_apply, v12_eq]
  refine sum_eq_mm _ _ _ _ _ fun k => ?_
  have hl : lidx_main_v13 i k = ix2 (i 0) k := funext fun a => Fin.ext (by match a with | ⟨0, _⟩ => rfl | ⟨1, _⟩ => rfl)
  have hr : ridx_main_v13 i k = ix2 k (i 1) := funext fun a => Fin.ext (by match a with | ⟨0, _⟩ => rfl | ⟨1, _⟩ => rfl)
  rw [hl, hr]
  rfl

/-- Layer 3, the reference's result: the network that projects by the weights before it propagates. -/
theorem ref_eq : val_main_v17 (F := Ideal) x0 x1 x2 x3 x4 x5 x6 x7 x8 =
    fun i => netR (arr2 x1) (arr2 x2) (arr2 x0) (arr2 x3) (arr1 x4) (arr2 x5) (arr1 x6) (arr2 x7) (arr1 x8) (i 0) (i 1) := by
  funext i
  rw [val_main_v17_apply, val_main_v16_apply, v13_eq, val_main_v15_apply, val_main_v14_apply, val_main_call2_v0_apply,
    val_main_call2_cst_apply]
  have hb : idx_main_v14 (idx_main_v15 i) = ix1 (i 1) := funext fun a => Fin.ext (by match a with | ⟨0, _⟩ => rfl)
  rw [hb, Ideal.ofBits_def, Ideal.ofBits_zero_f32]
  rfl

end Cert.ReferenceIdeal.RefValue

end
-- ==== Proof.lean ====
/-
  The certificate of the fused three-layer graph-convolution kernel against its jnp reference.
  Frames: the kernel's body is run once per control case of its 49-point grid (seven cases), the scratch buffers
  carried from point to point under an invariant that names, before each point, which row blocks of the supports and of
  the cached adjacency are already final; the reference's frame is its run with the result dropped.
  Value, over the extended reals: the kernel computes relu((adj · x) · W3 + b3) for layer 1 where the reference
  computes relu(adj · (x · W3) + b3); on finite inputs the two products agree (associativity over the reals, which is
  where the precondition is used), and the two later layers are the same expression of layer 1's result on both sides.
  The idealization rewrote nothing, so `preserves` is trivial.
-/
import proofs.«128992_g77695958385291_cont_9to1c4b_463_14_alg».proof.Defs
import proofs.«128992_g77695958385291_cont_9to1c4b_463_14_alg».proof.Proof.Gen.Kernel
import proofs.«128992_g77695958385291_cont_9to1c4b_463_14_alg».proof.Proof.Gen.KernelIdeal
import proofs.«128992_g77695958385291_cont_9to1c4b_463_14_alg».proof.Proof.Gen.ReferenceIdeal
import proofs.«128992_g77695958385291_cont_9to1c4b_463_14_alg».proof.Proof.Gen.Pre_finite_inputs
import proofs.«128992_g77695958385291_cont_9to1c4b_463_14_alg».proof.Proof.Gen.ReferenceIdeal.Run
import proofs.«128992_g77695958385291_cont_9to1c4b_463_14_alg».proof.Proof.BodyK.Run
import proofs.«128992_g77695958385291_cont_9to1c4b_463_14_alg».proof.Proof.Value.KernelRun
import proofs.«128992_g77695958385291_cont_9to1c4b_463_14_alg».proof.Proof.Value.Finite
import proofs.«128992_g77695958385291_cont_9to1c4b_463_14_alg».proof.Proof.Value.RefVal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the arguments: the kernel by its run (the output array assembled from
    the sixteen row blocks), the reference by its run read one operation at a time; the two networks differ in the
    order of layer 1's two products, which agree on finite entries. -/
theorem algebraic : Cert.algebraic_KernelIdeal_ReferenceIdeal := by
  intro m ρ m' ρ' hpre hagree
  refine ⟨fun c => Cert.KernelIdeal.KVal.netArr m c, Cert.KernelIdeal.KVal.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hadj, hx, hw3⟩ := Cert.KernelIdeal.KVal.finite_of_pre m hpre c
  rw [Cert.ReferenceIdeal.Read.val_main_v17_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  funext i
  exact (congrFun (congrFun (Cert.Gcn.netK_eq_netR _ _ _ _ _ _ _ _ _ hadj hx hw3) (i 0)) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
